-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x5x2 : Shape := ⟨3, ![200000, 5, 2]⟩
abbrev S200000x2 : Shape := ⟨2, ![200000, 2]⟩
abbrev S400000 : Shape := ⟨1, ![400000]⟩
abbrev S5x32x128 : Shape := ⟨3, ![5, 32, 128]⟩
abbrev S20x128 : Shape := ⟨2, ![20, 128]⟩
abbrev S128 : Shape := ⟨1, ![128]⟩
abbrev S256x256 : Shape := ⟨2, ![256, 256]⟩
abbrev S256 : Shape := ⟨1, ![256]⟩
abbrev S6x128 : Shape := ⟨2, ![6, 128]⟩
abbrev S128x256 : Shape := ⟨2, ![128, 256]⟩
abbrev S50x256 : Shape := ⟨2, ![50, 256]⟩
abbrev S32x256 : Shape := ⟨2, ![32, 256]⟩
abbrev S_ : Shape := ⟨0, ![]⟩

class Facts : Prop where
  bcast_S_S200000x2 : S_.BroadcastsInDim S200000x2 (![] : Fin 0 → Fin S200000x2.rank)
  reducesTo_S200000x2_S_d0_1 : S200000x2.ReducesTo [0, 1] S_
  h_S_ : 0 < S_.numel
  bcast_S_S400000 : S_.BroadcastsInDim S400000 (![] : Fin 0 → Fin S400000.rank)
  reducesTo_S400000_S_d0 : S400000.ReducesTo [0] S_
  bcast_S_S5x32x128 : S_.BroadcastsInDim S5x32x128 (![] : Fin 0 → Fin S5x32x128.rank)
  reducesTo_S5x32x128_S_d0_1_2 : S5x32x128.ReducesTo [0, 1, 2] S_
  bcast_S_S20x128 : S_.BroadcastsInDim S20x128 (![] : Fin 0 → Fin S20x128.rank)
  reducesTo_S20x128_S_d0_1 : S20x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S6x128 : S_.BroadcastsInDim S6x128 (![] : Fin 0 → Fin S6x128.rank)
  reducesTo_S6x128_S_d0_1 : S6x128.ReducesTo [0, 1] S_
  bcast_S_S128x256 : S_.BroadcastsInDim S128x256 (![] : Fin 0 → Fin S128x256.rank)
  reducesTo_S128x256_S_d0_1 : S128x256.ReducesTo [0, 1] S_
  bcast_S_S50x256 : S_.BroadcastsInDim S50x256 (![] : Fin 0 → Fin S50x256.rank)
  reducesTo_S50x256_S_d0_1 : S50x256.ReducesTo [0, 1] S_
  bcast_S_S32x256 : S_.BroadcastsInDim S32x256 (![] : Fin 0 → Fin S32x256.rank)
  reducesTo_S32x256_S_d0_1 : S32x256.ReducesTo [0, 1] S_
  bcast_S_S200000x5x2 : S_.BroadcastsInDim S200000x5x2 (![] : Fin 0 → Fin S200000x5x2.rank)
  reducesTo_S200000x5x2_S_d0_1_2 : S200000x5x2.ReducesTo [0, 1, 2] S_

variable [Facts]

def fn_part4 {F : FTy → Type} [FloatOps F] (main_arg0 : IVec S200000x5x2 32) (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_c_28 : IVec S_ 32 := constantI S_ 32 0#32
  let main_v74 : IVec S200000x5x2 32 := broadcastInDim S200000x5x2 ![] bcast_S_S200000x5x2 main_c_28
  let main_v75 : IVec S200000x5x2 1 := cmpi .sge main_arg0 main_v74
  let main_c_29 : IVec S_ 1 := constantI S_ 1 1#1
  let main_v76 : IVec S_ 1 := (fun x v => Host.reduce IntOp.andi x v reducesTo_S200000x5x2_S_d0_1_2 h_S_) main_v75 main_c_29
  let main_v77 : IVec S_ 1 := andi main_v73 main_v76
  let main_c_30 : IVec S_ 32 := constantI S_ 32 32#32
  let main_v78 : IVec S200000x5x2 32 := broadcastInDim S200000x5x2 ![] bcast_S_S200000x5x2 main_c_30
  let main_v79 : IVec S200000x5x2 1 := cmpi .slt main_arg0 main_v78
  let main_c_31 : IVec S_ 1 := constantI S_ 1 1#1
  let main_v80 : IVec S_ 1 := (fun x v => Host.reduce IntOp.andi x v reducesTo_S200000x5x2_S_d0_1_2 h_S_) main_v79 main_c_31
  let main_v81 : IVec S_ 1 := andi main_v77 main_v80
  main_v81

def fn_part3 {F : FTy → Type} [FloatOps F] (main_arg0 : IVec S200000x5x2 32) (main_arg12 : FVec F S50x256 .f32) (main_arg13 : FVec F S256 .f32) (main_arg14 : FVec F S32x256 .f32) (main_arg15 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S50x256 .f32 := Host.absf main_arg12
  let main_cst_20 : FVec F S_ .f32 := constant S_ .f32 0x7F800000#32
  let main_v55 : FVec F S50x256 .f32 := broadcastInDim S50x256 ![] bcast_S_S50x256 main_cst_20
  let main_v56 : IVec S50x256 1 := cmpf .olt main_v54 main_v55
  let main_c_21 : IVec S_ 1 := constantI S_ 1 1#1
  let main_v57 : IVec S_ 1 := (fun x v => Host.reduce IntOp.andi x v reducesTo_S50x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S32x256 .f32 := Host.absf main_arg14
  let main_cst_24 : FVec F S_ .f32 := constant S_ .f32 0x7F800000#32
  let main_v65 : FVec F S32x256 .f32 := broadcastInDim S32x256 ![] bcast_S_S32x256 main_cst_24
  let main_v66 : IVec S32x256 1 := cmpf .olt main_v64 main_v65
  let main_c_25 : IVec S_ 1 := constantI S_ 1 1#1
  let main_v67 : IVec S_ 1 := (fun x v => Host.reduce IntOp.andi x v reducesTo_S32x256_S_d0_1 h_S_) main_v66 main_c_25
  fn_part4 (F := F) main_arg0 main_arg15 main_v63 main_v67

def fn_part2 {F : FTy → Type} [FloatOps F] (main_arg0 : IVec S200000x5x2 32) (main_arg8 : FVec F S256 .f32) (main_arg9 : FVec F S6x128 .f32) (main_arg10 : FVec F S128x256 .f32) (main_arg11 : FVec F S256 .f32) (main_arg12 : FVec F S50x256 .f32) (main_arg13 : FVec F S256 .f32) (main_arg14 : FVec F S32x256 .f32) (main_arg15 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S6x128 .f32 := Host.absf main_arg9
  let main_cst_14 : FVec F S_ .f32 := constant S_ .f32 0x7F800000#32
  let main_v40 : FVec F S6x128 .f32 := broadcastInDim S6x128 ![] bcast_S_S6x128 main_cst_14
  let main_v41 : IVec S6x128 1 := cmpf .olt main_v39 main_v40
  let main_c_15 : IVec S_ 1 := constantI S_ 1 1#1
  let main_v42 : IVec S_ 1 := (fun x v => Host.reduce IntOp.andi x v reducesTo_S6x128_S_d0_1 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg0 main_arg12 main_arg13 main_arg14 main_arg15 main_v48 main_v49 main_v50

def fn_part1 {F : FTy → Type} [FloatOps F] (main_arg0 : IVec S200000x5x2 32) (main_arg5 : FVec F S20x128 .f32) (main_arg6 : FVec F S128 .f32) (main_arg7 : FVec F S256x256 .f32) (main_arg8 : FVec F S256 .f32) (main_arg9 : FVec F S6x128 .f32) (main_arg10 : FVec F S128x256 .f32) (main_arg11 : FVec F S256 .f32) (main_arg12 : FVec F S50x256 .f32) (main_arg13 : FVec F S256 .f32) (main_arg14 : FVec F S32x256 .f32) (main_arg15 : FVec F S256 .f32) (main_v13 : IVec S_ 1) (main_v16 : IVec S5x32x128 1) : IVec S_ 1 :=
  let main_c_5 : IVec S_ 1 := constantI S_ 1 1#1
  let main_v17 : IVec S_ 1 := (fun x v => Host.reduce IntOp.andi x v reducesTo_S5x32x128_S_d0_1_2 h_S_) main_v16 main_c_5
  let main_v18 : IVec S_ 1 := andi main_v13 main_v17
  let main_v19 : FVec F S20x128 .f32 := Host.absf main_arg5
  let main_cst_6 : FVec F S_ .f32 := constant S_ .f32 0x7F800000#32
  let main_v20 : FVec F S20x128 .f32 := broadcastInDim S20x128 ![] bcast_S_S20x128 main_cst_6
  let main_v21 : IVec S20x128 1 := cmpf .olt main_v19 main_v20
  let main_c_7 : IVec S_ 1 := constantI S_ 1 1#1
  let main_v22 : IVec S_ 1 := (fun x v => Host.reduce IntOp.andi x v reducesTo_S20x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg0 main_arg8 main_arg9 main_arg10 main_arg11 main_arg12 main_arg13 main_arg14 main_arg15 main_v33

def fn {F : FTy → Type} [FloatOps F] (main_arg0 : IVec S200000x5x2 32) (main_arg1 : FVec F S200000x2 .f32) (main_arg2 : FVec F S400000 .f32) (main_arg3 : FVec F S400000 .f32) (main_arg4 : FVec F S5x32x128 .f32) (main_arg5 : FVec F S20x128 .f32) (main_arg6 : FVec F S128 .f32) (main_arg7 : FVec F S256x256 .f32) (main_arg8 : FVec F S256 .f32) (main_arg9 : FVec F S6x128 .f32) (main_arg10 : FVec F S128x256 .f32) (main_arg11 : FVec F S256 .f32) (main_arg12 : FVec F S50x256 .f32) (main_arg13 : FVec F S256 .f32) (main_arg14 : FVec F S32x256 .f32) (main_arg15 : FVec F S256 .f32) : IVec S_ 1 :=
  let main_v0 : FVec F S200000x2 .f32 := Host.absf main_arg1
  let main_cst : FVec F S_ .f32 := constant S_ .f32 0x7F800000#32
  let main_v1 : FVec F S200000x2 .f32 := broadcastInDim S200000x2 ![] bcast_S_S200000x2 main_cst
  let main_v2 : IVec S200000x2 1 := cmpf .olt main_v0 main_v1
  let main_c : IVec S_ 1 := constantI S_ 1 1#1
  let main_v3 : IVec S_ 1 := (fun x v => Host.reduce IntOp.andi x v reducesTo_S200000x2_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S400000 .f32 := Host.absf main_arg3
  let main_cst_2 : FVec F S_ .f32 := constant S_ .f32 0x7F800000#32
  let main_v10 : FVec F S400000 .f32 := broadcastInDim S400000 ![] bcast_S_S400000 main_cst_2
  let main_v11 : IVec S400000 1 := cmpf .olt main_v9 main_v10
  let main_c_3 : IVec S_ 1 := constantI S_ 1 1#1
  let main_v12 : IVec S_ 1 := (fun x v => Host.reduce IntOp.andi x v reducesTo_S400000_S_d0 h_S_) main_v11 main_c_3
  let main_v13 : IVec S_ 1 := andi main_v8 main_v12
  let main_v14 : FVec F S5x32x128 .f32 := Host.absf main_arg4
  let main_cst_4 : FVec F S_ .f32 := constant S_ .f32 0x7F800000#32
  let main_v15 : FVec F S5x32x128 .f32 := broadcastInDim S5x32x128 ![] bcast_S_S5x32x128 main_cst_4
  let main_v16 : IVec S5x32x128 1 := cmpf .olt main_v14 main_v15
  fn_part1 (F := F) main_arg0 main_arg5 main_arg6 main_arg7 main_arg8 main_arg9 main_arg10 main_arg11 main_arg12 main_arg13 main_arg14 main_arg15 main_v13 main_v16
-- ==== Kernel.lean ====
abbrev S200000x5x2 : Shape := ⟨3, ![200000, 5, 2]⟩
abbrev S200000x2 : Shape := ⟨2, ![200000, 2]⟩
abbrev S400000 : Shape := ⟨1, ![400000]⟩
abbrev S5x32x128 : Shape := ⟨3, ![5, 32, 128]⟩
abbrev S20x128 : Shape := ⟨2, ![20, 128]⟩
abbrev S128 : Shape := ⟨1, ![128]⟩
abbrev S256x256 : Shape := ⟨2, ![256, 256]⟩
abbrev S256 : Shape := ⟨1, ![256]⟩
abbrev S6x128 : Shape := ⟨2, ![6, 128]⟩
abbrev S128x256 : Shape := ⟨2, ![128, 256]⟩
abbrev S50x256 : Shape := ⟨2, ![50, 256]⟩
abbrev S32x256 : Shape := ⟨2, ![32, 256]⟩
abbrev S20 : Shape := ⟨1, ![20]⟩
abbrev S50 : Shape := ⟨1, ![50]⟩
abbrev S32 : Shape := ⟨1, ![32]⟩
abbrev S200000x10 : Shape := ⟨2, ![200000, 10]⟩
abbrev S200000x12 : Shape := ⟨2, ![200000, 12]⟩
abbrev S1x128 : Shape := ⟨2, ![1, 128]⟩
abbrev S1x256 : Shape := ⟨2, ![1, 256]⟩
abbrev S1x20 : Shape := ⟨2, ![1, 20]⟩
abbrev S200000x256 : Shape := ⟨2, ![200000, 256]⟩
abbrev S8000x12 : Shape := ⟨2, ![8000, 12]⟩
abbrev S8000x256 : Shape := ⟨2, ![8000, 256]⟩
abbrev S8000x128 : Shape := ⟨2, ![8000, 128]⟩
abbrev S8000x1 : Shape := ⟨2, ![8000, 1]⟩
abbrev S8000 : Shape := ⟨1, ![8000]⟩
abbrev S1x32x128 : Shape := ⟨3, ![1, 32, 128]⟩
abbrev S32x128 : Shape := ⟨2, ![32, 128]⟩
abbrev S8000x32 : Shape := ⟨2, ![8000, 32]⟩
abbrev S8000x20 : Shape := ⟨2, ![8000, 20]⟩
abbrev S1x400000 : Shape := ⟨2, ![1, 400000]⟩
abbrev S400000x256 : Shape := ⟨2, ![400000, 256]⟩
abbrev S1x16000 : Shape := ⟨2, ![1, 16000]⟩
abbrev S16000x256 : Shape := ⟨2, ![16000, 256]⟩
abbrev S16000 : Shape := ⟨1, ![16000]⟩
abbrev S16000x6 : Shape := ⟨2, ![16000, 6]⟩
abbrev S16000x1 : Shape := ⟨2, ![16000, 1]⟩
abbrev S16000x128 : Shape := ⟨2, ![16000, 128]⟩
abbrev S1x50 : Shape := ⟨2, ![1, 50]⟩
abbrev S16000x50 : Shape := ⟨2, ![16000, 50]⟩
abbrev S1x32 : Shape := ⟨2, ![1, 32]⟩
abbrev S16000x32 : Shape := ⟨2, ![16000, 32]⟩

abbrev nBuf : Space → Nat
  | .hbm => 37
  | .vmem => 31
  | .smem => 0
  | _ => 0

abbrev bufTy : (tb : Table) → Fin (tcTables nBuf tb) → BufTy
  | .hbm, ⟨0, _⟩ => ⟨S200000x5x2, .i32⟩
  | .hbm, ⟨1, _⟩ => ⟨S200000x2, .f32⟩
  | .hbm, ⟨2, _⟩ => ⟨S400000, .f32⟩
  | .hbm, ⟨3, _⟩ => ⟨S400000, .f32⟩
  | .hbm, ⟨4, _⟩ => ⟨S5x32x128, .f32⟩
  | .hbm, ⟨5, _⟩ => ⟨S20x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S6x128, .f32⟩
  | .hbm, ⟨10, _⟩ => ⟨S128x256, .f32⟩
  | .hbm, ⟨11, _⟩ => ⟨S256, .f32⟩
  | .hbm, ⟨12, _⟩ => ⟨S50x256, .f32⟩
  | .hbm, ⟨13, _⟩ => ⟨S256, .f32⟩
  | .hbm, ⟨14, _⟩ => ⟨S32x256, .f32⟩
  | .hbm, ⟨15, _⟩ => ⟨S256, .f32⟩
  | .hbm, ⟨16, _⟩ => ⟨S20, .f32⟩
  | .hbm, ⟨17, _⟩ => ⟨S50, .f32⟩
  | .hbm, ⟨18, _⟩ => ⟨S32, .f32⟩
  | .hbm, ⟨19, _⟩ => ⟨S200000x5x2, .f32⟩
  | .hbm, ⟨20, _⟩ => ⟨S200000x10, .f32⟩
  | .hbm, ⟨21, _⟩ => ⟨S200000x12, .f32⟩
  | .hbm, ⟨22, _⟩ => ⟨S1x128, .f32⟩
  | .hbm, ⟨23, _⟩ => ⟨S1x256, .f32⟩
  | .hbm, ⟨24, _⟩ => ⟨S1x20, .f32⟩
  | .hbm, ⟨25, _⟩ => ⟨S200000x256, .f32⟩
  | .hbm, ⟨26, _⟩ => ⟨S1x400000, .f32⟩
  | .hbm, ⟨27, _⟩ => ⟨S1x256, .f32⟩
  | .hbm, ⟨28, _⟩ => ⟨S400000x256, .f32⟩
  | .hbm, ⟨29, _⟩ => ⟨S1x400000, .f32⟩
  | .hbm, ⟨30, _⟩ => ⟨S1x50, .f32⟩
  | .hbm, ⟨31, _⟩ => ⟨S1x256, .f32⟩
  | .hbm, ⟨32, _⟩ => ⟨S400000x256, .f32⟩
  | .hbm, ⟨33, _⟩ => ⟨S1x400000, .f32⟩
  | .hbm, ⟨34, _⟩ => ⟨S1x32, .f32⟩
  | .hbm, ⟨35, _⟩ => ⟨S1x256, .f32⟩
  | .hbm, ⟨36, _⟩ => ⟨S400000x256, .f32⟩
  | .local _ .vmem, ⟨0, _⟩ => ⟨S8000x12, .f32⟩
  | .local _ .vmem, ⟨1, _⟩ => ⟨S8000x12, .f32⟩
  | .local _ .vmem, ⟨2, _⟩ => ⟨S5x32x128, .f32⟩
  | .local _ .vmem, ⟨3, _⟩ => ⟨S20x128, .f32⟩
  | .local _ .vmem, ⟨4, _⟩ => ⟨S1x128, .f32⟩
  | .local _ .vmem, ⟨5, _⟩ => ⟨S256x256, .f32⟩
  | .local _ .vmem, ⟨6, _⟩ => ⟨S1x256, .f32⟩
  | .local _ .vmem, ⟨7, _⟩ => ⟨S1x20, .f32⟩
  | .local _ .vmem, ⟨8, _⟩ => ⟨S8000x256, .f32⟩
  | .local _ .vmem, ⟨9, _⟩ => ⟨S8000x256, .f32⟩
  | .local _ .vmem, ⟨10, _⟩ => ⟨S1x16000, .f32⟩
  | .local _ .vmem, ⟨11, _⟩ => ⟨S1x16000, .f32⟩
  | .local _ .vmem, ⟨12, _⟩ => ⟨S6x128, .f32⟩
  | .local _ .vmem, ⟨13, _⟩ => ⟨S128x256, .f32⟩
  | .local _ .vmem, ⟨14, _⟩ => ⟨S1x256, .f32⟩
  | .local _ .vmem, ⟨15, _⟩ => ⟨S16000x256, .f32⟩
  | .local _ .vmem, ⟨16, _⟩ => ⟨S16000x256, .f32⟩
  | .local _ .vmem, ⟨17, _⟩ => ⟨S1x16000, .f32⟩
  | .local _ .vmem, ⟨18, _⟩ => ⟨S1x16000, .f32⟩
  | .local _ .vmem, ⟨19, _⟩ => ⟨S1x50, .f32⟩
  | .local _ .vmem, ⟨20, _⟩ => ⟨S50x256, .f32⟩
  | .local _ .vmem, ⟨21, _⟩ => ⟨S1x256, .f32⟩
  | .local _ .vmem, ⟨22, _⟩ => ⟨S16000x256, .f32⟩
  | .local _ .vmem, ⟨23, _⟩ => ⟨S16000x256, .f32⟩
  | .local _ .vmem, ⟨24, _⟩ => ⟨S1x16000, .f32⟩
  | .local _ .vmem, ⟨25, _⟩ => ⟨S1x16000, .f32⟩
  | .local _ .vmem, ⟨26, _⟩ => ⟨S1x32, .f32⟩
  | .local _ .vmem, ⟨27, _⟩ => ⟨S32x256, .f32⟩
  | .local _ .vmem, ⟨28, _⟩ => ⟨S1x256, .f32⟩
  | .local _ .vmem, ⟨29, _⟩ => ⟨S16000x256, .f32⟩
  | .local _ .vmem, ⟨30, _⟩ => ⟨S16000x256, .f32⟩
  | _, _ => ⟨S200000x5x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_cst_1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x16000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x50 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S50x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x16000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S16000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S200000x5x2_S200000x10 : S200000x5x2.ShapeCasts S200000x10
  concatenates_S200000x10_S200000x2_S200000x12_d1 : Shape.Concatenates [S200000x10, S200000x2] S200000x12 1
  shapeCasts_S128_S1x128 : S128.ShapeCasts S1x128
  shapeCasts_S256_S1x256 : S256.ShapeCasts S1x256
  shapeCasts_S20_S1x20 : S20.ShapeCasts S1x20
  inb_S8000x12_S8000x12_0_0 : ∀ a, (![0, 0] : Fin 2 → Nat) a + S8000x12.size a ≤ S8000x12.size a
  h_S8000x12 : 0 < S8000x12.numel
  shapeCasts_S8000x12_S8000x12 : S8000x12.ShapeCasts S8000x12
  inb_S5x32x128_S5x32x128_0_0_0 : ∀ a, (![0, 0, 0] : Fin 3 → Nat) a + S5x32x128.size a ≤ S5x32x128.size a
  h_S5x32x128 : 0 < S5x32x128.numel
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x20_S1x20_0_0 : ∀ a, (![0, 0] : Fin 2 → Nat) a + S1x20.size a ≤ S1x20.size a
  h_S1x20 : 0 < S1x20.numel
  shapeCasts_S1x20_S1x20 : S1x20.ShapeCasts S1x20
  slices_S8000x12_o0_0_S8000x1 : S8000x12.Slices ![0, 0] S8000x1
  shapeCasts_S8000x1_S8000 : S8000x1.ShapeCasts S8000
  slices_S5x32x128_o0_0_0_S1x32x128 : S5x32x128.Slices ![0, 0, 0] S1x32x128
  shapeCasts_S1x32x128_S32x128 : S1x32x128.ShapeCasts S32x128
  iota_S8000x32_d1_w32 : S8000x32.Iotas .tc 32 [1]
  shapeCasts_S8000_S8000x1 : S8000.ShapeCasts S8000x1
  broadcasts_S8000x1_S8000x32 : S8000x1.Broadcasts S8000x32
  natLt_1_32 : 1 < 32
  slices_S8000x12_o0_2_S8000x1 : S8000x12.Slices ![0, 2] S8000x1
  slices_S5x32x128_o1_0_0_S1x32x128 : S5x32x128.Slices ![1, 0, 0] S1x32x128
  slices_S8000x12_o0_4_S8000x1 : S8000x12.Slices ![0, 4] S8000x1
  slices_S5x32x128_o2_0_0_S1x32x128 : S5x32x128.Slices ![2, 0, 0] S1x32x128
  slices_S8000x12_o0_6_S8000x1 : S8000x12.Slices ![0, 6] S8000x1
  slices_S5x32x128_o3_0_0_S1x32x128 : S5x32x128.Slices ![3, 0, 0] S1x32x128
  slices_S8000x12_o0_8_S8000x1 : S8000x12.Slices ![0, 8] S8000x1
  slices_S5x32x128_o4_0_0_S1x32x128 : S5x32x128.Slices ![4, 0, 0] S1x32x128
  slices_S8000x12_o0_10_S8000x1 : S8000x12.Slices ![0, 10] S8000x1
  broadcasts_S8000x1_S8000x20 : S8000x1.Broadcasts S8000x20
  broadcasts_S1x20_S8000x20 : S1x20.Broadcasts S8000x20
  broadcasts_S1x128_S8000x128 : S1x128.Broadcasts S8000x128
  slices_S8000x12_o0_1_S8000x1 : S8000x12.Slices ![0, 1] S8000x1
  slices_S8000x12_o0_3_S8000x1 : S8000x12.Slices ![0, 3] S8000x1
  slices_S8000x12_o0_5_S8000x1 : S8000x12.Slices ![0, 5] S8000x1
  slices_S8000x12_o0_7_S8000x1 : S8000x12.Slices ![0, 7] S8000x1
  slices_S8000x12_o0_9_S8000x1 : S8000x12.Slices ![0, 9] S8000x1
  slices_S8000x12_o0_11_S8000x1 : S8000x12.Slices ![0, 11] S8000x1
  concatenates_S8000x128_S8000x128_S8000x256_d1 : Shape.Concatenates [S8000x128, S8000x128] S8000x256 1
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  shapeCasts_S400000_S1x400000 : S400000.ShapeCasts S1x400000
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  shapeCasts_S1x16000_S16000 : S1x16000.ShapeCasts S16000
  inb_S6x128_S6x128_0_0 : ∀ a, (![0, 0] : Fin 2 → Nat) a + S6x128.size a ≤ S6x128.size a
  h_S6x128 : 0 < S6x128.numel
  iota_S16000x6_d1_w32 : S16000x6.Iotas .tc 32 [1]
  shapeCasts_S16000_S16000x1 : S16000.ShapeCasts S16000x1
  broadcasts_S16000x1_S16000x6 : S16000x1.Broadcasts S16000x6
  inb_S128x256_S128x256_0_0 : ∀ a, (![0, 0] : Fin 2 → Nat) a + S128x256.size a ≤ S128x256.size a
  h_S128x256 : 0 < S128x256.numel
  broadcasts_S1x256_S16000x256 : S1x256.Broadcasts S16000x256
  inb_S16000x256_S16000x256_0_0 : ∀ a, (![0, 0] : Fin 2 → Nat) a + S16000x256.size a ≤ S16000x256.size a
  h_S16000x256 : 0 < S16000x256.numel
  shapeCasts_S50_S1x50 : S50.ShapeCasts S1x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S16000x1_S16000x50 : S16000x1.Broadcasts S16000x50
  broadcasts_S1x50_S16000x50 : S1x50.Broadcasts S16000x50
  inb_S50x256_S50x256_0_0 : ∀ a, (![0, 0] : Fin 2 → Nat) a + S50x256.size a ≤ S50x256.size a
  h_S50x256 : 0 < S50x256.numel
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S16000x1_S16000x32 : S16000x1.Broadcasts S16000x32
  broadcasts_S1x32_S16000x32 : S1x32.Broadcasts S16000x32
  inb_S32x256_S32x256_0_0 : ∀ a, (![0, 0] : Fin 2 → Nat) a + S32x256.size a ≤ S32x256.size a
  h_S32x256 : 0 < S32x256.numel
  dot_S8000x32_S32x128_S8000x128_1_0_0_1_n_n_wf : DotDims.WF S8000x32 S32x128 S8000x128 [1] [0] [0] [1] [] []
  dot_S8000x20_S20x128_S8000x128_1_0_0_1_n_n_wf : DotDims.WF S8000x20 S20x128 S8000x128 [1] [0] [0] [1] [] []
  dot_S8000x256_S256x256_S8000x256_1_0_0_1_n_n_wf : DotDims.WF S8000x256 S256x256 S8000x256 [1] [0] [0] [1] [] []
  dot_S16000x6_S6x128_S16000x128_1_0_0_1_n_n_wf : DotDims.WF S16000x6 S6x128 S16000x128 [1] [0] [0] [1] [] []
  dot_S16000x128_S128x256_S16000x256_1_0_0_1_n_n_wf : DotDims.WF S16000x128 S128x256 S16000x256 [1] [0] [0] [1] [] []
  dot_S16000x50_S50x256_S16000x256_1_0_0_1_n_n_wf : DotDims.WF S16000x50 S50x256 S16000x256 [1] [0] [0] [1] [] []
  dot_S16000x32_S32x256_S16000x256_1_0_0_1_n_n_wf : DotDims.WF S16000x32 S32x256 S16000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x12.size a ≤ S200000x12.size a
  hwx0_0 : ∀ i : grid0.Coords, EltTy.bits .f32 = 32 ∨ (Rect.block (s := S200000x12) S8000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32x128.size a ≤ S5x32x128.size a
  hwx0_1 : ∀ i : grid0.Coords, EltTy.bits .f32 = 32 ∨ (Rect.block (s := S5x32x128) S5x32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x128.size a ≤ S20x128.size a
  hwx0_2 : ∀ i : grid0.Coords, EltTy.bits .f32 = 32 ∨ (Rect.block (s := S20x128) S20x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x20.size a ≤ S1x20.size a
  hwx0_6 : ∀ i : grid0.Coords, EltTy.bits .f32 = 32 ∨ (Rect.block (s := S1x20) S1x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x256.size a ≤ S200000x256.size a
  hwx0_7 : ∀ i : grid0.Coords, EltTy.bits .f32 = 32 ∨ (Rect.block (s := S200000x256) S8000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16000.size a ≤ S1x400000.size a
  hwx1_0 : ∀ i : grid1.Coords, EltTy.bits .f32 = 32 ∨ (Rect.block (s := S1x400000) S1x16000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x128.size a ≤ S6x128.size a
  hwx1_1 : ∀ i : grid1.Coords, EltTy.bits .f32 = 32 ∨ (Rect.block (s := S6x128) S6x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16000x256.size a ≤ S400000x256.size a
  hwx1_4 : ∀ i : grid1.Coords, EltTy.bits .f32 = 32 ∨ (Rect.block (s := S400000x256) S16000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16000.size a ≤ S1x400000.size a
  hwx2_0 : ∀ i : grid2.Coords, EltTy.bits .f32 = 32 ∨ (Rect.block (s := S1x400000) S1x16000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x50.size a ≤ S1x50.size a
  hwx2_1 : ∀ i : grid2.Coords, EltTy.bits .f32 = 32 ∨ (Rect.block (s := S1x50) S1x50.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50x256.size a ≤ S50x256.size a
  hwx2_2 : ∀ i : grid2.Coords, EltTy.bits .f32 = 32 ∨ (Rect.block (s := S50x256) S50x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S16000x256.size a ≤ S400000x256.size a
  hwx2_4 : ∀ i : grid2.Coords, EltTy.bits .f32 = 32 ∨ (Rect.block (s := S400000x256) S16000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16000.size a ≤ S1x400000.size a
  hwx3_0 : ∀ i : grid3.Coords, EltTy.bits .f32 = 32 ∨ (Rect.block (s := S1x400000) S1x16000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x256.size a ≤ S32x256.size a
  hwx3_2 : ∀ i : grid3.Coords, EltTy.bits .f32 = 32 ∨ (Rect.block (s := S32x256) S32x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S16000x256.size a ≤ S400000x256.size a
  hwx3_4 : ∀ i : grid3.Coords, EltTy.bits .f32 = 32 ∨ (Rect.block (s := S400000x256) S16000x256.size (cc3_transform_4 i) (hinb3_4 i)).WholeWords (EltTy.packing .f32)

variable [Facts₀]

def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x20_S20x128_S8000x128_1_0_0_1_n_n : DotDims S8000x20 S20x128 S8000x128 where
  lhsContracting := [1]
  rhsContracting := [0]
  lhsNonContracting := [0]
  rhsNonContracting := [1]
  lhsBatch := []
  rhsBatch := []
  wf := dot_S8000x20_S20x128_S8000x128_1_0_0_1_n_n_wf
def dot_S8000x256_S256x256_S8000x256_1_0_0_1_n_n : DotDims S8000x256 S256x256 S8000x256 where
  lhsContracting := [1]
  rhsContracting := [0]
  lhsNonContracting := [0]
  rhsNonContracting := [1]
  lhsBatch := []
  rhsBatch := []
  wf := dot_S8000x256_S256x256_S8000x256_1_0_0_1_n_n_wf
def dot_S16000x6_S6x128_S16000x128_1_0_0_1_n_n : DotDims S16000x6 S6x128 S16000x128 where
  lhsContracting := [1]
  rhsContracting := [0]
  lhsNonContracting := [0]
  rhsNonContracting := [1]
  lhsBatch := []
  rhsBatch := []
  wf := dot_S16000x6_S6x128_S16000x128_1_0_0_1_n_n_wf
def dot_S16000x128_S128x256_S16000x256_1_0_0_1_n_n : DotDims S16000x128 S128x256 S16000x256 where
  lhsContracting := [1]
  rhsContracting := [0]
  lhsNonContracting := [0]
  rhsNonContracting := [1]
  lhsBatch := []
  rhsBatch := []
  wf := dot_S16000x128_S128x256_S16000x256_1_0_0_1_n_n_wf
def dot_S16000x50_S50x256_S16000x256_1_0_0_1_n_n : DotDims S16000x50 S50x256 S16000x256 where
  lhsContracting := [1]
  rhsContracting := [0]
  lhsNonContracting := [0]
  rhsNonContracting := [1]
  lhsBatch := []
  rhsBatch := []
  wf := dot_S16000x50_S50x256_S16000x256_1_0_0_1_n_n_wf
def dot_S16000x32_S32x256_S16000x256_1_0_0_1_n_n : DotDims S16000x32 S32x256 S16000x256 where
  lhsContracting := [1]
  rhsContracting := [0]
  lhsNonContracting := [0]
  rhsNonContracting := [1]
  lhsBatch := []
  rhsBatch := []
  wf := dot_S16000x32_S32x256_S16000x256_1_0_0_1_n_n_wf

abbrev win0_0 : Pipeline.Window sig grid0 :=
  Pipeline.Window.ofSpec (Memref.whole main_v2) S8000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5x32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S20x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S8000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7) S1x16000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S6x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S16000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v10) S1x16000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x50.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S50x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S16000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v14) S1x16000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S32x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S16000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S200000x5x2 : Shape := ⟨3, ![200000, 5, 2]⟩
abbrev S200000x2 : Shape := ⟨2, ![200000, 2]⟩
abbrev S400000 : Shape := ⟨1, ![400000]⟩
abbrev S5x32x128 : Shape := ⟨3, ![5, 32, 128]⟩
abbrev S20x128 : Shape := ⟨2, ![20, 128]⟩
abbrev S128 : Shape := ⟨1, ![128]⟩
abbrev S256x256 : Shape := ⟨2, ![256, 256]⟩
abbrev S256 : Shape := ⟨1, ![256]⟩
abbrev S6x128 : Shape := ⟨2, ![6, 128]⟩
abbrev S128x256 : Shape := ⟨2, ![128, 256]⟩
abbrev S50x256 : Shape := ⟨2, ![50, 256]⟩
abbrev S32x256 : Shape := ⟨2, ![32, 256]⟩
abbrev S20 : Shape := ⟨1, ![20]⟩
abbrev S50 : Shape := ⟨1, ![50]⟩
abbrev S32 : Shape := ⟨1, ![32]⟩
abbrev S5 : Shape := ⟨1, ![5]⟩
abbrev S5x1x1 : Shape := ⟨3, ![5, 1, 1]⟩
abbrev S5x200000x2 : Shape := ⟨3, ![5, 200000, 2]⟩
abbrev S_ : Shape := ⟨0, ![]⟩
abbrev S5x200000x2x1 : Shape := ⟨4, ![5, 200000, 2, 1]⟩
abbrev S5x200000x2x2 : Shape := ⟨4, ![5, 200000, 2, 2]⟩
abbrev S5x200000x2x128 : Shape := ⟨4, ![5, 200000, 2, 128]⟩
abbrev S200000x2x128 : Shape := ⟨3, ![200000, 2, 128]⟩
abbrev S200000x256 : Shape := ⟨2, ![200000, 256]⟩
abbrev S400000x1 : Shape := ⟨2, ![400000, 1]⟩
abbrev S1x20 : Shape := ⟨2, ![1, 20]⟩
abbrev S400000x20 : Shape := ⟨2, ![400000, 20]⟩
abbrev S400000x128 : Shape := ⟨2, ![400000, 128]⟩
abbrev S1x128 : Shape := ⟨2, ![1, 128]⟩
abbrev S1x256 : Shape := ⟨2, ![1, 256]⟩
abbrev S400000x256 : Shape := ⟨2, ![400000, 256]⟩
abbrev S1x50 : Shape := ⟨2, ![1, 50]⟩
abbrev S400000x50 : Shape := ⟨2, ![400000, 50]⟩
abbrev S1x32 : Shape := ⟨2, ![1, 32]⟩
abbrev S400000x32 : Shape := ⟨2, ![400000, 32]⟩

abbrev nBuf : Space → Nat
  | .hbm => 115
  | .vmem => 0
  | .smem => 0
  | _ => 0

abbrev bufTy : (tb : Table) → Fin (tcTables nBuf tb) → BufTy
  | .hbm, ⟨0, _⟩ => ⟨S200000x5x2, .i32⟩
  | .hbm, ⟨1, _⟩ => ⟨S200000x2, .f32⟩
  | .hbm, ⟨2, _⟩ => ⟨S400000, .f32⟩
  | .hbm, ⟨3, _⟩ => ⟨S400000, .f32⟩
  | .hbm, ⟨4, _⟩ => ⟨S5x32x128, .f32⟩
  | .hbm, ⟨5, _⟩ => ⟨S20x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S6x128, .f32⟩
  | .hbm, ⟨10, _⟩ => ⟨S128x256, .f32⟩
  | .hbm, ⟨11, _⟩ => ⟨S256, .f32⟩
  | .hbm, ⟨12, _⟩ => ⟨S50x256, .f32⟩
  | .hbm, ⟨13, _⟩ => ⟨S256, .f32⟩
  | .hbm, ⟨14, _⟩ => ⟨S32x256, .f32⟩
  | .hbm, ⟨15, _⟩ => ⟨S256, .f32⟩
  | .hbm, ⟨16, _⟩ => ⟨S20, .f32⟩
  | .hbm, ⟨17, _⟩ => ⟨S50, .f32⟩
  | .hbm, ⟨18, _⟩ => ⟨S32, .f32⟩
  | .hbm, ⟨19, _⟩ => ⟨S5, .i32⟩
  | .hbm, ⟨20, _⟩ => ⟨S5x1x1, .i32⟩
  | .hbm, ⟨21, _⟩ => ⟨S5x200000x2, .i32⟩
  | .hbm, ⟨22, _⟩ => ⟨S_, .i32⟩
  | .hbm, ⟨23, _⟩ => ⟨S5x1x1, .i32⟩
  | .hbm, ⟨24, _⟩ => ⟨S5x1x1, .i1⟩
  | .hbm, ⟨25, _⟩ => ⟨S_, .i32⟩
  | .hbm, ⟨26, _⟩ => ⟨S5x1x1, .i32⟩
  | .hbm, ⟨27, _⟩ => ⟨S5x1x1, .i32⟩
  | .hbm, ⟨28, _⟩ => ⟨S5x1x1, .i32⟩
  | .hbm, ⟨29, _⟩ => ⟨S_, .i32⟩
  | .hbm, ⟨30, _⟩ => ⟨S5x200000x2, .i32⟩
  | .hbm, ⟨31, _⟩ => ⟨S5x200000x2, .i1⟩
  | .hbm, ⟨32, _⟩ => ⟨S_, .i32⟩
  | .hbm, ⟨33, _⟩ => ⟨S5x200000x2, .i32⟩
  | .hbm, ⟨34, _⟩ => ⟨S5x200000x2, .i32⟩
  | .hbm, ⟨35, _⟩ => ⟨S5x200000x2, .i32⟩
  | .hbm, ⟨36, _⟩ => ⟨S5x200000x2, .i32⟩
  | .hbm, ⟨37, _⟩ => ⟨S5x200000x2x1, .i32⟩
  | .hbm, ⟨38, _⟩ => ⟨S5x200000x2x1, .i32⟩
  | .hbm, ⟨39, _⟩ => ⟨S5x200000x2x2, .i32⟩
  | .hbm, ⟨40, _⟩ => ⟨S5x200000x2x128, .f32⟩
  | .hbm, ⟨41, _⟩ => ⟨S_, .f32⟩
  | .hbm, ⟨42, _⟩ => ⟨S200000x2x128, .f32⟩
  | .hbm, ⟨43, _⟩ => ⟨S200000x256, .f32⟩
  | .hbm, ⟨44, _⟩ => ⟨S400000, .f32⟩
  | .hbm, ⟨45, _⟩ => ⟨S400000x1, .f32⟩
  | .hbm, ⟨46, _⟩ => ⟨S1x20, .f32⟩
  | .hbm, ⟨47, _⟩ => ⟨S400000x20, .f32⟩
  | .hbm, ⟨48, _⟩ => ⟨S400000x20, .f32⟩
  | .hbm, ⟨49, _⟩ => ⟨S400000x20, .f32⟩
  | .hbm, ⟨50, _⟩ => ⟨S400000x20, .f32⟩
  | .hbm, ⟨51, _⟩ => ⟨S_, .f32⟩
  | .hbm, ⟨52, _⟩ => ⟨S400000x20, .f32⟩
  | .hbm, ⟨53, _⟩ => ⟨S400000x20, .f32⟩
  | .hbm, ⟨54, _⟩ => ⟨S400000x20, .f32⟩
  | .hbm, ⟨55, _⟩ => ⟨S400000x128, .f32⟩
  | .hbm, ⟨56, _⟩ => ⟨S1x128, .f32⟩
  | .hbm, ⟨57, _⟩ => ⟨S400000x128, .f32⟩
  | .hbm, ⟨58, _⟩ => ⟨S400000x128, .f32⟩
  | .hbm, ⟨59, _⟩ => ⟨S200000x256, .f32⟩
  | .hbm, ⟨60, _⟩ => ⟨S200000x256, .f32⟩
  | .hbm, ⟨61, _⟩ => ⟨S200000x256, .f32⟩
  | .hbm, ⟨62, _⟩ => ⟨S1x256, .f32⟩
  | .hbm, ⟨63, _⟩ => ⟨S200000x256, .f32⟩
  | .hbm, ⟨64, _⟩ => ⟨S200000x256, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S400000, .f32⟩
  | .hbm, ⟨69, _⟩ => ⟨S400000, .f32⟩
  | .hbm, ⟨70, _⟩ => ⟨S_, .f32⟩
  | .hbm, ⟨71, _⟩ => ⟨S400000, .f32⟩
  | .hbm, ⟨72, _⟩ => ⟨S400000, .f32⟩
  | .hbm, ⟨73, _⟩ => ⟨S400000, .i32⟩
  | .hbm, ⟨74, _⟩ => ⟨S_, .i32⟩
  | .hbm, ⟨75, _⟩ => ⟨S400000, .i32⟩
  | .hbm, ⟨76, _⟩ => ⟨S400000, .i1⟩
  | .hbm, ⟨77, _⟩ => ⟨S_, .i32⟩
  | .hbm, ⟨78, _⟩ => ⟨S400000, .i32⟩
  | .hbm, ⟨79, _⟩ => ⟨S400000, .i32⟩
  | .hbm, ⟨80, _⟩ => ⟨S400000, .i32⟩
  | .hbm, ⟨81, _⟩ => ⟨S400000x1, .i32⟩
  | .hbm, ⟨82, _⟩ => ⟨S400000x128, .f32⟩
  | .hbm, ⟨83, _⟩ => ⟨S400000x256, .f32⟩
  | .hbm, ⟨84, _⟩ => ⟨S1x256, .f32⟩
  | .hbm, ⟨85, _⟩ => ⟨S400000x256, .f32⟩
  | .hbm, ⟨86, _⟩ => ⟨S400000x256, .f32⟩
  | .hbm, ⟨87, _⟩ => ⟨S400000x1, .f32⟩
  | .hbm, ⟨88, _⟩ => ⟨S1x50, .f32⟩
  | .hbm, ⟨89, _⟩ => ⟨S400000x50, .f32⟩
  | .hbm, ⟨90, _⟩ => ⟨S400000x50, .f32⟩
  | .hbm, ⟨91, _⟩ => ⟨S400000x50, .f32⟩
  | .hbm, ⟨92, _⟩ => ⟨S400000x50, .f32⟩
  | .hbm, ⟨93, _⟩ => ⟨S_, .f32⟩
  | .hbm, ⟨94, _⟩ => ⟨S400000x50, .f32⟩
  | .hbm, ⟨95, _⟩ => ⟨S400000x50, .f32⟩
  | .hbm, ⟨96, _⟩ => ⟨S400000x50, .f32⟩
  | .hbm, ⟨97, _⟩ => ⟨S400000x256, .f32⟩
  | .hbm, ⟨98, _⟩ => ⟨S1x256, .f32⟩
  | .hbm, ⟨99, _⟩ => ⟨S400000x256, .f32⟩
  | .hbm, ⟨100, _⟩ => ⟨S400000x256, .f32⟩
  | .hbm, ⟨101, _⟩ => ⟨S400000x1, .f32⟩
  | .hbm, ⟨102, _⟩ => ⟨S1x32, .f32⟩
  | .hbm, ⟨103, _⟩ => ⟨S400000x32, .f32⟩
  | .hbm, ⟨104, _⟩ => ⟨S400000x32, .f32⟩
  | .hbm, ⟨105, _⟩ => ⟨S400000x32, .f32⟩
  | .hbm, ⟨106, _⟩ => ⟨S400000x32, .f32⟩
  | .hbm, ⟨107, _⟩ => ⟨S_, .f32⟩
  | .hbm, ⟨108, _⟩ => ⟨S400000x32, .f32⟩
  | .hbm, ⟨109, _⟩ => ⟨S400000x32, .f32⟩
  | .hbm, ⟨110, _⟩ => ⟨S400000x32, .f32⟩
  | .hbm, ⟨111, _⟩ => ⟨S400000x256, .f32⟩
  | .hbm, ⟨112, _⟩ => ⟨S1x256, .f32⟩
  | .hbm, ⟨113, _⟩ => ⟨S400000x256, .f32⟩
  | .hbm, ⟨114, _⟩ => ⟨S400000x256, .f32⟩
  | _, _ => ⟨S200000x5x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_cst_1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c_3 : Ref sig .tc := ⟨.hbm, 29, rfl⟩
abbrev main_v8 : Ref sig .tc := ⟨.hbm, 30, rfl⟩
abbrev main_v9 : Ref sig .tc := ⟨.hbm, 31, rfl⟩
abbrev main_c_4 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_cst_8 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v40 : Ref sig .tc := ⟨.hbm, 72, rfl⟩
abbrev main_v41 : Ref sig .tc := ⟨.hbm, 73, rfl⟩
abbrev main_c_9 : Ref sig .tc := ⟨.hbm, 74, rfl⟩
abbrev main_v42 : Ref sig .tc := ⟨.hbm, 75, rfl⟩
abbrev main_v43 : Ref sig .tc := ⟨.hbm, 76, rfl⟩
abbrev main_c_10 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_12 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]

class Facts₀ : Prop where
  bcast_S5_S5x1x1_0 : S5.BroadcastsInDim S5x1x1 (![0] : Fin 1 → Fin S5x1x1.rank)
  transposes_S200000x5x2_S5x200000x2_1_0_2 : S200000x5x2.Transposes [1, 0, 2] S5x200000x2
  bcast_S_S5x1x1 : S_.BroadcastsInDim S5x1x1 (![] : Fin 0 → Fin S5x1x1.rank)
  bcast_S_S5x200000x2 : S_.BroadcastsInDim S5x200000x2 (![] : Fin 0 → Fin S5x200000x2.rank)
  bcast_S5x1x1_S5x200000x2_0_1_2 : S5x1x1.BroadcastsInDim S5x200000x2 (![0, 1, 2] : Fin 3 → Fin S5x200000x2.rank)
  bcast_S5x200000x2_S5x200000x2x1_0_1_2 : S5x200000x2.BroadcastsInDim S5x200000x2x1 (![0, 1, 2] : Fin 3 → Fin S5x200000x2x1.rank)
  concatenates_S5x200000x2x1_S5x200000x2x1_S5x200000x2x2_d3 : Shape.Concatenates [S5x200000x2x1, S5x200000x2x1] S5x200000x2x2 3
  reducesTo_S5x200000x2x128_S200000x2x128_d0 : S5x200000x2x128.ReducesTo [0] S200000x2x128
  h_S_ : 0 < S_.numel
  shapeCasts_S200000x2x128_S200000x256 : S200000x2x128.ShapeCasts S200000x256
  shapeCasts_S200000x2_S400000 : S200000x2.ShapeCasts S400000
  bcast_S400000_S400000x1_0 : S400000.BroadcastsInDim S400000x1 (![0] : Fin 1 → Fin S400000x1.rank)
  bcast_S20_S1x20_1 : S20.BroadcastsInDim S1x20 (![1] : Fin 1 → Fin S1x20.rank)
  bcast_S400000x1_S400000x20_0_1 : S400000x1.BroadcastsInDim S400000x20 (![0, 1] : Fin 2 → Fin S400000x20.rank)
  bcast_S1x20_S400000x20_0_1 : S1x20.BroadcastsInDim S400000x20 (![0, 1] : Fin 2 → Fin S400000x20.rank)
  bcast_S_S400000x20 : S_.BroadcastsInDim S400000x20 (![] : Fin 0 → Fin S400000x20.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  shapeCasts_S400000x128_S200000x256 : S400000x128.ShapeCasts S200000x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S400000 : S_.BroadcastsInDim S400000 (![] : Fin 0 → Fin S400000.rank)
  bcast_S1x256_S400000x256_0_1 : S1x256.BroadcastsInDim S400000x256 (![0, 1] : Fin 2 → Fin S400000x256.rank)
  bcast_S50_S1x50_1 : S50.BroadcastsInDim S1x50 (![1] : Fin 1 → Fin S1x50.rank)
  bcast_S400000x1_S400000x50_0_1 : S400000x1.BroadcastsInDim S400000x50 (![0, 1] : Fin 2 → Fin S400000x50.rank)
  bcast_S1x50_S400000x50_0_1 : S1x50.BroadcastsInDim S400000x50 (![0, 1] : Fin 2 → Fin S400000x50.rank)
  bcast_S_S400000x50 : S_.BroadcastsInDim S400000x50 (![] : Fin 0 → Fin S400000x50.rank)
  bcast_S32_S1x32_1 : S32.BroadcastsInDim S1x32 (![1] : Fin 1 → Fin S1x32.rank)
  bcast_S400000x1_S400000x32_0_1 : S400000x1.BroadcastsInDim S400000x32 (![0, 1] : Fin 2 → Fin S400000x32.rank)
  bcast_S1x32_S400000x32_0_1 : S1x32.BroadcastsInDim S400000x32 (![0, 1] : Fin 2 → Fin S400000x32.rank)
  bcast_S_S400000x32 : S_.BroadcastsInDim S400000x32 (![] : Fin 0 → Fin S400000x32.rank)
  gather_S5x32x128_S5x200000x2x2_S5x200000x2x128_3_01_n_n_01_3_11128_wf : GatherDims.WF S5x32x128 S5x200000x2x2 S5x200000x2x128 [3] [0, 1] [] [0, 1] [] 3 ![1, 1, 128]
  dot_S400000x20_S20x128_S400000x128_1_0_0_1_n_n_wf : DotDims.WF S400000x20 S20x128 S400000x128 [1] [0] [0] [1] [] []
  dot_S200000x256_S256x256_S200000x256_1_0_0_1_n_n_wf : DotDims.WF S200000x256 S256x256 S200000x256 [1] [0] [0] [1] [] []
  gather_S6x128_S400000x1_S400000x128_1_0_n_n_0_1_1128_wf : GatherDims.WF S6x128 S400000x1 S400000x128 [1] [0] [] [0] [] 1 ![1, 128]
  dot_S400000x128_S128x256_S400000x256_1_0_0_1_n_n_wf : DotDims.WF S400000x128 S128x256 S400000x256 [1] [0] [0] [1] [] []
  dot_S400000x50_S50x256_S400000x256_1_0_0_1_n_n_wf : DotDims.WF S400000x50 S50x256 S400000x256 [1] [0] [0] [1] [] []
  dot_S400000x32_S32x256_S400000x256_1_0_0_1_n_n_wf : DotDims.WF S400000x32 S32x256 S400000x256 [1] [0] [0] [1] [] []

variable [Facts₀]

def gather_S5x32x128_S5x200000x2x2_S5x200000x2x128_3_01_n_n_01_3_11128 : GatherDims S5x32x128 S5x200000x2x2 S5x200000x2x128 where
  offsetDims := [3]
  collapsedSliceDims := [0, 1]
  operandBatchingDims := []
  startIndicesBatchingDims := []
  startIndexMap := [0, 1]
  indexVectorDim := 3
  sliceSizes := ![1, 1, 128]
  wf := gather_S5x32x128_S5x200000x2x2_S5x200000x2x128_3_01_n_n_01_3_11128_wf
def dot_S400000x20_S20x128_S400000x128_1_0_0_1_n_n : DotDims S400000x20 S20x128 S400000x128 where
  lhsContracting := [1]
  rhsContracting := [0]
  lhsNonContracting := [0]
  rhsNonContracting := [1]
  lhsBatch := []
  rhsBatch := []
  wf := dot_S400000x20_S20x128_S400000x128_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def gather_S6x128_S400000x1_S400000x128_1_0_n_n_0_1_1128 : GatherDims S6x128 S400000x1 S400000x128 where
  offsetDims := [1]
  collapsedSliceDims := [0]
  operandBatchingDims := []
  startIndicesBatchingDims := []
  startIndexMap := [0]
  indexVectorDim := 1
  sliceSizes := ![1, 128]
  wf := gather_S6x128_S400000x1_S400000x128_1_0_n_n_0_1_1128_wf
def dot_S400000x128_S128x256_S400000x256_1_0_0_1_n_n : DotDims S400000x128 S128x256 S400000x256 where
  lhsContracting := [1]
  rhsContracting := [0]
  lhsNonContracting := [0]
  rhsNonContracting := [1]
  lhsBatch := []
  rhsBatch := []
  wf := dot_S400000x128_S128x256_S400000x256_1_0_0_1_n_n_wf
def dot_S400000x50_S50x256_S400000x256_1_0_0_1_n_n : DotDims S400000x50 S50x256 S400000x256 where
  lhsContracting := [1]
  rhsContracting := [0]
  lhsNonContracting := [0]
  rhsNonContracting := [1]
  lhsBatch := []
  rhsBatch := []
  wf := dot_S400000x50_S50x256_S400000x256_1_0_0_1_n_n_wf
def dot_S400000x32_S32x256_S400000x256_1_0_0_1_n_n : DotDims S400000x32 S32x256 S400000x256 where
  lhsContracting := [1]
  rhsContracting := [0]
  lhsNonContracting := [0]
  rhsNonContracting := [1]
  lhsBatch := []
  rhsBatch := []
  wf := dot_S400000x32_S32x256_S400000x256_1_0_0_1_n_n_wf

class Facts : Prop extends Facts₀ where

variable [Facts]
-- ==== Proof.KernelEntry.lean ====
/-
  Where the kernel program's values sit between its four regions. The last boundary's contents at each result
  buffer are what that buffer's own region left (no later stretch or region writes it); and each region's operand
  arrays at its entry are the launch memory's argument arrays read through the host operations before it: the
  categorical ids made floats, flattened [N, 5, 2] -> [N, 10] and laid beside the partial charges in an [N, 12]
  slab; a vector reshaped to one row; a centre table's words.
-/
import proofs.«405733_j12730283066009_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## What the host operations before region 0 leave, as whole arrays -/

/-- A host stretch that does not write the buffer leaves it as it was. -/
local macro "host_pass " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The slab: the ids made floats and flattened, beside the charges. -/
theorem slab_eq (c : Dev nD) :
    (V1 m ρ c main_v2 : S200000x12.Idx → EReal)
      = concatenate S200000x12 1
          [⟨S200000x10, shapeCast S200000x10 (sitofp (F := Ideal) .f32 (m ((c : Thread nD τ).loc main_arg0))) shapeCasts_S200000x5x2_S200000x10⟩,
           ⟨S200000x2, m ((c : Thread nD τ).loc main_arg1)⟩] concatenates_S200000x10_S200000x2_S200000x12_d1 := by
  show StableHlo.after hostOps0 (W0 m ρ c) (Proc.devRef .tc main_v2) = _
  after_results
  rfl

/-- A vector reshaped to one row, read at the row's column. -/
theorem row128_eq (c : Dev nD) :
    (V1 m ρ c main_v3 : S1x128.Idx → EReal)
      = shapeCast S1x128 (m ((c : Thread nD τ).loc main_arg6)) shapeCasts_S128_S1x128 := by
  show StableHlo.after hostOps0 (W0 m ρ c) (Proc.devRef .tc main_v3) = _
  after_results
  rfl

theorem row256_eq (c : Dev nD) :
    (V1 m ρ c main_v4 : S1x256.Idx → EReal)
      = shapeCast S1x256 (m ((c : Thread nD τ).loc main_arg8)) shapeCasts_S256_S1x256 := by
  show StableHlo.after hostOps0 (W0 m ρ c) (Proc.devRef .tc main_v4) = _
  after_results
  rfl

theorem row20_eq (c : Dev nD) :
    (V1 m ρ c main_v5 : S1x20.Idx → EReal)
      = shapeCast S1x20 (fun i => FloatOps.ofBits (F := Ideal) .f32 (lit0 (S20.rowMajor i))) shapeCasts_S20_S1x20 := by
  show StableHlo.after hostOps0 (W0 m ρ c) (Proc.devRef .tc main_v5) = _
  after_results
  rfl

/-! ## The four results at the last boundary -/

theorem out0 (c : Dev nD) : W8 m ρ c (Proc.devRef .tc main_v6) = (dat0 (V1 m ρ) c).arrAt 7 cfg0.N :=
  calc W8 m ρ c (Proc.devRef .tc main_v6)
    _ = W7 m ρ c (Proc.devRef .tc main_v6) := W8_of_ne m ρ c main_v6 (by decide)
    _ = W6 m ρ c (Proc.devRef .tc main_v6) := by host_pass hostOps3
    _ = W5 m ρ c (Proc.devRef .tc main_v6) := W6_of_ne m ρ c main_v6 (by decide)
    _ = W4 m ρ c (Proc.devRef .tc main_v6) := by host_pass hostOps2
    _ = W3 m ρ c (Proc.devRef .tc main_v6) := W4_of_ne m ρ c main_v6 (by decide)
    _ = W2 m ρ c (Proc.devRef .tc main_v6) := by host_pass hostOps1
    _ = (dat0 (V1 m ρ) c).arrAt 7 cfg0.N := W2_arr m ρ c 7
theorem out1 (c : Dev nD) : W8 m ρ c (Proc.devRef .tc main_v9) = (dat1 (V3 m ρ) c).arrAt 4 cfg1.N :=
  calc W8 m ρ c (Proc.devRef .tc main_v9)
    _ = W7 m ρ c (Proc.devRef .tc main_v9) := W8_of_ne m ρ c main_v9 (by decide)
    _ = W6 m ρ c (Proc.devRef .tc main_v9) := by host_pass hostOps3
    _ = W5 m ρ c (Proc.devRef .tc main_v9) := W6_of_ne m ρ c main_v9 (by decide)
    _ = W4 m ρ c (Proc.devRef .tc main_v9) := by host_pass hostOps2
    _ = (dat1 (V3 m ρ) c).arrAt 4 cfg1.N := W4_arr m ρ c 4
theorem out2 (c : Dev nD) : W8 m ρ c (Proc.devRef .tc main_v13) = (dat2 (V5 m ρ) c).arrAt 4 cfg2.N :=
  calc W8 m ρ c (Proc.devRef .tc main_v13)
    _ = W7 m ρ c (Proc.devRef .tc main_v13) := W8_of_ne m ρ c main_v13 (by decide)
    _ = W6 m ρ c (Proc.devRef .tc main_v13) := by host_pass hostOps3
    _ = (dat2 (V5 m ρ) c).arrAt 4 cfg2.N := W6_arr m ρ c 4
theorem out3 (c : Dev nD) : W8 m ρ c (Proc.devRef .tc main_v17) = (dat3 (V7 m ρ) c).arrAt 4 cfg3.N :=
  W8_arr m ρ c 4

/-! ## Region 0's operand arrays at its entry -/

/-- Column 2 t + p of the slab is categorical id (n, t, p) as a real. -/
theorem e0_cat (c : Dev nD) (n : Fin 200000) (t : Fin 5) (p : Fin 2) :
    V1 m ρ c main_v2 (ix2 n ⟨2 * t.val + p.val, by have := t.isLt; have := p.isLt; omega⟩)
      = (((m ((c : Thread nD τ).loc main_arg0) (ix3 n t p) : BitVec 32).toInt : ℝ) : EReal) := by
  refine (congrFun (slab_eq m ρ c) _).trans ?_
  refine (concatenate_pair_apply_left (t := S200000x12) (s₁ := S200000x10) (s₂ := S200000x2) (1 : Fin 2) _ _
    concatenates_S200000x10_S200000x2_S200000x12_d1 _ rfl
    (ix2 (n0 := 200000) (n1 := 10) n ⟨2 * t.val + p.val, by have := t.isLt; have := p.isLt; omega⟩)
    (fun b => match b with | ⟨0, _⟩ => rfl | ⟨1, _⟩ => rfl)).trans ?_
  refine (shapeCast_apply _ shapeCasts_S200000x5x2_S200000x10 _ (ix3 n t p) ?_).trans ?_
  · rw [Shape.rowMajor_val_three, Shape.rowMajor_val_two]
    show (n.val * 5 + t.val) * 2 + p.val = n.val * 10 + (2 * t.val + p.val)
    omega
  · rfl
/-- Column 10 + p of the slab is partial charge (n, p). -/
theorem e0_q (c : Dev nD) (n : Fin 200000) (p : Fin 2) :
    V1 m ρ c main_v2 (ix2 n ⟨10 + p.val, by have := p.isLt; omega⟩) = m ((c : Thread nD τ).loc main_arg1) (ix2 n p) := by
  refine (congrFun (slab_eq m ρ c) _).trans ?_
  exact concatenate_pair_apply_right (t := S200000x12) (s₁ := S200000x10) (s₂ := S200000x2) (1 : Fin 2) _ _
    concatenates_S200000x10_S200000x2_S200000x12_d1 _ rfl rfl
    (ix2 (n0 := 200000) (n1 := 2) n p)
    (fun b hb => match b, hb with | ⟨0, _⟩, _ => rfl | ⟨1, _⟩, hb => absurd rfl hb)
    (by show p.val + 10 = 10 + p.val; omega)
theorem e0_tables (c : Dev nD) : V1 m ρ c main_arg4 = m ((c : Thread nD τ).loc main_arg4) :=
  calc W1 m ρ c (Proc.devRef .tc main_arg4)
    _ = W0 m ρ c (Proc.devRef .tc main_arg4) := by host_pass hostOps0
    _ = m ((c : Thread nD τ).loc main_arg4) := rfl
theorem e0_cW (c : Dev nD) : V1 m ρ c main_arg5 = m ((c : Thread nD τ).loc main_arg5) :=
  calc W1 m ρ c (Proc.devRef .tc main_arg5)
    _ = W0 m ρ c (Proc.devRef .tc main_arg5) := by host_pass hostOps0
    _ = m ((c : Thread nD τ).loc main_arg5) := rfl
theorem e0_cb (c : Dev nD) (e : Fin 128) : V1 m ρ c main_v3 (ix2 0 e) = m ((c : Thread nD τ).loc main_arg6) (ix1 e) := by
  refine (congrFun (row128_eq m ρ c) _).trans ?_
  exact shapeCast_a_1a_apply _ _ 0 e
theorem e0_pW (c : Dev nD) : V1 m ρ c main_arg7 = m ((c : Thread nD τ).loc main_arg7) :=
  calc W1 m ρ c (Proc.devRef .tc main_arg7)
    _ = W0 m ρ c (Proc.devRef .tc main_arg7) := by host_pass hostOps0
    _ = m ((c : Thread nD τ).loc main_arg7) := rfl
theorem e0_pb (c : Dev nD) (e : Fin 256) : V1 m ρ c main_v4 (ix2 0 e) = m ((c : Thread nD τ).loc main_arg8) (ix1 e) := by
  refine (congrFun (row256_eq m ρ c) _).trans ?_
  exact shapeCast_a_1a_apply _ _ 0 e
theorem e0_cen (c : Dev nD) (k : Fin 20) : V1 m ρ c main_v5 (ix2 0 k) = Ideal.ofBits .f32 (lit0 k) := by
  refine (congrFun (row20_eq m ρ c) _).trans ?_
  refine (shapeCast_a_1a_apply _ _ 0 k).trans ?_
  have hk : S20.rowMajor (ix1 k) = k := Fin.ext (Shape.rowMajor_val_one _)
  show Ideal.ofBits .f32 (lit0 (S20.rowMajor (ix1 k))) = _
  rw [hk]

end Cert.KernelIdeal.Entry

end
-- ==== Proof.KernelEntryB.lean ====
/-
  Regions 1, 2 and 3's operand arrays at their entries are the launch memory's argument arrays read through the
  host operations before each region: a vector reshaped to one row, a centre table's words, a matrix untouched.
  (Each earlier region writes only its own result buffer, so the walk back to the launch memory passes it by.)
-/
import proofs.«405733_j12730283066009_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.EntryB

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## A buffer that a host stretch does not write keeps its contents through it -/

theorem host0_pass (V : Valuation τ sig (Elt Ideal)) (b : Ref sig .tc)
    (hb : b ∉ [main_cst, main_cst_0, main_cst_1, main_v0, main_v1, main_v2, main_v3, main_v4, main_v5]) :
    StableHlo.after hostOps0 V (Proc.devRef .tc b) = V (Proc.devRef .tc b) := by
  simp only [List.mem_cons, List.not_mem_nil, or_false, not_or] at hb
  obtain ⟨h1, h2, h3, h4, h5, h6, h7, h8, h9⟩ := hb
  refine StableHlo.after_of_forall_not_mem _ _ (List.forall_iff_forall_mem.mp ?_)
  simp only [hostOps0, List.Forall, StableHlo.nullary_writes, StableHlo.unary_writes, StableHlo.binary_writes,
    StableHlo.reshape_writes, Finset.mem_singleton]
  exact ⟨StableHlo.devRef_ne_of_ne h1, StableHlo.devRef_ne_of_ne h2, StableHlo.devRef_ne_of_ne h3,
    StableHlo.devRef_ne_of_ne h4, StableHlo.devRef_ne_of_ne h5, StableHlo.devRef_ne_of_ne h6,
    StableHlo.devRef_ne_of_ne h7, StableHlo.devRef_ne_of_ne h8, StableHlo.devRef_ne_of_ne h9⟩

theorem host1_pass (V : Valuation τ sig (Elt Ideal)) (b : Ref sig .tc) (hb : b ∉ [main_v7, main_v8]) :
    StableHlo.after hostOps1 V (Proc.devRef .tc b) = V (Proc.devRef .tc b) := by
  simp only [List.mem_cons, List.not_mem_nil, or_false, not_or] at hb
  obtain ⟨h1, h2⟩ := hb
  refine StableHlo.after_of_forall_not_mem _ _ (List.forall_iff_forall_mem.mp ?_)
  simp only [hostOps1, List.Forall, StableHlo.reshape_writes, Finset.mem_singleton]
  exact ⟨StableHlo.devRef_ne_of_ne h1, StableHlo.devRef_ne_of_ne h2⟩

theorem host2_pass (V : Valuation τ sig (Elt Ideal)) (b : Ref sig .tc) (hb : b ∉ [main_v10, main_v11, main_v12]) :
    StableHlo.after hostOps2 V (Proc.devRef .tc b) = V (Proc.devRef .tc b) := by
  simp only [List.mem_cons, List.not_mem_nil, or_false, not_or] at hb
  obtain ⟨h1, h2, h3⟩ := hb
  refine StableHlo.after_of_forall_not_mem _ _ (List.forall_iff_forall_mem.mp ?_)
  simp only [hostOps2, List.Forall, StableHlo.reshape_writes, Finset.mem_singleton]
  exact ⟨StableHlo.devRef_ne_of_ne h1, StableHlo.devRef_ne_of_ne h2, StableHlo.devRef_ne_of_ne h3⟩

theorem host3_pass (V : Valuation τ sig (Elt Ideal)) (b : Ref sig .tc) (hb : b ∉ [main_v14, main_v15, main_v16]) :
    StableHlo.after hostOps3 V (Proc.devRef .tc b) = V (Proc.devRef .tc b) := by
  simp only [List.mem_cons, List.not_mem_nil, or_false, not_or] at hb
  obtain ⟨h1, h2, h3⟩ := hb
  refine StableHlo.after_of_forall_not_mem _ _ (List.forall_iff_forall_mem.mp ?_)
  simp only [hostOps3, List.Forall, StableHlo.reshape_writes, Finset.mem_singleton]
  exact ⟨StableHlo.devRef_ne_of_ne h1, StableHlo.devRef_ne_of_ne h2, StableHlo.devRef_ne_of_ne h3⟩

/-! ## A buffer that is no array of a region and that no later stretch writes: back to region 0's entry -/

/-- A buffer the first stretch does not write is, at region 0's entry, as launched. -/
theorem W1_arg (c : Dev nD) (b : Ref sig .tc)
    (hb0 : b ∉ [main_cst, main_cst_0, main_cst_1, main_v0, main_v1, main_v2, main_v3, main_v4, main_v5]) :
    W1 m ρ c (Proc.devRef .tc b) = m ((c : Thread nD τ).loc b) :=
  host0_pass (W0 m ρ c) b hb0

/-- From region 1's exit back to region 0's entry. -/
theorem W4_to_W1 (c : Dev nD) (b : Ref sig .tc) (hr1 : ∀ w, Pipeline.arrRef spec1 w ≠ b) (hb1 : b ∉ [main_v7, main_v8])
    (hr0 : ∀ w, Pipeline.arrRef spec0 w ≠ b) : W4 m ρ c (Proc.devRef .tc b) = W1 m ρ c (Proc.devRef .tc b) :=
  (W4_of_ne m ρ c b hr1).trans ((host1_pass (W2 m ρ c) b hb1).trans (W2_of_ne m ρ c b hr0))

/-- From region 2's exit back to region 0's entry. -/
theorem W6_to_W1 (c : Dev nD) (b : Ref sig .tc) (hr2 : ∀ w, Pipeline.arrRef spec2 w ≠ b) (hb2 : b ∉ [main_v10, main_v11, main_v12])
    (hr1 : ∀ w, Pipeline.arrRef spec1 w ≠ b) (hb1 : b ∉ [main_v7, main_v8])
    (hr0 : ∀ w, Pipeline.arrRef spec0 w ≠ b) : W6 m ρ c (Proc.devRef .tc b) = W1 m ρ c (Proc.devRef .tc b) :=
  (W6_of_ne m ρ c b hr2).trans ((host2_pass (W4 m ρ c) b hb2).trans (W4_to_W1 m ρ c b hr1 hb1 hr0))

/-! ## The centre tables at region 0's entry: the words the first stretch writes -/

theorem W1_cst0 (c : Dev nD) :
    W1 m ρ c (Proc.devRef .tc main_cst_0) = fun i => Ideal.ofBits .f32 (lit1 (S50.rowMajor i)) := by
  show StableHlo.after hostOps0 (W0 m ρ c) (Proc.devRef .tc main_cst_0) = _
  after_results
  all_goals rfl

theorem W1_cst1 (c : Dev nD) :
    W1 m ρ c (Proc.devRef .tc main_cst_1) = fun i => Ideal.ofBits .f32 (lit2 (S32.rowMajor i)) := by
  show StableHlo.after hostOps0 (W0 m ρ c) (Proc.devRef .tc main_cst_1) = _
  after_results
  all_goals rfl

/-! ## A vector reshaped to one row reads, at `(0, i)`, the vector at `i` -/

theorem row_read {a : ℕ} {α : Type} (x y : (⟨1, ![a]⟩ : Shape).Idx → α)
    (h : (⟨1, ![a]⟩ : Shape).ShapeCasts ⟨2, ![1, a]⟩) (e : x = y) (i : Fin a) :
    shapeCast ⟨2, ![1, a]⟩ x h (ix2 0 i) = y (ix1 i) :=
  e ▸ shapeCast_a_1a_apply x h 0 i

/-! ## Region 1's -/

theorem e1_x (c : Dev nD) (n : Fin 400000) : V3 m ρ c main_v7 (ix2 0 n) = m ((c : Thread nD τ).loc main_arg2) (ix1 n) := by
  have h : V3 m ρ c main_v7 = shapeCast S1x400000 (W2 m ρ c (Proc.devRef .tc main_arg2)) shapeCasts_S400000_S1x400000 := by
    show StableHlo.after hostOps1 (W2 m ρ c) (Proc.devRef .tc main_v7) = _
    after_results
    all_goals rfl
  refine (congrFun h (ix2 0 n)).trans ?_
  exact row_read _ _ _ ((W2_of_ne m ρ c main_arg2 (by decide)).trans (W1_arg m ρ c main_arg2 (by decide))) n
theorem e1_tab (c : Dev nD) : V3 m ρ c main_arg9 = m ((c : Thread nD τ).loc main_arg9) :=
  (host1_pass (W2 m ρ c) main_arg9 (by decide)).trans
    ((W2_of_ne m ρ c main_arg9 (by decide)).trans (W1_arg m ρ c main_arg9 (by decide)))

theorem e1_W (c : Dev nD) : V3 m ρ c main_arg10 = m ((c : Thread nD τ).loc main_arg10) :=
  (host1_pass (W2 m ρ c) main_arg10 (by decide)).trans
    ((W2_of_ne m ρ c main_arg10 (by decide)).trans (W1_arg m ρ c main_arg10 (by decide)))
theorem e1_b (c : Dev nD) (e : Fin 256) : V3 m ρ c main_v8 (ix2 0 e) = m ((c : Thread nD τ).loc main_arg11) (ix1 e) := by
  have h : V3 m ρ c main_v8 = shapeCast S1x256 (W2 m ρ c (Proc.devRef .tc main_arg11)) shapeCasts_S256_S1x256 := by
    show StableHlo.after hostOps1 (W2 m ρ c) (Proc.devRef .tc main_v8) = _
    after_results
    all_goals rfl
  refine (congrFun h (ix2 0 e)).trans ?_
  exact row_read _ _ _ ((W2_of_ne m ρ c main_arg11 (by decide)).trans (W1_arg m ρ c main_arg11 (by decide))) e

/-! ## Region 2's -/

theorem e2_x (c : Dev nD) (n : Fin 400000) : V5 m ρ c main_v10 (ix2 0 n) = m ((c : Thread nD τ).loc main_arg2) (ix1 n) := by
  have h : V5 m ρ c main_v10 = shapeCast S1x400000 (W4 m ρ c (Proc.devRef .tc main_arg2)) shapeCasts_S400000_S1x400000 := by
    show StableHlo.after hostOps2 (W4 m ρ c) (Proc.devRef .tc main_v10) = _
    after_results
    all_goals rfl
  refine (congrFun h (ix2 0 n)).trans ?_
  exact row_read _ _ _ ((W4_to_W1 m ρ c main_arg2 (by decide) (by decide) (by decide)).trans
    (W1_arg m ρ c main_arg2 (by decide))) n
theorem e2_cen (c : Dev nD) (k : Fin 50) : V5 m ρ c main_v11 (ix2 0 k) = Ideal.ofBits .f32 (lit1 k) := by
  have h : V5 m ρ c main_v11 = shapeCast S1x50 (W4 m ρ c (Proc.devRef .tc main_cst_0)) shapeCasts_S50_S1x50 := by
    show StableHlo.after hostOps2 (W4 m ρ c) (Proc.devRef .tc main_v11) = _
    after_results
    all_goals rfl
  refine (congrFun h (ix2 0 k)).trans ?_
  refine (row_read _ _ _ ((W4_to_W1 m ρ c main_cst_0 (by decide) (by decide) (by decide)).trans (W1_cst0 m ρ c)) k).trans ?_
  exact congrArg (fun j => Ideal.ofBits .f32 (lit1 j)) (Fin.ext (Shape.rowMajor_val_one _))
theorem e2_W (c : Dev nD) : V5 m ρ c main_arg12 = m ((c : Thread nD τ).loc main_arg12) :=
  (host2_pass (W4 m ρ c) main_arg12 (by decide)).trans
    ((W4_to_W1 m ρ c main_arg12 (by decide) (by decide) (by decide)).trans (W1_arg m ρ c main_arg12 (by decide)))
theorem e2_b (c : Dev nD) (e : Fin 256) : V5 m ρ c main_v12 (ix2 0 e) = m ((c : Thread nD τ).loc main_arg13) (ix1 e) := by
  have h : V5 m ρ c main_v12 = shapeCast S1x256 (W4 m ρ c (Proc.devRef .tc main_arg13)) shapeCasts_S256_S1x256 := by
    show StableHlo.after hostOps2 (W4 m ρ c) (Proc.devRef .tc main_v12) = _
    after_results
    all_goals rfl
  refine (congrFun h (ix2 0 e)).trans ?_
  exact row_read _ _ _ ((W4_to_W1 m ρ c main_arg13 (by decide) (by decide) (by decide)).trans
    (W1_arg m ρ c main_arg13 (by decide))) e

/-! ## Region 3's -/

theorem e3_x (c : Dev nD) (n : Fin 400000) : V7 m ρ c main_v14 (ix2 0 n) = m ((c : Thread nD τ).loc main_arg3) (ix1 n) := by
  have h : V7 m ρ c main_v14 = shapeCast S1x400000 (W6 m ρ c (Proc.devRef .tc main_arg3)) shapeCasts_S400000_S1x400000 := by
    show StableHlo.after hostOps3 (W6 m ρ c) (Proc.devRef .tc main_v14) = _
    after_results
    all_goals rfl
  refine (congrFun h (ix2 0 n)).trans ?_
  exact row_read _ _ _ ((W6_to_W1 m ρ c main_arg3 (by decide) (by decide) (by decide) (by decide) (by decide)).trans
    (W1_arg m ρ c main_arg3 (by decide))) n
theorem e3_cen (c : Dev nD) (k : Fin 32) : V7 m ρ c main_v15 (ix2 0 k) = Ideal.ofBits .f32 (lit2 k) := by
  have h : V7 m ρ c main_v15 = shapeCast S1x32 (W6 m ρ c (Proc.devRef .tc main_cst_1)) shapeCasts_S32_S1x32 := by
    show StableHlo.after hostOps3 (W6 m ρ c) (Proc.devRef .tc main_v15) = _
    after_results
    all_goals rfl
  refine (congrFun h (ix2 0 k)).trans ?_
  refine (row_read _ _ _ ((W6_to_W1 m ρ c main_cst_1 (by decide) (by decide) (by decide) (by decide) (by decide)).trans
    (W1_cst1 m ρ c)) k).trans ?_
  exact congrArg (fun j => Ideal.ofBits .f32 (lit2 j)) (Fin.ext (Shape.rowMajor_val_one _))
theorem e3_W (c : Dev nD) : V7 m ρ c main_arg14 = m ((c : Thread nD τ).loc main_arg14) :=
  (host3_pass (W6 m ρ c) main_arg14 (by decide)).trans
    ((W6_to_W1 m ρ c main_arg14 (by decide) (by decide) (by decide) (by decide) (by decide)).trans
      (W1_arg m ρ c main_arg14 (by decide)))
theorem e3_b (c : Dev nD) (e : Fin 256) : V7 m ρ c main_v16 (ix2 0 e) = m ((c : Thread nD τ).loc main_arg15) (ix1 e) := by
  have h : V7 m ρ c main_v16 = shapeCast S1x256 (W6 m ρ c (Proc.devRef .tc main_arg15)) shapeCasts_S256_S1x256 := by
    show StableHlo.after hostOps3 (W6 m ρ c) (Proc.devRef .tc main_v16) = _
    after_results
    all_goals rfl
  refine (congrFun h (ix2 0 e)).trans ?_
  exact row_read _ _ _ ((W6_to_W1 m ρ c main_arg15 (by decide) (by decide) (by decide) (by decide) (by decide)).trans
    (W1_arg m ρ c main_arg15 (by decide))) e

end Cert.KernelIdeal.EntryB

end
-- ==== Proof.Spec.lean ====
/-
  What the four results are, as mathematics on the extended reals, written over plain accessors
  (a row selector, a feature, a table, a weight matrix, a bias, a table of centres) so that the kernel's side and
  the reference's side can each be read into the same function.

  * A radial feature of a scalar `x` against a centre `c` is `exp (-10 * (x - c)^2)`.
  * `rbfOut`: a row's K radial features times a [K, 256] matrix, plus a bias: the two float edge embeddings.
  * `bondOut`: the row of a [6, 128] table an integer bucket selects, times a [128, 256] matrix, plus a bias.
  * `atomOut`: per pair atom p (two of them, laid side by side in 256 columns) the sum over five categorical
    tables of the selected rows plus the partial charge's radial features through a [20, 128] matrix and bias;
    the 256 columns then go through a [256, 256] matrix and a bias.

  The row selectors: the kernel CLIPS an integer into [0, N-1] (`clipRow`); the reference WRAPS a negative
  integer by N and then clamps (`wrapRow`). On an integer already in [0, N-1] both are the integer itself.
-/
import Idealize.ShloMosaic.PureOps
import Idealize.ShloMosaic.PureOps.Ideal
import Idealize.ShloMosaic.Lib.ValueIdx

noncomputable section

namespace Cert.Spec

open Idealize.ShloMosaic

/-- The radial feature `exp (-10 * (x - c)^2)`; `-10` is kept as the f32 word both programs carry. -/
def rbf (x c : EReal) : EReal := Ideal.exp (Ideal.ofBits .f32 0xC1200000#32 * ((x - c) * (x - c)))

/-- A float edge embedding: K radial features of row n's scalar, through W, plus b. -/
def rbfOut {K : Nat} (cen : Fin K → EReal) (x : Fin 400000 → EReal) (W : Fin K → Fin 256 → EReal) (b : Fin 256 → EReal) :
    (⟨2, ![400000, 256]⟩ : Shape).Idx → EReal :=
  fun j => (∑ k : Fin K, rbf (x (j 0)) (cen k) * W k (j 1)) + b (j 1)

/-- The integer distance bucket: the distance clipped to [1, 4.99999905] (the two f32 words both programs carry),
    then truncated toward zero. -/
def bondIdx (x : EReal) : BitVec 32 :=
  Ideal.fptosi 32 (min (Ideal.ofBits .f32 0x409FFFFE#32) (max (Ideal.ofBits .f32 0x3F800000#32) x))

/-- An integer clipped into [0, N-1], as a row number. -/
def clipRow (N : Nat) (hN : 0 < N) (i : BitVec 32) : Fin N := ⟨min (max i.toInt 0).toNat (N - 1), by omega⟩

/-- A negative integer wrapped by N, then clamped into [0, N-1], as a row number. -/
def wrapRow (N : Nat) (hN : 0 < N) (i : BitVec 32) : Fin N :=
  ⟨min (if i.toInt < 0 then i + BitVec.ofNat 32 N else i).toInt.toNat (N - 1), by omega⟩

/-- The integer bucket embedding: the selected table row through W, plus b. -/
def bondOut (row : Fin 400000 → Fin 6) (tab : Fin 6 → Fin 128 → EReal) (W : Fin 128 → Fin 256 → EReal) (b : Fin 256 → EReal) :
    (⟨2, ![400000, 256]⟩ : Shape).Idx → EReal :=
  fun j => (∑ e : Fin 128, tab (row (j 0)) e * W e (j 1)) + b (j 1)

/-- Pair n, atom p, hidden column e before the projection: the five selected table rows summed, plus the partial
    charge's radial features through cW, plus cb. -/
def atomHid (row : Fin 200000 → Fin 5 → Fin 2 → Fin 32) (q : Fin 200000 → Fin 2 → EReal)
    (tables : Fin 5 → Fin 32 → Fin 128 → EReal) (cW : Fin 20 → Fin 128 → EReal) (cb : Fin 128 → EReal) (cen : Fin 20 → EReal)
    (n : Fin 200000) (p : Fin 2) (e : Fin 128) : EReal :=
  (∑ t : Fin 5, tables t (row n t p) e) + ((∑ k : Fin 20, rbf (q n p) (cen k) * cW k e) + cb e)

/-- The atom embedding: the 256 hidden columns (atom p = c / 128, column e = c % 128) through pW, plus pb. -/
def atomOut (row : Fin 200000 → Fin 5 → Fin 2 → Fin 32) (q : Fin 200000 → Fin 2 → EReal)
    (tables : Fin 5 → Fin 32 → Fin 128 → EReal) (cW : Fin 20 → Fin 128 → EReal) (cb : Fin 128 → EReal)
    (pW : Fin 256 → Fin 256 → EReal) (pb : Fin 256 → EReal) (cen : Fin 20 → EReal) :
    (⟨2, ![200000, 256]⟩ : Shape).Idx → EReal :=
  fun j => (∑ c : Fin 256, atomHid row q tables cW cb cen (j 0) ⟨c.val / 128, by have := c.isLt; omega⟩
      ⟨c.val % 128, Nat.mod_lt _ (by decide)⟩ * pW c (j 1)) + pb (j 1)

/-! ## The integer facts that join the two sides -/

/-- The lower clip word is the real 1. -/
theorem clipLo_eq : Ideal.ofBits .f32 0x3F800000#32 = ((1 : ℝ) : EReal) := by
  simp [Ideal.ofBits, Ideal.ieee, -EReal.coe_mul]; norm_num

/-- The upper clip word is the dyadic 5242879 / 2^20 = 4.99999905…, strictly between 4 and 5. -/
theorem clipHi_eq : Ideal.ofBits .f32 0x409FFFFE#32 = (((5242879 : ℝ) / 1048576 : ℝ) : EReal) := by
  simp [Ideal.ofBits, Ideal.ieee, -EReal.coe_mul]; norm_num

/-- An extended real between 1 and a real below 5 is a real whose floor is 1, 2, 3 or 4; the 32-bit clamp and the
    wrap into a word leave such a floor alone. -/
theorem fptosi_range (y : EReal) (r : ℝ) (h1 : ((1 : ℝ) : EReal) ≤ y) (h2 : y ≤ ((r : ℝ) : EReal)) (hr : r < 5) :
    1 ≤ (Ideal.fptosi 32 y).toInt ∧ (Ideal.fptosi 32 y).toInt ≤ 4 := by
  induction y using EReal.rec with
  | bot => exact absurd h1 (not_le.2 (EReal.bot_lt_coe _))
  | top => exact absurd h2 (not_le.2 (EReal.coe_lt_top _))
  | coe s =>
    have hs1 : (1 : ℝ) ≤ s := EReal.coe_le_coe_iff.1 h1
    have hs2 : s ≤ r := EReal.coe_le_coe_iff.1 h2
    have hf1 : 1 ≤ ⌊s⌋ := Int.le_floor.2 (by exact_mod_cast hs1)
    have hf2 : ⌊s⌋ < 5 := Int.floor_lt.2 (by push_cast; linarith)
    rw [Ideal.fptosi, Ideal.toIntClamped_coe, if_pos (by linarith)]
    rw [min_eq_right (by norm_num; omega), max_eq_right (by norm_num; omega)]
    rw [BitVec.toInt_ofInt_eq_self (by decide) (by norm_num; omega) (by norm_num; omega)]
    omega

/-- On an integer already inside [0, N-1] wrapping and clipping select the same row. -/
theorem wrapRow_eq_clipRow (N : Nat) (hN : 0 < N) (hN' : N < 2 ^ 31) (i : BitVec 32) (h0 : 0 ≤ i.toInt) (h1 : i.toInt < N) :
    wrapRow N hN i = clipRow N hN i := by
  -- the integer is not negative, so nothing is wrapped; and the maximum with 0 is the integer itself
  apply Fin.ext
  simp only [wrapRow, clipRow]
  rw [if_neg (by omega), max_eq_left h0]

/-- The bucket of ANY extended real lies in [1, 4]: the clip comes first. -/
theorem bondIdx_range (x : EReal) : 1 ≤ (bondIdx x).toInt ∧ (bondIdx x).toInt ≤ 4 := by
  -- min hi (max lo x) lies in [lo, hi] whatever x is, because lo ≤ hi
  unfold bondIdx
  rw [clipLo_eq, clipHi_eq]
  refine fptosi_range _ (5242879 / 1048576) (le_min ?_ (le_max_left _ _)) (min_le_left _ _) (by norm_num)
  exact EReal.coe_le_coe_iff.2 (by norm_num)

/-- A 32-bit integer made a real and truncated back is itself. -/
theorem fptosi_sitofp (b : BitVec 32) : Ideal.fptosi 32 (((b.toInt : ℝ)) : EReal) = b := by
  -- floor and ceiling of an integer are the integer; a word's signed value lies in [-2^31, 2^31 - 1], so the clamp is idle
  have h1 := BitVec.toInt_lt (x := b)
  have h2 := BitVec.le_toInt b
  rw [Ideal.fptosi, Ideal.toIntClamped_coe]
  simp only [Int.floor_intCast, Int.ceil_intCast, ite_self]
  rw [min_eq_right (by norm_num at h1 h2 ⊢; omega), max_eq_right (by norm_num at h1 h2 ⊢; omega)]
  exact BitVec.ofInt_toInt

end Cert.Spec

end
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.Region0.lean ====
/-
  Region 0, the atom embedding, as a value: whatever the TensorCore's buffers hold when the region is entered,
  the output array after the region's 25 grid points is `Spec.atomOut` of the seven operand arrays: each point
  writes back rows 8000 t .. 8000 t + 7999, the blocks tile the array, and a row's value is the textbook formula.
  A categorical id arrives as a float column of the [N, 12] slab, is truncated back to an integer and clipped
  into [0, 31]; the one-hot product with a table then selects that row.
-/
import proofs.«405733_j12730283066009_3_alg».proof.Proof.Gen.KernelIdeal.Frame
import proofs.«405733_j12730283066009_3_alg».proof.Proof.Spec
import proofs.«405733_j12730283066009_3_alg».proof.Proof.LibBlockOps
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

-- the TensorCore's buffer contents when the region is entered: a parameter
variable (V : (c : Dev nD) → (b : Ref sig .tc) → Buf (Elt Ideal) ((c : Thread nD τ).loc b))

/-! ## Integer facts: the clipped word and the one-hot bit -/

/-- The word `min 31 (max 0 i)` (signed) is the number `min (max i 0) 31`. -/
theorem clip_word (i : BitVec 32) :
    IntOp.minsi 31#32 (IntOp.maxsi 0#32 i) = BitVec.ofNat 32 (Cert.Spec.clipRow 32 (by decide) i).val := by
  show _ = BitVec.ofNat 32 (min (max i.toInt 0).toNat (32 - 1))
  unfold IntOp.minsi IntOp.maxsi
  have hc := BitVec.toInt_eq_toNat_cond i
  have hl := i.isLt
  by_cases hneg : i.slt 0#32 = true
  · rw [if_pos hneg]
    rw [if_neg (by decide : ¬ ((31#32 : BitVec 32).slt 0#32 = true))]
    have hlt : i.toInt < (0#32 : BitVec 32).toInt := by simpa [BitVec.slt] using hneg
    have h0 : (0#32 : BitVec 32).toInt = 0 := by decide
    have : min (max i.toInt 0).toNat (32 - 1) = 0 := by omega
    rw [this]
  · rw [if_neg hneg]
    have hge : ¬ i.toInt < (0#32 : BitVec 32).toInt := by simpa [BitVec.slt] using hneg
    have h0 : (0#32 : BitVec 32).toInt = 0 := by decide
    have h31 : (31#32 : BitVec 32).toInt = 31 := by decide
    by_cases hbig : (31#32 : BitVec 32).slt i = true
    · rw [if_pos hbig]
      have hlt : (31#32 : BitVec 32).toInt < i.toInt := by simpa [BitVec.slt] using hbig
      have : min (max i.toInt 0).toNat (32 - 1) = 31 := by omega
      rw [this]
    · rw [if_neg hbig]
      have hle : ¬ (31#32 : BitVec 32).toInt < i.toInt := by simpa [BitVec.slt] using hbig
      apply BitVec.eq_of_toNat_eq
      rw [BitVec.toNat_ofNat]
      have : min (max i.toInt 0).toNat (32 - 1) = i.toNat := by omega
      rw [this, Nat.mod_eq_of_lt hl]

/-- Against the column number `k < 32` the clipped word is equal exactly at the clipped row. -/
theorem clip_word_eq_iff (i : BitVec 32) (k : Fin 32) :
    IntOp.minsi 31#32 (IntOp.maxsi 0#32 i) = BitVec.ofNat 32 k.val ↔ k = Cert.Spec.clipRow 32 (by decide) i := by
  rw [clip_word]
  constructor
  · intro h
    have h' := congrArg BitVec.toNat h
    rw [BitVec.toNat_ofNat, BitVec.toNat_ofNat] at h'
    have h1 := (Cert.Spec.clipRow 32 (by decide) i).isLt
    have h2 := k.isLt
    apply Fin.ext
    rw [Nat.mod_eq_of_lt (by omega), Nat.mod_eq_of_lt (by omega)] at h'
    exact h'.symm
  · intro h; rw [h]

/-- The comparison bit, widened and converted, is 1 where the words agree and 0 elsewhere. -/
theorem onehot_scalar (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  rw [toInt_setWidth_bit]
  unfold IntOp.cmpi
  by_cases h : x = y
  · rw [if_pos h]; subst h; simp
  · rw [if_neg h]
    have : (x == y) = false := by simpa using h
    simp [this]

/-! ## The clipped id of a float column, and the selection of a table row -/

/-- A float column's integer id (truncated toward zero) clipped into [0, 31], one word per row. -/
def clipCol (xs : FVec Ideal S8000x1 .f32) : IVec S8000 32 :=
  minsi (broadcast S8000 31#32) (maxsi (broadcast S8000 0#32) (fptosi 32 (shapeCast S8000 xs shapeCasts_S8000x1_S8000)))

theorem clipCol_apply (xs : FVec Ideal S8000x1 .f32) (r : Fin 8000) :
    clipCol xs (ix1 r) = IntOp.minsi 31#32 (IntOp.maxsi 0#32 (Ideal.fptosi 32 (xs (ix2 r (0 : Fin 1))))) := by
  show IntOp.minsi 31#32 (IntOp.maxsi 0#32 (Ideal.fptosi 32 (shapeCast S8000 xs shapeCasts_S8000x1_S8000 (ix1 r)))) = _
  rw [shapeCast_apply xs shapeCasts_S8000x1_S8000 (ix1 r) (ix2 r (0 : Fin 1)) (by
    rw [Shape.rowMajor_val_two, Shape.rowMajor_val_one]
    show r.val * 1 + 0 = r.val
    omega)]

/-- The ids laid along 32 columns: every column of row r holds row r's id. -/
def idCols (ids : IVec S8000 32) : IVec S8000x32 32 :=
  broadcastTo S8000x32 (shapeCast S8000x1 ids shapeCasts_S8000_S8000x1) broadcasts_S8000x1_S8000x32

theorem idCols_apply (ids : IVec S8000 32) (r : Fin 8000) (k : Fin 32) : idCols ids (ix2 r k) = ids (ix1 r) := by
  show broadcastTo S8000x32 (shapeCast S8000x1 ids shapeCasts_S8000_S8000x1) broadcasts_S8000x1_S8000x32 (ix2 r k) = _
  rw [BlockOps.broadcastTo_a1_ab_apply]
  exact shapeCast_apply ids shapeCasts_S8000_S8000x1 (ix2 r (0 : Fin 1)) (ix1 r) (by
    rw [Shape.rowMajor_val_two, Shape.rowMajor_val_one]
    show r.val = r.val * 1 + 0
    omega)

/-- The one-hot block of two integer blocks: 1 where they agree, 0 elsewhere. -/
def oneHot (bc io : IVec S8000x32 32) : FVec Ideal S8000x32 .f32 :=
  sitofp .f32 (extui 32 (cmpi .eq bc io) natLt_1_32)

theorem oneHot_apply (bc io : IVec S8000x32 32) (j : S8000x32.Idx) :
    oneHot bc io j = if bc j = io j then 1 else 0 := onehot_scalar (bc j) (io j)

/-- A one-hot block times a [32,128] table, into the zero block. -/
def pick (oh : FVec Ideal S8000x32 .f32) (tab : FVec Ideal S32x128 .f32) : FVec Ideal S8000x128 .f32 :=
  matmul dot_S8000x32_S32x128_S8000x128_1_0_0_1_n_n (some .fp32) oh tab (constant S8000x128 .f32 0x00000000#32)

/-- Row r of the product is the table's row at row r's clipped id: the sum over k has one nonzero term. -/
theorem pick_apply (bc io : IVec S8000x32 32) (tab : FVec Ideal S32x128 .f32) (r : Fin 8000) (e : Fin 128) (i : BitVec 32)
    (hbc : ∀ k : Fin 32, bc (ix2 r k) = IntOp.minsi 31#32 (IntOp.maxsi 0#32 i))
    (hio : ∀ k : Fin 32, io (ix2 r k) = BitVec.ofNat 32 k.val) :
    pick (oneHot bc io) tab (ix2 r e) = tab (ix2 (Cert.Spec.clipRow 32 (by decide) i) e) := by
  show FloatOps.matmul dot_S8000x32_S32x128_S8000x128_1_0_0_1_n_n (some .fp32) (oneHot bc io) tab
      (constant (F := Ideal) S8000x128 .f32 0x00000000#32) (ix2 r e) = _
  rw [show dot_S8000x32_S32x128_S8000x128_1_0_0_1_n_n
      = BlockOps.rowCol dot_S8000x32_S32x128_S8000x128_1_0_0_1_n_n_wf from rfl]
  rw [BlockOps.matmul_zero_apply]
  rw [Finset.sum_eq_single (Cert.Spec.clipRow 32 (by decide) i)]
  · rw [oneHot_apply, hbc, hio, if_pos ((clip_word_eq_iff i _).mpr rfl), one_mul]
  · intro k _ hk
    rw [oneHot_apply, hbc, hio, if_neg (fun h => hk ((clip_word_eq_iff i k).mp h)), zero_mul]
  · intro h; exact absurd (Finset.mem_univ _) h

/-! ## Layout reads -/

/-- Column o of the [8000,12] slab, as an [8000,1] block. -/
theorem col_apply (y0 : FVec Ideal S8000x12 .f32) (o : Nat) (h : S8000x12.Slices ![0, o] S8000x1) (ho : o < 12) (r : Fin 8000) :
    extractStridedSlice S8000x1 ![0, o] y0 h (ix2 r (0 : Fin 1)) = y0 (ix2 r ⟨o, ho⟩) :=
  slice2_axis1_apply o y0 h r (0 : Fin 1) ⟨o, ho⟩ rfl

/-- Table t of the five, as a [32,128] block. -/
theorem tab_apply (x1 : Vec Ideal S5x32x128 .f32) (t : Nat) (h : S5x32x128.Slices ![t, 0, 0] S1x32x128) (ht : t < 5)
    (k : Fin 32) (e : Fin 128) :
    shapeCast S32x128 (extractStridedSlice S1x32x128 ![t, 0, 0] x1 h) shapeCasts_S1x32x128_S32x128 (ix2 k e)
      = x1 (ix3 ⟨t, ht⟩ k e) := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- The column-number block: entry (r, k) is the word of k. -/
theorem colNo_apply (r : Fin 8000) (k : Fin 32) :
    iota .tc S8000x32 32 [1] iota_S8000x32_d1_w32 (ix2 r k) = BitVec.ofNat 32 k.val :=
  iota_single_apply .tc S8000x32 32 (1 : Fin 2) iota_S8000x32_d1_w32 (ix2 r k)

/-! ## One table's term: the row the clipped id of a slab column selects -/

def term (y0 : FVec Ideal S8000x12 .f32) (x1 : Vec Ideal S5x32x128 .f32) (o : Nat) (ho : S8000x12.Slices ![0, o] S8000x1)
    (t : Nat) (ht : S5x32x128.Slices ![t, 0, 0] S1x32x128) : FVec Ideal S8000x128 .f32 :=
  pick (oneHot (idCols (clipCol (extractStridedSlice S8000x1 ![0, o] y0 ho))) (iota .tc S8000x32 32 [1] iota_S8000x32_d1_w32))
    (shapeCast S32x128 (extractStridedSlice S1x32x128 ![t, 0, 0] x1 ht) shapeCasts_S1x32x128_S32x128)

theorem term_apply (y0 : FVec Ideal S8000x12 .f32) (x1 : Vec Ideal S5x32x128 .f32) (o : Nat) (ho : S8000x12.Slices ![0, o] S8000x1)
    (t : Nat) (ht : S5x32x128.Slices ![t, 0, 0] S1x32x128) (lo : o < 12) (lt : t < 5) (r : Fin 8000) (e : Fin 128) :
    term y0 x1 o ho t ht (ix2 r e)
      = x1 (ix3 ⟨t, lt⟩ (Cert.Spec.clipRow 32 (by decide) (Ideal.fptosi 32 (y0 (ix2 r ⟨o, lo⟩)))) e) := by
  unfold term
  rw [pick_apply _ _ _ r e (Ideal.fptosi 32 (y0 (ix2 r ⟨o, lo⟩)))
    (fun k => by rw [idCols_apply, clipCol_apply, col_apply y0 o ho lo]) (fun k => colNo_apply r k)]
  exact tab_apply x1 t ht lt _ e

/-! ## The radial features of a slab column through the charge matrix, plus the charge bias -/

def rbfBlk (xs : FVec Ideal S8000x1 .f32) (x2 : FVec Ideal S20x128 .f32) (y3 : FVec Ideal S1x128 .f32) (y6 : FVec Ideal S1x20 .f32) :
    FVec Ideal S8000x128 .f32 :=
  addf (matmul dot_S8000x20_S20x128_S8000x128_1_0_0_1_n_n (some .fp32)
      (exp (mulf (broadcast S8000x20 (Scalar.ofBits .f32 0xC1200000#32 : Ideal .f32))
        (mulf (subf (broadcastTo S8000x20 (shapeCast S8000x1 (shapeCast S8000 xs shapeCasts_S8000x1_S8000) shapeCasts_S8000_S8000x1) broadcasts_S8000x1_S8000x20) (broadcastTo S8000x20 y6 broadcasts_S1x20_S8000x20))
              (subf (broadcastTo S8000x20 (shapeCast S8000x1 (shapeCast S8000 xs shapeCasts_S8000x1_S8000) shapeCasts_S8000_S8000x1) broadcasts_S8000x1_S8000x20) (broadcastTo S8000x20 y6 broadcasts_S1x20_S8000x20)))))
      x2 (constant S8000x128 .f32 0x00000000#32))
    (broadcastTo S8000x128 y3 broadcasts_S1x128_S8000x128)

theorem rbfBlk_apply (xs : FVec Ideal S8000x1 .f32) (x2 : FVec Ideal S20x128 .f32) (y3 : FVec Ideal S1x128 .f32) (y6 : FVec Ideal S1x20 .f32)
    (r : Fin 8000) (e : Fin 128) :
    rbfBlk xs x2 y3 y6 (ix2 r e)
      = (∑ k : Fin 20, Cert.Spec.rbf (xs (ix2 r (0 : Fin 1))) (y6 (ix2 (0 : Fin 1) k)) * x2 (ix2 k e)) + y3 (ix2 (0 : Fin 1) e) := by
  unfold rbfBlk
  rw [addf_apply, broadcastTo_1b_ab_apply]
  congr 1
  show FloatOps.matmul dot_S8000x20_S20x128_S8000x128_1_0_0_1_n_n (some .fp32) _ x2
      (constant (F := Ideal) S8000x128 .f32 0x00000000#32) (ix2 r e) = _
  rw [show dot_S8000x20_S20x128_S8000x128_1_0_0_1_n_n
      = BlockOps.rowCol dot_S8000x20_S20x128_S8000x128_1_0_0_1_n_n_wf from rfl]
  rw [BlockOps.matmul_zero_apply]
  refine Finset.sum_congr rfl fun k _ => ?_
  congr 1
  have hA : broadcastTo S8000x20 (shapeCast S8000x1 (shapeCast S8000 xs shapeCasts_S8000x1_S8000) shapeCasts_S8000_S8000x1)
      broadcasts_S8000x1_S8000x20 (ix2 r k) = xs (ix2 r (0 : Fin 1)) := by
    rw [BlockOps.broadcastTo_a1_ab_apply, shapeCast_shapeCast]
  have hB : broadcastTo S8000x20 y6 broadcasts_S1x20_S8000x20 (ix2 r k) = y6 (ix2 (0 : Fin 1) k) :=
    broadcastTo_1b_ab_apply y6 broadcasts_S1x20_S8000x20 r k
  unfold Cert.Spec.rbf
  rw [← hA, ← hB]
  rfl

/-! ## The body as one term of these -/

/-- The five terms of one atom added left to right onto the zero block. -/
def accOf (y0 : FVec Ideal S8000x12 .f32) (x1 : Vec Ideal S5x32x128 .f32) (o0 o1 o2 o3 o4 : Nat)
    (h0 : S8000x12.Slices ![0, o0] S8000x1) (h1 : S8000x12.Slices ![0, o1] S8000x1) (h2 : S8000x12.Slices ![0, o2] S8000x1)
    (h3 : S8000x12.Slices ![0, o3] S8000x1) (h4 : S8000x12.Slices ![0, o4] S8000x1) : FVec Ideal S8000x128 .f32 :=
  addf (addf (addf (addf (addf (broadcast S8000x128 (Scalar.ofBits .f32 0x00000000#32 : Ideal .f32))
    (term y0 x1 o0 h0 0 slices_S5x32x128_o0_0_0_S1x32x128))
    (term y0 x1 o1 h1 1 slices_S5x32x128_o1_0_0_S1x32x128))
    (term y0 x1 o2 h2 2 slices_S5x32x128_o2_0_0_S1x32x128))
    (term y0 x1 o3 h3 3 slices_S5x32x128_o3_0_0_S1x32x128))
    (term y0 x1 o4 h4 4 slices_S5x32x128_o4_0_0_S1x32x128)

/-- The body's result block from the seven input blocks. -/
def bodyFn (x0 : Vec Ideal S8000x12 .f32) (x1 : Vec Ideal S5x32x128 .f32) (x2 : Vec Ideal S20x128 .f32) (x3 : Vec Ideal S1x128 .f32)
    (x4 : Vec Ideal S256x256 .f32) (x5 : Vec Ideal S1x256 .f32) (x6 : Vec Ideal S1x20 .f32) : FVec Ideal S8000x256 .f32 :=
  k0_pay1 (k0_pay2 x0) x2 (k0_pay3 x3) x4 (k0_pay4 x5) (k0_pay5 x6) (k0_pay12 (k0_pay9 (k0_pay2 x0) x1 (k0_pay6 x0 x1) (k0_pay7 x1) (k0_pay8 x0)) (k0_pay10 x1) (k0_pay11 (k0_pay2 x0))) (k0_pay13 (k0_pay2 x0) x2 (k0_pay3 x3) (k0_pay5 x6)) (k0_pay17 (k0_pay2 x0) x1 (k0_pay14 (k0_pay2 x0) x1) (k0_pay15 x1) (iota .tc S8000x32 32 [1] iota_S8000x32_d1_w32) (k0_pay16 (k0_pay2 x0))) (k0_pay18 x1) (iota .tc S8000x32 32 [1] iota_S8000x32_d1_w32) (k0_pay19 (k0_pay2 x0))

theorem body_eq (x0 : Vec Ideal S8000x12 .f32) (x1 : Vec Ideal S5x32x128 .f32) (x2 : Vec Ideal S20x128 .f32) (x3 : Vec Ideal S1x128 .f32)
    (x4 : Vec Ideal S256x256 .f32) (x5 : Vec Ideal S1x256 .f32) (x6 : Vec Ideal S1x20 .f32) :
    bodyFn x0 x1 x2 x3 x4 x5 x6
      = addf (matmul (φ₁ := .f32) (φ₂ := .f32) dot_S8000x256_S256x256_S8000x256_1_0_0_1_n_n (some .fp32)
          (addf
            (concatenate S8000x256 1
              [⟨S8000x128, accOf (k0_pay2 x0) x1 0 2 4 6 8 slices_S8000x12_o0_0_S8000x1 slices_S8000x12_o0_2_S8000x1 slices_S8000x12_o0_4_S8000x1 slices_S8000x12_o0_6_S8000x1 slices_S8000x12_o0_8_S8000x1⟩,
               ⟨S8000x128, accOf (k0_pay2 x0) x1 1 3 5 7 9 slices_S8000x12_o0_1_S8000x1 slices_S8000x12_o0_3_S8000x1 slices_S8000x12_o0_5_S8000x1 slices_S8000x12_o0_7_S8000x1 slices_S8000x12_o0_9_S8000x1⟩]
              concatenates_S8000x128_S8000x128_S8000x256_d1)
            (concatenate S8000x256 1
              [⟨S8000x128, rbfBlk (extractStridedSlice S8000x1 ![0, 10] (k0_pay2 x0) slices_S8000x12_o0_10_S8000x1) x2 (k0_pay3 x3) (k0_pay5 x6)⟩,
               ⟨S8000x128, rbfBlk (extractStridedSlice S8000x1 ![0, 11] (k0_pay2 x0) slices_S8000x12_o0_11_S8000x1) x2 (k0_pay3 x3) (k0_pay5 x6)⟩]
              concatenates_S8000x128_S8000x128_S8000x256_d1))
          x4 (constant S8000x256 .f32 0x00000000#32))
        (broadcastTo S8000x256 (k0_pay4 x5) broadcasts_S1x256_S8000x256) := rfl

/-! ## The body at an entry -/

/-- The identity casts of the loaded blocks. -/
theorem pay2_eq (x : Vec Ideal S8000x12 .f32) : k0_pay2 x = x := shapeCast_self _ _
theorem pay3_eq (x : Vec Ideal S1x128 .f32) : k0_pay3 x = x := shapeCast_self _ _
theorem pay4_eq (x : Vec Ideal S1x256 .f32) : k0_pay4 x = x := shapeCast_self _ _
theorem pay5_eq (x : Vec Ideal S1x20 .f32) : k0_pay5 x = x := shapeCast_self _ _

/-- One atom's accumulator at (r, e): the five selected table rows summed (the zero block adds nothing, and the
    order of the additions is the order of the tables). -/
theorem accOf_apply (y0 : FVec Ideal S8000x12 .f32) (x1 : Vec Ideal S5x32x128 .f32) (p : Fin 2) (o0 o1 o2 o3 o4 : Nat)
    (h0 : S8000x12.Slices ![0, o0] S8000x1) (h1 : S8000x12.Slices ![0, o1] S8000x1) (h2 : S8000x12.Slices ![0, o2] S8000x1)
    (h3 : S8000x12.Slices ![0, o3] S8000x1) (h4 : S8000x12.Slices ![0, o4] S8000x1)
    (e0 : o0 = 2 * 0 + p.val) (e1 : o1 = 2 * 1 + p.val) (e2 : o2 = 2 * 2 + p.val) (e3 : o3 = 2 * 3 + p.val) (e4 : o4 = 2 * 4 + p.val)
    (r : Fin 8000) (e : Fin 128) :
    accOf y0 x1 o0 o1 o2 o3 o4 h0 h1 h2 h3 h4 (ix2 r e)
      = ∑ t : Fin 5, x1 (ix3 t (Cert.Spec.clipRow 32 (by decide)
          (Ideal.fptosi 32 (y0 (ix2 r ⟨2 * t.val + p.val, by have := t.isLt; have := p.isLt; omega⟩)))) e) := by
  subst e0 e1 e2 e3 e4
  have hp := p.isLt
  unfold accOf
  rw [addf_apply, addf_apply, addf_apply, addf_apply, addf_apply, broadcast_apply,
    term_apply y0 x1 _ h0 0 _ (by omega) (by omega), term_apply y0 x1 _ h1 1 _ (by omega) (by omega),
    term_apply y0 x1 _ h2 2 _ (by omega) (by omega), term_apply y0 x1 _ h3 3 _ (by omega) (by omega),
    term_apply y0 x1 _ h4 4 _ (by omega) (by omega)]
  rw [Fin.sum_univ_five]
  show Ideal.ofBits .f32 0x00000000#32 + _ + _ + _ + _ + _ = _
  rw [Ideal.ofBits_zero_f32, zero_add]
  rfl

/-- Two [8000,128] blocks side by side: column c reads block c / 128 at column c % 128. -/
theorem cat_apply (a b : FVec Ideal S8000x128 .f32) (r : Fin 8000) (c : Fin 256) (H : Fin 2 → Fin 128 → EReal)
    (ha : ∀ e, a (ix2 r e) = H 0 e) (hb : ∀ e, b (ix2 r e) = H 1 e) :
    concatenate S8000x256 1 [⟨S8000x128, a⟩, ⟨S8000x128, b⟩] concatenates_S8000x128_S8000x128_S8000x256_d1 (ix2 r c)
      = H ⟨c.val / 128, by have := c.isLt; omega⟩ ⟨c.val % 128, Nat.mod_lt _ (by decide)⟩ := by
  have hc := c.isLt
  by_cases h : c.val < 128
  · rw [concatenate_pair_apply_left (1 : Fin 2) a b concatenates_S8000x128_S8000x128_S8000x256_d1 (ix2 r c) rfl (ix2 r ⟨c.val, h⟩)
      (fun ax => by match ax with | ⟨0, _⟩ => rfl | ⟨1, _⟩ => rfl), ha]
    congr 1 <;> apply Fin.ext
    · show 0 = c.val / 128; omega
    · show c.val = c.val % 128; omega
  · rw [concatenate_pair_apply_right (1 : Fin 2) a b concatenates_S8000x128_S8000x128_S8000x256_d1 (ix2 r c) rfl rfl
      (ix2 r ⟨c.val - 128, by omega⟩)
      (fun ax hne => by match ax with | ⟨0, _⟩ => rfl | ⟨1, _⟩ => exact absurd rfl hne)
      (by show c.val - 128 + 128 = c.val; omega), hb]
    congr 1 <;> apply Fin.ext
    · show 1 = c.val / 128; omega
    · show c.val - 128 = c.val % 128; omega

/-- Row r, atom p, hidden column e, from the blocks: the selected rows summed, plus the charge's radial features
    through the charge matrix, plus the charge bias. -/
def hidBlk (x0 : Vec Ideal S8000x12 .f32) (x1 : Vec Ideal S5x32x128 .f32) (x2 : Vec Ideal S20x128 .f32) (x3 : Vec Ideal S1x128 .f32)
    (x6 : Vec Ideal S1x20 .f32) (r : Fin 8000) (p : Fin 2) (e : Fin 128) : EReal :=
  (∑ t : Fin 5, x1 (ix3 t (Cert.Spec.clipRow 32 (by decide)
      (Ideal.fptosi 32 (x0 (ix2 r ⟨2 * t.val + p.val, by have := t.isLt; have := p.isLt; omega⟩)))) e))
    + ((∑ k : Fin 20, Cert.Spec.rbf (x0 (ix2 r ⟨10 + p.val, by have := p.isLt; omega⟩)) (x6 (ix2 (0 : Fin 1) k)) * x2 (ix2 k e))
      + x3 (ix2 (0 : Fin 1) e))

/-- The body's block at (r, c): the 256 hidden columns through the projection matrix, plus the projection bias. -/
theorem body_apply (x0 : Vec Ideal S8000x12 .f32) (x1 : Vec Ideal S5x32x128 .f32) (x2 : Vec Ideal S20x128 .f32) (x3 : Vec Ideal S1x128 .f32)
    (x4 : Vec Ideal S256x256 .f32) (x5 : Vec Ideal S1x256 .f32) (x6 : Vec Ideal S1x20 .f32) (r : Fin 8000) (c : Fin 256) :
    bodyFn x0 x1 x2 x3 x4 x5 x6 (ix2 r c)
      = (∑ c' : Fin 256, hidBlk x0 x1 x2 x3 x6 r ⟨c'.val / 128, by have := c'.isLt; omega⟩ ⟨c'.val % 128, Nat.mod_lt _ (by decide)⟩
          * x4 (ix2 c' c)) + x5 (ix2 (0 : Fin 1) c) := by
  rw [body_eq, pay2_eq, pay3_eq, pay4_eq, pay5_eq, addf_apply, broadcastTo_1b_ab_apply]
  congr 1
  show FloatOps.matmul dot_S8000x256_S256x256_S8000x256_1_0_0_1_n_n (some .fp32) _ (x4 : FVec Ideal S256x256 .f32)
      (constant (F := Ideal) S8000x256 .f32 0x00000000#32) (ix2 r c) = _
  rw [show dot_S8000x256_S256x256_S8000x256_1_0_0_1_n_n
      = BlockOps.rowCol dot_S8000x256_S256x256_S8000x256_1_0_0_1_n_n_wf from rfl]
  rw [BlockOps.matmul_zero_apply]
  refine Finset.sum_congr rfl fun c' _ => ?_
  congr 1
  rw [addf_apply,
    cat_apply _ _ r c' (fun p e => ∑ t : Fin 5, x1 (ix3 t (Cert.Spec.clipRow 32 (by decide)
        (Ideal.fptosi 32 (x0 (ix2 r ⟨2 * t.val + p.val, by have := t.isLt; have := p.isLt; omega⟩)))) e))
      (fun e => accOf_apply x0 x1 0 0 2 4 6 8 _ _ _ _ _ rfl rfl rfl rfl rfl r e)
      (fun e => accOf_apply x0 x1 1 1 3 5 7 9 _ _ _ _ _ rfl rfl rfl rfl rfl r e),
    cat_apply _ _ r c' (fun p e => (∑ k : Fin 20, Cert.Spec.rbf (x0 (ix2 r ⟨10 + p.val, by have := p.isLt; omega⟩))
        (x6 (ix2 (0 : Fin 1) k)) * x2 (ix2 k e)) + x3 (ix2 (0 : Fin 1) e))
      (fun e => (rbfBlk_apply _ _ _ _ r e).trans (by rw [col_apply x0 10 slices_S8000x12_o0_10_S8000x1 (by omega) r] <;> rfl))
      (fun e => (rbfBlk_apply _ _ _ _ r e).trans (by rw [col_apply x0 11 slices_S8000x12_o0_11_S8000x1 (by omega) r] <;> rfl))]
  rfl

/-! ## From the blocks to the array -/

theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The array the region leaves: the atom embedding of the operand arrays as the region finds them. -/
abbrev atomArr (c : Dev nD) : (⟨2, ![200000, 256]⟩ : Shape).Idx → EReal :=
  Cert.Spec.atomOut
    (fun n t p => Cert.Spec.clipRow 32 (by decide) (Ideal.fptosi 32 (V c main_v2 (ix2 n ⟨2 * t.val + p.val, by have := t.isLt; have := p.isLt; omega⟩))))
    (fun n p => V c main_v2 (ix2 n ⟨10 + p.val, by have := p.isLt; omega⟩))
    (fun t k e => V c main_arg4 (ix3 t k e))
    (fun k e => V c main_arg5 (ix2 k e))
    (fun e => V c main_v3 (ix2 0 e))
    (fun a b => V c main_arg7 (ix2 a b))
    (fun e => V c main_v4 (ix2 0 e))
    (fun k => V c main_v5 (ix2 0 k))

/-- The index maps, decided over the 25 points: the slab and the output move together down the rows, point t at
    block t; every other window sits at block 0 on every axis. -/
theorem blockIndex : ∀ t : Fin cfg0.N, win0_7.index t (0 : Fin 2) = t.val ∧ win0_7.index t (1 : Fin 2) = 0
    ∧ win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The slab's block at point t is rows 8000 t .. of the slab. -/
theorem blk0_apply (c : Dev nD) (t : Fin cfg0.N) (r : Fin 8000) (k : Fin 12) (n : Fin 200000)
    (hn : n.val = win0_7.index t (0 : Fin 2) * 8000 + r.val) :
    (iblk0 V c 0 t : Vec Ideal S8000x12 .f32) (ix2 r k) = V c main_v2 (ix2 n k) := by
  obtain ⟨f70, f71, f00, f01, -⟩ := blockIndex t
  unfold iblk0
  rw [View.read_apply]
  show V c main_v2 _ = V c main_v2 _
  congr 1
  funext a; apply Fin.ext
  match a with
  | ⟨0, _⟩ => show win0_0.index t (0 : Fin 2) * 8000 + 1 * r.val = n.val; rw [f00, hn, f70]; omega
  | ⟨1, _⟩ => show win0_0.index t (1 : Fin 2) * 12 + 1 * k.val = k.val; rw [f01]; omega

/-- Every other window's block is its whole array. -/
theorem blk1_apply (c : Dev nD) (t : Fin cfg0.N) (a : Fin 5) (b : Fin 32) (d : Fin 128) :
    (iblk0 V c 1 t : Vec Ideal S5x32x128 .f32) (ix3 a b d) = V c main_arg4 (ix3 a b d) := by
  obtain ⟨-, -, -, -, f0, f1, f2, -⟩ := blockIndex t
  unfold iblk0
  rw [View.read_apply]
  show V c main_arg4 _ = V c main_arg4 _
  congr 1
  funext ax; apply Fin.ext
  match ax with
  | ⟨0, _⟩ => show win0_1.index t (0 : Fin 3) * 5 + 1 * a.val = a.val; rw [f0]; omega
  | ⟨1, _⟩ => show win0_1.index t (1 : Fin 3) * 32 + 1 * b.val = b.val; rw [f1]; omega
  | ⟨2, _⟩ => show win0_1.index t (2 : Fin 3) * 128 + 1 * d.val = d.val; rw [f2]; omega

theorem blk2_apply (c : Dev nD) (t : Fin cfg0.N) (a : Fin 20) (b : Fin 128) :
    (iblk0 V c 2 t : Vec Ideal S20x128 .f32) (ix2 a b) = V c main_arg5 (ix2 a b) := by
  obtain ⟨-, -, -, -, -, -, -, f0, f1, -⟩ := blockIndex t
  unfold iblk0
  rw [View.read_apply]
  show V c main_arg5 _ = V c main_arg5 _
  congr 1
  funext ax; apply Fin.ext
  match ax with
  | ⟨0, _⟩ => show win0_2.index t (0 : Fin 2) * 20 + 1 * a.val = a.val; rw [f0]; omega
  | ⟨1, _⟩ => show win0_2.index t (1 : Fin 2) * 128 + 1 * b.val = b.val; rw [f1]; omega

theorem blk3_apply (c : Dev nD) (t : Fin cfg0.N) (a : Fin 1) (b : Fin 128) :
    (iblk0 V c 3 t : Vec Ideal S1x128 .f32) (ix2 a b) = V c main_v3 (ix2 a b) := by
  obtain ⟨-, -, -, -, -, -, -, -, -, f0, f1, -⟩ := blockIndex t
  unfold iblk0
  rw [View.read_apply]
  show V c main_v3 _ = V c main_v3 _
  congr 1
  funext ax; apply Fin.ext
  match ax with
  | ⟨0, _⟩ => show win0_3.index t (0 : Fin 2) * 1 + 1 * a.val = a.val; rw [f0]; omega
  | ⟨1, _⟩ => show win0_3.index t (1 : Fin 2) * 128 + 1 * b.val = b.val; rw [f1]; omega

theorem blk4_apply (c : Dev nD) (t : Fin cfg0.N) (a : Fin 256) (b : Fin 256) :
    (iblk0 V c 4 t : Vec Ideal S256x256 .f32) (ix2 a b) = V c main_arg7 (ix2 a b) := by
  obtain ⟨-, -, -, -, -, -, -, -, -, -, -, f0, f1, -⟩ := blockIndex t
  unfold iblk0
  rw [View.read_apply]
  show V c main_arg7 _ = V c main_arg7 _
  congr 1
  funext ax; apply Fin.ext
  match ax with
  | ⟨0, _⟩ => show win0_4.index t (0 : Fin 2) * 256 + 1 * a.val = a.val; rw [f0]; omega
  | ⟨1, _⟩ => show win0_4.index t (1 : Fin 2) * 256 + 1 * b.val = b.val; rw [f1]; omega

theorem blk5_apply (c : Dev nD) (t : Fin cfg0.N) (a : Fin 1) (b : Fin 256) :
    (iblk0 V c 5 t : Vec Ideal S1x256 .f32) (ix2 a b) = V c main_v4 (ix2 a b) := by
  obtain ⟨-, -, -, -, -, -, -, -, -, -, -, -, -, f0, f1, -⟩ := blockIndex t
  unfold iblk0
  rw [View.read_apply]
  show V c main_v4 _ = V c main_v4 _
  congr 1
  funext ax; apply Fin.ext
  match ax with
  | ⟨0, _⟩ => show win0_5.index t (0 : Fin 2) * 1 + 1 * a.val = a.val; rw [f0]; omega
  | ⟨1, _⟩ => show win0_5.index t (1 : Fin 2) * 256 + 1 * b.val = b.val; rw [f1]; omega

theorem blk6_apply (c : Dev nD) (t : Fin cfg0.N) (a : Fin 1) (b : Fin 20) :
    (iblk0 V c 6 t : Vec Ideal S1x20 .f32) (ix2 a b) = V c main_v5 (ix2 a b) := by
  obtain ⟨-, -, -, -, -, -, -, -, -, -, -, -, -, -, -, f0, f1⟩ := blockIndex t
  unfold iblk0
  rw [View.read_apply]
  show V c main_v5 _ = V c main_v5 _
  congr 1
  funext ax; apply Fin.ext
  match ax with
  | ⟨0, _⟩ => show win0_6.index t (0 : Fin 2) * 1 + 1 * a.val = a.val; rw [f0]; omega
  | ⟨1, _⟩ => show win0_6.index t (1 : Fin 2) * 20 + 1 * b.val = b.val; rw [f1]; omega

/-- What point t writes back is block t of the array function: the body's block read at (r, c) is the textbook
    formula of the blocks' entries, and each block entry is the array entry the output's rectangle points at. -/
theorem writeBack_eq (c : Dev nD) (t : Fin cfg0.N) :
    (dat0 (F := Ideal) V c).flushed 7 t = ((cfg0.win 7).blk t).view.read (Elt Ideal) (atomArr V c) := by
  show (cfg0.win 7).cut (grid0.coords t) ((dat0 V c).after 7 t) = _
  rw [after0_7]
  unfold out0_7
  rw [View.canon_unit_zero zeroOff2]
  simp only [View.ld_unit_zero (S := S8000x12) zeroOff2, View.ld_unit_zero (S := S5x32x128) zeroOff3, View.ld_unit_zero (S := S20x128) zeroOff2,
    View.ld_unit_zero (S := S1x128) zeroOff2, View.ld_unit_zero (S := S256x256) zeroOff2, View.ld_unit_zero (S := S1x256) zeroOff2,
    View.ld_unit_zero (S := S1x20) zeroOff2]
  obtain ⟨f70, f71, -⟩ := blockIndex t
  have hN : cfg0.N = 25 := N_0
  have ht := t.isLt
  funext j
  have hj0 : (j 0).val < 8000 := (j 0).isLt
  have hj1 : (j 1).val < 256 := (j 1).isLt
  have hb : win0_7.index t (0 : Fin 2) * 8000 + (j 0).val < 200000 := by rw [f70]; omega
  have he : ((cfg0.win 7).blk t).view.emb j
      = ix2 (⟨win0_7.index t (0 : Fin 2) * 8000 + (j 0).val, hb⟩ : Fin 200000) (⟨(j 1).val, hj1⟩ : Fin 256) := by
    funext a; apply Fin.ext
    match a with
    | ⟨0, _⟩ => show win0_7.index t (0 : Fin 2) * 8000 + 1 * (j 0).val = win0_7.index t (0 : Fin 2) * 8000 + (j 0).val; omega
    | ⟨1, _⟩ => show win0_7.index t (1 : Fin 2) * 256 + 1 * (j 1).val = (j 1).val; rw [f71]; omega
  -- the index with both coordinates at their literal types
  have hjeq : j = ix2 (⟨(j 0).val, hj0⟩ : Fin 8000) (⟨(j 1).val, hj1⟩ : Fin 256) := by
    funext a
    match a with
    | ⟨0, _⟩ => rfl
    | ⟨1, _⟩ => rfl
  show bodyFn (iblk0 V c 0 t) (iblk0 V c 1 t) (iblk0 V c 2 t) (iblk0 V c 3 t) (iblk0 V c 4 t) (iblk0 V c 5 t) (iblk0 V c 6 t) j
      = atomArr V c (((cfg0.win 7).blk t).view.emb j)
  rw [he]
  refine (congrArg (bodyFn (iblk0 V c 0 t) (iblk0 V c 1 t) (iblk0 V c 2 t) (iblk0 V c 3 t) (iblk0 V c 4 t) (iblk0 V c 5 t) (iblk0 V c 6 t))
    hjeq).trans ?_
  refine (body_apply (iblk0 V c 0 t) (iblk0 V c 1 t) (iblk0 V c 2 t) (iblk0 V c 3 t) (iblk0 V c 4 t) (iblk0 V c 5 t) (iblk0 V c 6 t)
    (⟨(j 0).val, hj0⟩ : Fin 8000) (⟨(j 1).val, hj1⟩ : Fin 256)).trans ?_
  unfold atomArr Cert.Spec.atomOut Cert.Spec.atomHid hidBlk
  simp only [blk0_apply V c t (⟨(j 0).val, hj0⟩ : Fin 8000) _ ⟨win0_7.index t (0 : Fin 2) * 8000 + (j 0).val, hb⟩ rfl, blk1_apply,
    blk2_apply, blk3_apply, blk4_apply, blk5_apply, blk6_apply]
  all_goals rfl

/-- An index of the array is in point t's block iff each coordinate is in the block's range on its axis. -/
theorem mem_rowBlock (t : Fin cfg0.N) (i : S200000x256.Idx) :
    i ∈ ((cfg0.win 7).blk t).view.set ↔ ∀ a : Fin 2, win0_7.index t a * S8000x256.size a ≤ (i a).val
      ∧ (i a).val < win0_7.index t a * S8000x256.size a + S8000x256.size a := by
  show i ∈ ((View.whole main_v6).slice (win0_7.rect t)).set ↔ _
  rw [View.set_slice_whole, Rect.mem_set_unit]
  exact Iff.rfl

/-- The blocks tile the array: row r is in the block of point r / 8000. -/
theorem rows_tiled (i : S200000x256.Idx) :
    ∃ t : Fin cfg0.N, (cfg0.win 7).flush t = true ∧ i ∈ ((cfg0.win 7).blk t).view.set := by
  have hi0 : (i 0).val < 200000 := (i 0).isLt
  have hi1 : (i 1).val < 256 := (i 1).isLt
  have hN : cfg0.N = 25 := N_0
  have hq : (i 0).val / 8000 < cfg0.N := by rw [hN]; omega
  obtain ⟨f70, f71, -⟩ := blockIndex ⟨(i 0).val / 8000, hq⟩
  refine ⟨⟨(i 0).val / 8000, hq⟩, flush0_7 _, ?_⟩
  rw [mem_rowBlock]
  intro a
  match a with
  | ⟨0, _⟩ =>
    show win0_7.index ⟨(i 0).val / 8000, hq⟩ (0 : Fin 2) * 8000 ≤ (i 0).val
      ∧ (i 0).val < win0_7.index ⟨(i 0).val / 8000, hq⟩ (0 : Fin 2) * 8000 + 8000
    rw [f70]
    show (i 0).val / 8000 * 8000 ≤ (i 0).val ∧ (i 0).val < (i 0).val / 8000 * 8000 + 8000
    omega
  | ⟨1, _⟩ =>
    show win0_7.index ⟨(i 0).val / 8000, hq⟩ (1 : Fin 2) * 256 ≤ (i 1).val
      ∧ (i 1).val < win0_7.index ⟨(i 0).val / 8000, hq⟩ (1 : Fin 2) * 256 + 256
    rw [f71]
    omega

/-- The array after region 0 is the atom embedding of the region's operand arrays. -/
theorem final (c : Dev nD) :
    (dat0 (F := Ideal) V c).arrAt 7 cfg0.N
      = Cert.Spec.atomOut
          (fun n t p => Cert.Spec.clipRow 32 (by decide) (Ideal.fptosi 32 (V c main_v2 (ix2 n ⟨2 * t.val + p.val, by have := t.isLt; have := p.isLt; omega⟩))))
          (fun n p => V c main_v2 (ix2 n ⟨10 + p.val, by have := p.isLt; omega⟩))
          (fun t k e => V c main_arg4 (ix3 t k e))
          (fun k e => V c main_arg5 (ix2 k e))
          (fun e => V c main_v3 (ix2 0 e))
          (fun a b => V c main_arg7 (ix2 a b))
          (fun e => V c main_v4 (ix2 0 e))
          (fun k => V c main_v5 (ix2 0 k)) := by
  exact (dat0 (F := Ideal) V c).arrAt_eq_of_cover 7 (atomArr V c) (fun t _ => writeBack_eq V c t) rows_tiled

end Cert.KernelIdeal.Region0

end
-- ==== Proof.Region1.lean ====
/-
  Region 1, the integer distance-bucket embedding, as a value: whatever the buffers hold at entry, the output array
  after the 25 grid points is `Spec.bondOut` of the four operand arrays. The bucket is clipped into [0, 5] and
  the one-hot product with the [6, 128] table selects that row.
-/
import proofs.«405733_j12730283066009_3_alg».proof.Proof.Gen.KernelIdeal.Frame
import proofs.«405733_j12730283066009_3_alg».proof.Proof.Spec
import proofs.«405733_j12730283066009_3_alg».proof.Proof.LibBlockOps
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: a parameter
variable (V : (c : Dev nD) → (b : Ref sig .tc) → Buf (Elt Ideal) ((c : Thread nD τ).loc b))

/-- The signed clip of a word into [0, 5] is the word of the clipped row number. -/
theorem clip_word (i : BitVec 32) :
    IntOp.minsi 5#32 (IntOp.maxsi 0#32 i) = BitVec.ofNat 32 (Cert.Spec.clipRow 6 (by decide) i).val := by
  unfold IntOp.minsi IntOp.maxsi Cert.Spec.clipRow
  have h0 : (0#32 : BitVec 32).toInt = 0 := by decide
  have h5 : (5#32 : BitVec 32).toInt = 5 := by decide
  have hi := i.isLt
  have ht := BitVec.toInt_eq_toNat_cond i
  simp only [BitVec.slt, h0]
  by_cases hneg : i.toInt < 0
  · simp only [hneg, decide_true, if_true, h0, h5]
    have e : min (max i.toInt 0).toNat (6 - 1) = 0 := by omega
    simp only [e]
    decide
  · simp only [hneg, decide_false, if_false, h5, Bool.false_eq_true]
    by_cases hbig : 5 < i.toInt
    · simp only [hbig, decide_true, if_true]
      have e : min (max i.toInt 0).toNat (6 - 1) = 5 := by omega
      simp only [e]
    · simp only [hbig, decide_false, if_false, Bool.false_eq_true]
      apply BitVec.eq_of_toNat_eq
      rw [BitVec.toNat_ofNat]
      split at ht <;> omega

/-- Two row numbers below 6 have the same word iff they are equal. -/
theorem word_eq_iff (a b : Fin 6) : BitVec.ofNat 32 a.val = BitVec.ofNat 32 b.val ↔ a = b := by
  revert a b; decide

/-- A comparison bit widened to a word and read as a real is 1 or 0. -/
theorem onehot_entry (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  rw [toInt_setWidth_bit]
  unfold IntOp.cmpi
  by_cases h : x = y
  · simp [h]
  · simp [h]

/-- A sum against a one-hot row selects the entry: no finiteness is needed. -/
theorem sum_onehot (c : Fin 6) (f : Fin 6 → EReal) :
    ∑ k : Fin 6, (if c = k then (1 : EReal) else 0) * f k = f c := by
  rw [Finset.sum_eq_single c]
  · rw [if_pos rfl, one_mul]
  · intro b _ hb
    rw [if_neg (fun h => hb h.symm), zero_mul]
  · intro h; exact absurd (Finset.mem_univ c) h
/-- The distance row reshaped to a vector reads the row's entry. -/
theorem row_apply (x0 : Vec Ideal S1x16000 .f32) (r : Fin 16000) :
    shapeCast S16000 (shapeCast S1x16000 x0 shapeCasts_S1x16000_S1x16000) shapeCasts_S1x16000_S16000 (ix1 r)
      = x0 (ix2 0 r) := by
  rw [shapeCast_self]
  refine shapeCast_apply x0 _ (ix1 r) (ix2 0 r) ?_
  rw [Shape.rowMajor_val_two, Shape.rowMajor_val_one]
  show 0 * 16000 + r.val = r.val
  omega

/-- The clipped bucket column broadcast over six columns reads the row's clipped bucket. -/
theorem col_apply (v : IVec S16000 32) (r : Fin 16000) (k : Fin 6) :
    broadcastTo S16000x6 (shapeCast S16000x1 v shapeCasts_S16000_S16000x1) broadcasts_S16000x1_S16000x6 (ix2 r k)
      = v (ix1 r) := by
  refine (BlockOps.broadcastTo_a1_ab_apply _ _ r k).trans ?_
  refine shapeCast_apply v _ (ix2 r (0 : Fin 1)) (ix1 r) ?_
  rw [Shape.rowMajor_val_two, Shape.rowMajor_val_one]
  show r.val = r.val * 1 + 0
  omega

/-- The bias row broadcast down the rows reads the bias entry of the column. -/
theorem bias_apply (x3 : Vec Ideal S1x256 .f32) (r : Fin 16000) (e : Fin 256) :
    broadcastTo S16000x256 (shapeCast S1x256 x3 shapeCasts_S1x256_S1x256) broadcasts_S1x256_S16000x256 (ix2 r e)
      = x3 (ix2 0 e) := by
  rw [shapeCast_self]
  refine broadcastTo_apply x3 _ (ix2 r e) (ix2 0 e) fun a => ?_
  match a with
  | ⟨0, _⟩ => rfl
  | ⟨1, _⟩ => rfl

/-- The clipped bucket words of a block's distance row, as the body computes them. -/
def bucketWords (x0 : Vec Ideal S1x16000 .f32) : IVec S16000 32 :=
  minsi (broadcast S16000 5#32) (maxsi (broadcast S16000 0#32) (fptosi 32
    (minimumf (broadcast S16000 (Scalar.ofBits (F := Ideal) .f32 0x409FFFFE#32))
      (maximumf (broadcast S16000 (Scalar.ofBits (F := Ideal) .f32 0x3F800000#32))
        (shapeCast S16000 (shapeCast S1x16000 x0 shapeCasts_S1x16000_S1x16000) shapeCasts_S1x16000_S16000)))))

/-- Row r's clipped bucket word is the word of the clipped row number of the row's distance bucket. -/
theorem bucketWords_apply (x0 : Vec Ideal S1x16000 .f32) (r : Fin 16000) :
    bucketWords x0 (ix1 r) = BitVec.ofNat 32 (Cert.Spec.clipRow 6 (by decide) (Cert.Spec.bondIdx (x0 (ix2 0 r)))).val := by
  show IntOp.minsi 5#32 (IntOp.maxsi 0#32 (Cert.Spec.bondIdx
    (shapeCast S16000 (shapeCast S1x16000 x0 shapeCasts_S1x16000_S1x16000) shapeCasts_S1x16000_S16000 (ix1 r)))) = _
  rw [row_apply, clip_word]

/-- The one-hot block: 1 where the column is the row's clipped bucket, 0 elsewhere. -/
def onehot (x0 : Vec Ideal S1x16000 .f32) : FVec Ideal S16000x6 .f32 :=
  sitofp .f32 (extui 32 (cmpi .eq
    (broadcastTo S16000x6 (shapeCast S16000x1 (bucketWords x0) shapeCasts_S16000_S16000x1) broadcasts_S16000x1_S16000x6)
    (iota .tc S16000x6 32 [1] iota_S16000x6_d1_w32)) natLt_1_32)

theorem onehot_apply (x0 : Vec Ideal S1x16000 .f32) (r : Fin 16000) (k : Fin 6) :
    onehot x0 (ix2 r k)
      = if Cert.Spec.clipRow 6 (by decide) (Cert.Spec.bondIdx (x0 (ix2 0 r))) = k then (1 : EReal) else 0 := by
  show FloatOps.sitofp (F := Ideal) .f32 ((IntOp.cmpi .eq
    (broadcastTo S16000x6 (shapeCast S16000x1 (bucketWords x0) shapeCasts_S16000_S16000x1) broadcasts_S16000x1_S16000x6 (ix2 r k))
    (iota .tc S16000x6 32 [1] iota_S16000x6_d1_w32 (ix2 r k))).setWidth 32) = _
  rw [onehot_entry, col_apply, bucketWords_apply, iota_single_apply]
  exact if_congr (word_eq_iff _ k) rfl rfl

/-- The body's payload is the two products over the one-hot block, plus the bias row. -/
theorem pay_eq (x0 : Vec Ideal S1x16000 .f32) (x1 : Vec Ideal S6x128 .f32) (x2 : Vec Ideal S128x256 .f32) (x3 : Vec Ideal S1x256 .f32) :
    k1_pay1 (F := Ideal) x0 x1 x2 x3
      = addf (FloatOps.matmul (φ₁ := .f32) (φ₂ := .f32) (BlockOps.rowCol dot_S16000x128_S128x256_S16000x256_1_0_0_1_n_n_wf) (some .fp32)
            (FloatOps.matmul (φ₁ := .f32) (φ₂ := .f32) (BlockOps.rowCol dot_S16000x6_S6x128_S16000x128_1_0_0_1_n_n_wf) (some .fp32) (onehot x0) x1
              (constant (F := Ideal) S16000x128 .f32 0x00000000#32))
            x2 (constant (F := Ideal) S16000x256 .f32 0x00000000#32))
          (broadcastTo S16000x256 (shapeCast S1x256 x3 shapeCasts_S1x256_S1x256) broadcasts_S1x256_S16000x256) := rfl

/-- The payload at an entry: the clipped bucket's table row through the projection, plus the bias. -/
theorem pay_apply (x0 : Vec Ideal S1x16000 .f32) (x1 : Vec Ideal S6x128 .f32) (x2 : Vec Ideal S128x256 .f32) (x3 : Vec Ideal S1x256 .f32)
    (r : Fin 16000) (e : Fin 256) :
    k1_pay1 (F := Ideal) x0 x1 x2 x3 (ix2 r e)
      = (∑ a : Fin 128, x1 (ix2 (Cert.Spec.clipRow 6 (by decide) (Cert.Spec.bondIdx (x0 (ix2 0 r)))) a) * x2 (ix2 a e))
          + x3 (ix2 0 e) := by
  rw [pay_eq, addf_apply, bias_apply, BlockOps.matmul_zero_apply]
  refine congrArg (· + x3 (ix2 0 e)) (Finset.sum_congr rfl fun a _ => ?_)
  rw [BlockOps.matmul_zero_apply]
  refine congrArg (· * x2 (ix2 a e)) ?_
  refine (Finset.sum_congr rfl fun k _ => by rw [onehot_apply]).trans ?_
  exact sum_onehot _ (fun k => x1 (ix2 k a))

theorem hz : (![0, 0] : Fin 2 → Nat) = fun _ => 0 := funext fun a => by fin_cases a <;> rfl

/-- The four operand arrays as the region finds them, read as extended reals. -/
abbrev dist (c : Dev nD) : S1x400000.Idx → EReal := V c main_v7
abbrev tab (c : Dev nD) : S6x128.Idx → EReal := V c main_arg9
abbrev proj (c : Dev nD) : S128x256.Idx → EReal := V c main_arg10
abbrev bias (c : Dev nD) : S1x256.Idx → EReal := V c main_v8

/-- What the output array ends holding: the bucket embedding of the region's four operand arrays. -/
abbrev G (c : Dev nD) : S400000x256.Idx → EReal :=
  Cert.Spec.bondOut
    (fun n => Cert.Spec.clipRow 6 (by decide) (Cert.Spec.bondIdx (V c main_v7 (ix2 0 n))))
    (fun k e => V c main_arg9 (ix2 k e))
    (fun a b => V c main_arg10 (ix2 a b))
    (fun e => V c main_v8 (ix2 0 e))

/-- The printed index maps, decided over the grid: the distances' block moves along the columns with the output's
    row-block, the table, the projection and the bias are whole at every point, and point t writes row-block t. -/
theorem idx_facts : ∀ t : Fin cfg1.N,
    win1_0.index t (0 : Fin 2) = 0 ∧ win1_0.index t (1 : Fin 2) = win1_4.index t (0 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- An entry of the block point t leaves is the embedding at the entry's place in the array. -/
theorem block_entry (c : Dev nD) (t : Fin cfg1.N) (r : Fin 16000) (e : Fin 256) :
    k1_pay1 (F := Ideal) (iblk1 V c 0 t) (iblk1 V c 1 t) (iblk1 V c 2 t) (iblk1 V c 3 t) (ix2 r e)
      = G V c (((cfg1.win 4).blk t).view.emb (ix2 r e)) := by
  refine (pay_apply _ _ _ _ r e).trans ?_
  obtain ⟨f00, f01, f10, f11, f20, f21, f30, f31, f40, f41⟩ := idx_facts t
  show (∑ a : Fin 128,
        tab V c (((cfg1.win 1).blk t).view.emb (ix2 (Cert.Spec.clipRow 6 (by decide)
          (Cert.Spec.bondIdx (dist V c (((cfg1.win 0).blk t).view.emb (ix2 0 r))))) a))
          * proj V c (((cfg1.win 2).blk t).view.emb (ix2 a e)))
        + bias V c (((cfg1.win 3).blk t).view.emb (ix2 0 e))
      = (∑ a : Fin 128,
        tab V c (ix2 (Cert.Spec.clipRow 6 (by decide)
          (Cert.Spec.bondIdx (dist V c (ix2 0 ((((cfg1.win 4).blk t).view.emb (ix2 r e)) 0))))) a)
          * proj V c (ix2 a ((((cfg1.win 4).blk t).view.emb (ix2 r e)) 1)))
        + bias V c (ix2 0 ((((cfg1.win 4).blk t).view.emb (ix2 r e)) 1))
  have e0 : ((cfg1.win 0).blk t).view.emb (ix2 0 r) = ix2 0 ((((cfg1.win 4).blk t).view.emb (ix2 r e)) 0) := by
    funext a; apply Fin.ext
    match a with
    | ⟨0, _⟩ => show win1_0.index t (0 : Fin 2) * 1 + 1 * 0 = 0; omega
    | ⟨1, _⟩ => show win1_0.index t (1 : Fin 2) * 16000 + 1 * r.val = win1_4.index t (0 : Fin 2) * 16000 + 1 * r.val; omega
  have e1 : ∀ y : S6x128.Idx, ((cfg1.win 1).blk t).view.emb y = y := by
    intro y; funext a; apply Fin.ext
    match a with
    | ⟨0, _⟩ => show win1_1.index t (0 : Fin 2) * 6 + 1 * (y 0).val = (y 0).val; omega
    | ⟨1, _⟩ => show win1_1.index t (1 : Fin 2) * 128 + 1 * (y 1).val = (y 1).val; omega
  have e2 : ∀ a : Fin 128, ((cfg1.win 2).blk t).view.emb (ix2 a e) = ix2 a ((((cfg1.win 4).blk t).view.emb (ix2 r e)) 1) := by
    intro a'; funext a; apply Fin.ext
    match a with
    | ⟨0, _⟩ => show win1_2.index t (0 : Fin 2) * 128 + 1 * a'.val = a'.val; omega
    | ⟨1, _⟩ => show win1_2.index t (1 : Fin 2) * 256 + 1 * e.val = win1_4.index t (1 : Fin 2) * 256 + 1 * e.val; omega
  have e3 : ((cfg1.win 3).blk t).view.emb (ix2 0 e) = ix2 0 ((((cfg1.win 4).blk t).view.emb (ix2 r e)) 1) := by
    funext a; apply Fin.ext
    match a with
    | ⟨0, _⟩ => show win1_3.index t (0 : Fin 2) * 1 + 1 * 0 = 0; omega
    | ⟨1, _⟩ => show win1_3.index t (1 : Fin 2) * 256 + 1 * e.val = win1_4.index t (1 : Fin 2) * 256 + 1 * e.val; omega
  rw [e0, e3]
  simp only [e1, e2]
  rfl

/-- What point t writes back is block t of the embedding of the operand arrays as the region finds them. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  unfold out1_4
  rw [View.canon_unit_zero hz]
  simp only [View.ld_unit_zero (S := S1x16000) hz, View.ld_unit_zero (S := S6x128) hz,
    View.ld_unit_zero (S := S128x256) hz, View.ld_unit_zero (S := S1x256) hz]
  funext j
  obtain ⟨r, e, rfl⟩ : ∃ (r : Fin 16000) (e : Fin 256), j = ix2 r e := ⟨j 0, j 1, eq_ix2 j⟩
  exact block_entry V c t r e

/-- An index of the array is in point t's block iff each coordinate is in the block's range on its axis. -/
theorem mem_blk (t : Fin cfg1.N) (i : S400000x256.Idx) :
    i ∈ ((cfg1.win 4).blk t).view.set ↔ ∀ a : Fin 2, win1_4.index t a * S16000x256.size a ≤ (i a).val
      ∧ (i a).val < win1_4.index t a * S16000x256.size a + S16000x256.size a := by
  show i ∈ ((View.whole main_v9).slice (win1_4.rect t)).set ↔ _
  rw [View.set_slice_whole, Rect.mem_set_unit]
  exact Iff.rfl

/-- Every entry of the array is in the block of the point its row falls in: row n is written at point n / 16000. -/
theorem cover (i : S400000x256.Idx) :
    ∃ t : Fin cfg1.N, (cfg1.win 4).flush t = true ∧ i ∈ ((cfg1.win 4).blk t).view.set := by
  have hi0 : (i 0).val < 400000 := (i 0).isLt
  have hi1 : (i 1).val < 256 := (i 1).isLt
  obtain ⟨t, ht⟩ : ∃ t : Fin cfg1.N, t.val = (i 0).val / 16000 :=
    ⟨⟨(i 0).val / 16000, by rw [show cfg1.N = 25 from N_1]; omega⟩, rfl⟩
  refine ⟨t, flush1_4 t, ?_⟩
  rw [mem_blk]
  obtain ⟨-, -, -, -, -, -, -, -, f40, f41⟩ := idx_facts t
  intro a
  match a with
  | ⟨0, _⟩ =>
    show win1_4.index t (0 : Fin 2) * 16000 ≤ (i 0).val ∧ (i 0).val < win1_4.index t (0 : Fin 2) * 16000 + 16000
    omega
  | ⟨1, _⟩ =>
    show win1_4.index t (1 : Fin 2) * 256 ≤ (i 1).val ∧ (i 1).val < win1_4.index t (1 : Fin 2) * 256 + 256
    omega

/-- The array after region 1 is the bucket embedding of the region's operand arrays. -/
theorem final (c : Dev nD) :
    (dat1 (F := Ideal) V c).arrAt 4 cfg1.N
      = Cert.Spec.bondOut
          (fun n => Cert.Spec.clipRow 6 (by decide) (Cert.Spec.bondIdx (V c main_v7 (ix2 0 n))))
          (fun k e => V c main_arg9 (ix2 k e))
          (fun a b => V c main_arg10 (ix2 a b))
          (fun e => V c main_v8 (ix2 0 e)) :=
  (dat1 (F := Ideal) V c).arrAt_eq_of_cover 4 (G V c) (fun t _ => flushed_eq V c t) cover

end Cert.KernelIdeal.Region1

end
-- ==== Proof.Region2.lean ====
/-
  Region 2, the distance's radial embedding over fifty centres, as a value: whatever the buffers hold at entry, the
  output array after the 25 grid points is `Spec.rbfOut` of the four operand arrays.
-/
import proofs.«405733_j12730283066009_3_alg».proof.Proof.Gen.KernelIdeal.Frame
import proofs.«405733_j12730283066009_3_alg».proof.Proof.Spec
import proofs.«405733_j12730283066009_3_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at an entry of the block -/

/-- The offset pair (0, 0) is the zero offset. -/
theorem zeroOffsets : (![0, 0] : Fin 2 → Nat) = fun _ => 0 := funext fun a => by fin_cases a <;> rfl

/-- A row of 16000 scalars laid out as a column and repeated over 50 columns reads, at (r, k), the row's entry r:
    the cast [1,16000] → [16000] → [16000,1] keeps the row-major position, and the broadcast ignores the column. -/
theorem scalarColumn_apply {α : Type} (x : S1x16000.Idx → α) (h2 : S1x16000.ShapeCasts S16000)
    (h3 : S16000.ShapeCasts S16000x1) (h4 : S16000x1.Broadcasts S16000x50) (r : Fin 16000) (k : Fin 50) :
    broadcastTo S16000x50 (shapeCast S16000x1 (shapeCast S16000 x h2) h3) h4 (ix2 r k) = x (ix2 (0 : Fin 1) r) := by
  refine (BlockOps.broadcastTo_a1_ab_apply _ h4 r k).trans ?_
  refine (shapeCast_apply _ h3 _ (ix1 r) ?_).trans (shapeCast_1a_a_apply x h2 r)
  rw [Shape.rowMajor_val_one, Shape.rowMajor_val_two]
  show r.val = r.val * 1 + 0
  omega

/-- The radial feature from two equal pairs of operands. -/
theorem rbf_congr {a b x cen : EReal} (ha : a = x) (hb : b = cen) :
    Ideal.exp (Ideal.ofBits .f32 0xC1200000#32 * ((a - b) * (a - b))) = Cert.Spec.rbf x cen := by
  subst ha hb; rfl

/-- THE BODY AT AN ENTRY: from the row of scalars `x0`, the centres `x1`, the matrix `x2` and the bias `x3`, entry (r, e)
    of what the body stores is the sum over the centres k of `rbf (x0 r) (x1 k) * x2 k e`, plus `x3 e`. -/
theorem body_apply (x0 : Vec Ideal S1x16000 .f32) (x1 : Vec Ideal S1x50 .f32) (x2 : Vec Ideal S50x256 .f32)
    (x3 : Vec Ideal S1x256 .f32) (r : Fin 16000) (e : Fin 256) :
    k2_pay1 (F := Ideal) x0 x1 x2 x3 (ix2 r e)
      = (∑ k : Fin 50, Cert.Spec.rbf (x0 (ix2 (0 : Fin 1) r)) (x1 (ix2 (0 : Fin 1) k)) * x2 (ix2 k e)) + x3 (ix2 (0 : Fin 1) e) := by
  unfold k2_pay1
  refine (addf_apply _ _ _).trans ?_
  congr 1
  · refine (BlockOps.matmul_zero_apply dot_S16000x50_S50x256_S16000x256_1_0_0_1_n_n_wf (some .fp32) _ x2 r e).trans ?_
    refine Finset.sum_congr rfl fun k _ => ?_
    congr 1
    refine rbf_congr ?_ ?_
    · rw [shapeCast_self]
      exact scalarColumn_apply x0 _ _ _ r k
    · rw [shapeCast_self]
      exact broadcastTo_1b_ab_apply x1 _ r k
  · rw [shapeCast_self]
    exact broadcastTo_1b_ab_apply x3 _ r e

-- the TensorCore's buffer contents when the region is entered: a parameter
variable (V : (c : Dev nD) → (b : Ref sig .tc) → Buf (Elt Ideal) ((c : Thread nD τ).loc b))

/-! ## From the blocks to the array -/

/-- The radial embedding of the four operand arrays as the region finds them. -/
abbrev embedding (c : Dev nD) : S400000x256.Idx → EReal :=
  Cert.Spec.rbfOut (K := 50)
    (fun k => V c main_v11 (ix2 0 k))
    (fun n => V c main_v10 (ix2 0 n))
    (fun k e => V c main_arg12 (ix2 k e))
    (fun e => V c main_v12 (ix2 0 e))

/-- The printed index maps, decided over the grid: at point t the scalars' block is column block t of their row and the
    output's block is row block t; the centres, the matrix and the bias are whole at every point. -/
theorem index_facts : ∀ t : Fin cfg2.N,
    win2_0.index t (0 : Fin 2) = 0 ∧ win2_0.index t (1 : Fin 2) = t.val
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The scalars' block at point t, entry r, is the scalar of row 16000 t + r. -/
theorem scalars_block (c : Dev nD) (t : Fin cfg2.N) (r : Fin 16000) (n : Fin 400000) (hn : n.val = t.val * 16000 + r.val) :
    (iblk2 V c 0 t : Vec Ideal S1x16000 .f32) (ix2 (0 : Fin 1) r) = V c main_v10 (ix2 (0 : Fin 1) n) := by
  obtain ⟨e0, e1, -⟩ := index_facts t
  show V c main_v10 (((cfg2.win 0).blk t).view.emb (ix2 (0 : Fin 1) r)) = V c main_v10 (ix2 (0 : Fin 1) n)
  congr 1
  funext a; apply Fin.ext
  match a with
  | ⟨0, _⟩ => show win2_0.index t (0 : Fin 2) * 1 + 1 * 0 = 0; omega
  | ⟨1, _⟩ => show win2_0.index t (1 : Fin 2) * 16000 + 1 * r.val = n.val; omega

/-- The centres' block at any point is the centres. -/
theorem centres_block (c : Dev nD) (t : Fin cfg2.N) (k : Fin 50) :
    (iblk2 V c 1 t : Vec Ideal S1x50 .f32) (ix2 (0 : Fin 1) k) = V c main_v11 (ix2 (0 : Fin 1) k) := by
  obtain ⟨-, -, e0, e1, -⟩ := index_facts t
  show V c main_v11 (((cfg2.win 1).blk t).view.emb (ix2 (0 : Fin 1) k)) = V c main_v11 (ix2 (0 : Fin 1) k)
  congr 1
  funext a; apply Fin.ext
  match a with
  | ⟨0, _⟩ => show win2_1.index t (0 : Fin 2) * 1 + 1 * 0 = 0; omega
  | ⟨1, _⟩ => show win2_1.index t (1 : Fin 2) * 50 + 1 * k.val = k.val; omega

/-- The matrix's block at any point is the matrix. -/
theorem matrix_block (c : Dev nD) (t : Fin cfg2.N) (k : Fin 50) (e : Fin 256) :
    (iblk2 V c 2 t : Vec Ideal S50x256 .f32) (ix2 k e) = V c main_arg12 (ix2 k e) := by
  obtain ⟨-, -, -, -, e0, e1, -⟩ := index_facts t
  show V c main_arg12 (((cfg2.win 2).blk t).view.emb (ix2 k e)) = V c main_arg12 (ix2 k e)
  congr 1
  funext a; apply Fin.ext
  match a with
  | ⟨0, _⟩ => show win2_2.index t (0 : Fin 2) * 50 + 1 * k.val = k.val; omega
  | ⟨1, _⟩ => show win2_2.index t (1 : Fin 2) * 256 + 1 * e.val = e.val; omega

/-- The bias's block at any point is the bias. -/
theorem bias_block (c : Dev nD) (t : Fin cfg2.N) (e : Fin 256) :
    (iblk2 V c 3 t : Vec Ideal S1x256 .f32) (ix2 (0 : Fin 1) e) = V c main_v12 (ix2 (0 : Fin 1) e) := by
  obtain ⟨-, -, -, -, -, -, e0, e1, -⟩ := index_facts t
  show V c main_v12 (((cfg2.win 3).blk t).view.emb (ix2 (0 : Fin 1) e)) = V c main_v12 (ix2 (0 : Fin 1) e)
  congr 1
  funext a; apply Fin.ext
  match a with
  | ⟨0, _⟩ => show win2_3.index t (0 : Fin 2) * 1 + 1 * 0 = 0; omega
  | ⟨1, _⟩ => show win2_3.index t (1 : Fin 2) * 256 + 1 * e.val = e.val; omega

/-- WHAT POINT t WRITES BACK is row block t of the embedding of the operand arrays. -/
theorem flushed_eq (c : Dev nD) (t : Fin cfg2.N) :
    (dat2 (F := Ideal) V c).flushed 4 t = ((cfg2.win 4).blk t).view.read (Elt Ideal) (embedding V c) := by
  show (cfg2.win 4).cut (grid2.coords t) ((dat2 V c).after 4 t) = _
  rw [after2_4]
  unfold out2_4
  rw [View.canon_unit_zero zeroOffsets]
  simp only [View.ld_unit_zero (S := S1x16000) zeroOffsets, View.ld_unit_zero (S := S1x50) zeroOffsets,
    View.ld_unit_zero (S := S50x256) zeroOffsets, View.ld_unit_zero (S := S1x256) zeroOffsets]
  obtain ⟨-, -, -, -, -, -, -, -, e0, e1⟩ := index_facts t
  funext j
  obtain ⟨r, e, rfl⟩ : ∃ (r : Fin 16000) (e : Fin 256), j = ix2 r e := ⟨j 0, j 1, eq_ix2 j⟩
  show k2_pay1 (F := Ideal) (iblk2 V c 0 t) (iblk2 V c 1 t) (iblk2 V c 2 t) (iblk2 V c 3 t) (ix2 r e)
    = embedding V c (((cfg2.win 4).blk t).view.emb (ix2 r e))
  refine (body_apply (iblk2 V c 0 t) (iblk2 V c 1 t) (iblk2 V c 2 t) (iblk2 V c 3 t) r e).trans ?_
  have hrow : ((((cfg2.win 4).blk t).view.emb (ix2 r e)) 0).val = t.val * 16000 + r.val := by
    show win2_4.index t (0 : Fin 2) * 16000 + 1 * r.val = _
    omega
  have hcol : ((cfg2.win 4).blk t).view.emb (ix2 r e) 1 = e := by
    apply Fin.ext
    show win2_4.index t (1 : Fin 2) * 256 + 1 * e.val = e.val
    omega
  show _ = (∑ k : Fin 50, Cert.Spec.rbf (V c main_v10 (ix2 0 (((cfg2.win 4).blk t).view.emb (ix2 r e) 0))) (V c main_v11 (ix2 0 k))
      * V c main_arg12 (ix2 k (((cfg2.win 4).blk t).view.emb (ix2 r e) 1))) + V c main_v12 (ix2 0 (((cfg2.win 4).blk t).view.emb (ix2 r e) 1))
  rw [hcol, bias_block V c t e, scalars_block V c t r _ hrow]
  congr 1
  refine Finset.sum_congr rfl fun k _ => ?_
  rw [centres_block V c t k, matrix_block V c t k e]

/-- An index of the array is in point t's block iff each coordinate is in the block's range on its axis. -/
theorem mem_blk (t : Fin cfg2.N) (i : S400000x256.Idx) :
    i ∈ ((cfg2.win 4).blk t).view.set ↔ ∀ a : Fin 2, win2_4.index t a * S16000x256.size a ≤ (i a).val
      ∧ (i a).val < win2_4.index t a * S16000x256.size a + S16000x256.size a := by
  show i ∈ ((View.whole main_v13).slice (win2_4.rect t)).set ↔ _
  rw [View.set_slice_whole, Rect.mem_set_unit]
  exact Iff.rfl

/-- Every index of the array is in the block of the point its row falls in: row n is in row block n / 16000. -/
theorem covered (i : S400000x256.Idx) :
    ∃ t : Fin cfg2.N, (cfg2.win 4).flush t = true ∧ i ∈ ((cfg2.win 4).blk t).view.set := by
  have hi0 : (i 0).val < 400000 := (i 0).isLt
  have hi1 : (i 1).val < 256 := (i 1).isLt
  have hN : cfg2.N = 25 := N_2
  have ht : (i 0).val / 16000 < cfg2.N := by rw [hN]; omega
  obtain ⟨-, -, -, -, -, -, -, -, e0, e1⟩ := index_facts ⟨(i 0).val / 16000, ht⟩
  have e0' : win2_4.index ⟨(i 0).val / 16000, ht⟩ (0 : Fin 2) = (i 0).val / 16000 := e0
  refine ⟨⟨(i 0).val / 16000, ht⟩, flush2_4 _, ?_⟩
  rw [mem_blk]
  intro a
  match a with
  | ⟨0, _⟩ =>
    show win2_4.index ⟨(i 0).val / 16000, ht⟩ (0 : Fin 2) * 16000 ≤ (i 0).val
      ∧ (i 0).val < win2_4.index ⟨(i 0).val / 16000, ht⟩ (0 : Fin 2) * 16000 + 16000
    omega
  | ⟨1, _⟩ =>
    show win2_4.index ⟨(i 0).val / 16000, ht⟩ (1 : Fin 2) * 256 ≤ (i 1).val
      ∧ (i 1).val < win2_4.index ⟨(i 0).val / 16000, ht⟩ (1 : Fin 2) * 256 + 256
    omega

/-- The array after region 2 is the radial embedding of the region's operand arrays. -/
theorem final (c : Dev nD) :
    (dat2 (F := Ideal) V c).arrAt 4 cfg2.N
      = Cert.Spec.rbfOut (K := 50)
          (fun k => V c main_v11 (ix2 0 k))
          (fun n => V c main_v10 (ix2 0 n))
          (fun k e => V c main_arg12 (ix2 k e))
          (fun e => V c main_v12 (ix2 0 e)) :=
  (dat2 (F := Ideal) V c).arrAt_eq_of_cover 4 (embedding V c) (fun t _ => flushed_eq V c t) covered

end Cert.KernelIdeal.Region2

end
-- ==== Proof.Region3.lean ====
/-
  Region 3, the angle's radial embedding over thirty-two centres, as a value: whatever the buffers hold at entry,
  the output array after the 25 grid points is `Spec.rbfOut` of the four operand arrays.
-/
import proofs.«405733_j12730283066009_3_alg».proof.Proof.Gen.KernelIdeal.Frame
import proofs.«405733_j12730283066009_3_alg».proof.Proof.Spec
import proofs.«405733_j12730283066009_3_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at an entry of the block -/

/-- The offset pair (0, 0) is the zero offset. -/
theorem zeroOffsets : (![0, 0] : Fin 2 → Nat) = fun _ => 0 := funext fun a => by fin_cases a <;> rfl

/-- A row of 16000 scalars laid out as a column and repeated over 32 columns reads, at (r, k), the row's entry r:
    the cast [1,16000] → [16000] → [16000,1] keeps the row-major position, and the broadcast ignores the column. -/
theorem scalarColumn_apply {α : Type} (x : S1x16000.Idx → α) (h2 : S1x16000.ShapeCasts S16000)
    (h3 : S16000.ShapeCasts S16000x1) (h4 : S16000x1.Broadcasts S16000x32) (r : Fin 16000) (k : Fin 32) :
    broadcastTo S16000x32 (shapeCast S16000x1 (shapeCast S16000 x h2) h3) h4 (ix2 r k) = x (ix2 (0 : Fin 1) r) := by
  refine (BlockOps.broadcastTo_a1_ab_apply _ h4 r k).trans ?_
  refine (shapeCast_apply _ h3 _ (ix1 r) ?_).trans (shapeCast_1a_a_apply x h2 r)
  rw [Shape.rowMajor_val_one, Shape.rowMajor_val_two]
  show r.val = r.val * 1 + 0
  omega

/-- The radial feature from two equal pairs of operands. -/
theorem rbf_congr {a b x cen : EReal} (ha : a = x) (hb : b = cen) :
    Ideal.exp (Ideal.ofBits .f32 0xC1200000#32 * ((a - b) * (a - b))) = Cert.Spec.rbf x cen := by
  subst ha hb; rfl

/-- THE BODY AT AN ENTRY: from the row of scalars `x0`, the centres `x1`, the matrix `x2` and the bias `x3`, entry (r, e)
    of what the body stores is the sum over the centres k of `rbf (x0 r) (x1 k) * x2 k e`, plus `x3 e`. -/
theorem body_apply (x0 : Vec Ideal S1x16000 .f32) (x1 : Vec Ideal S1x32 .f32) (x2 : Vec Ideal S32x256 .f32)
    (x3 : Vec Ideal S1x256 .f32) (r : Fin 16000) (e : Fin 256) :
    k3_pay1 (F := Ideal) x0 x1 x2 x3 (ix2 r e)
      = (∑ k : Fin 32, Cert.Spec.rbf (x0 (ix2 (0 : Fin 1) r)) (x1 (ix2 (0 : Fin 1) k)) * x2 (ix2 k e)) + x3 (ix2 (0 : Fin 1) e) := by
  unfold k3_pay1
  refine (addf_apply _ _ _).trans ?_
  congr 1
  · refine (BlockOps.matmul_zero_apply dot_S16000x32_S32x256_S16000x256_1_0_0_1_n_n_wf (some .fp32) _ x2 r e).trans ?_
    refine Finset.sum_congr rfl fun k _ => ?_
    congr 1
    refine rbf_congr ?_ ?_
    · rw [shapeCast_self]
      exact scalarColumn_apply x0 _ _ _ r k
    · rw [shapeCast_self]
      exact broadcastTo_1b_ab_apply x1 _ r k
  · rw [shapeCast_self]
    exact broadcastTo_1b_ab_apply x3 _ r e

-- the TensorCore's buffer contents when the region is entered: a parameter
variable (V : (c : Dev nD) → (b : Ref sig .tc) → Buf (Elt Ideal) ((c : Thread nD τ).loc b))

/-! ## From the blocks to the array -/

/-- The radial embedding of the four operand arrays as the region finds them. -/
abbrev embedding (c : Dev nD) : S400000x256.Idx → EReal :=
  Cert.Spec.rbfOut (K := 32)
    (fun k => V c main_v15 (ix2 0 k))
    (fun n => V c main_v14 (ix2 0 n))
    (fun k e => V c main_arg14 (ix2 k e))
    (fun e => V c main_v16 (ix2 0 e))

/-- The printed index maps, decided over the grid: at point t the scalars' block is column block t of their row and the
    output's block is row block t; the centres, the matrix and the bias are whole at every point. -/
theorem index_facts : ∀ t : Fin cfg3.N,
    win3_0.index t (0 : Fin 2) = 0 ∧ win3_0.index t (1 : Fin 2) = t.val
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The scalars' block at point t, entry r, is the scalar of row 16000 t + r. -/
theorem scalars_block (c : Dev nD) (t : Fin cfg3.N) (r : Fin 16000) (n : Fin 400000) (hn : n.val = t.val * 16000 + r.val) :
    (iblk3 V c 0 t : Vec Ideal S1x16000 .f32) (ix2 (0 : Fin 1) r) = V c main_v14 (ix2 (0 : Fin 1) n) := by
  obtain ⟨e0, e1, -⟩ := index_facts t
  show V c main_v14 (((cfg3.win 0).blk t).view.emb (ix2 (0 : Fin 1) r)) = V c main_v14 (ix2 (0 : Fin 1) n)
  congr 1
  funext a; apply Fin.ext
  match a with
  | ⟨0, _⟩ => show win3_0.index t (0 : Fin 2) * 1 + 1 * 0 = 0; omega
  | ⟨1, _⟩ => show win3_0.index t (1 : Fin 2) * 16000 + 1 * r.val = n.val; omega

/-- The centres' block at any point is the centres. -/
theorem centres_block (c : Dev nD) (t : Fin cfg3.N) (k : Fin 32) :
    (iblk3 V c 1 t : Vec Ideal S1x32 .f32) (ix2 (0 : Fin 1) k) = V c main_v15 (ix2 (0 : Fin 1) k) := by
  obtain ⟨-, -, e0, e1, -⟩ := index_facts t
  show V c main_v15 (((cfg3.win 1).blk t).view.emb (ix2 (0 : Fin 1) k)) = V c main_v15 (ix2 (0 : Fin 1) k)
  congr 1
  funext a; apply Fin.ext
  match a with
  | ⟨0, _⟩ => show win3_1.index t (0 : Fin 2) * 1 + 1 * 0 = 0; omega
  | ⟨1, _⟩ => show win3_1.index t (1 : Fin 2) * 32 + 1 * k.val = k.val; omega

/-- The matrix's block at any point is the matrix. -/
theorem matrix_block (c : Dev nD) (t : Fin cfg3.N) (k : Fin 32) (e : Fin 256) :
    (iblk3 V c 2 t : Vec Ideal S32x256 .f32) (ix2 k e) = V c main_arg14 (ix2 k e) := by
  obtain ⟨-, -, -, -, e0, e1, -⟩ := index_facts t
  show V c main_arg14 (((cfg3.win 2).blk t).view.emb (ix2 k e)) = V c main_arg14 (ix2 k e)
  congr 1
  funext a; apply Fin.ext
  match a with
  | ⟨0, _⟩ => show win3_2.index t (0 : Fin 2) * 32 + 1 * k.val = k.val; omega
  | ⟨1, _⟩ => show win3_2.index t (1 : Fin 2) * 256 + 1 * e.val = e.val; omega

/-- The bias's block at any point is the bias. -/
theorem bias_block (c : Dev nD) (t : Fin cfg3.N) (e : Fin 256) :
    (iblk3 V c 3 t : Vec Ideal S1x256 .f32) (ix2 (0 : Fin 1) e) = V c main_v16 (ix2 (0 : Fin 1) e) := by
  obtain ⟨-, -, -, -, -, -, e0, e1, -⟩ := index_facts t
  show V c main_v16 (((cfg3.win 3).blk t).view.emb (ix2 (0 : Fin 1) e)) = V c main_v16 (ix2 (0 : Fin 1) e)
  congr 1
  funext a; apply Fin.ext
  match a with
  | ⟨0, _⟩ => show win3_3.index t (0 : Fin 2) * 1 + 1 * 0 = 0; omega
  | ⟨1, _⟩ => show win3_3.index t (1 : Fin 2) * 256 + 1 * e.val = e.val; omega

/-- WHAT POINT t WRITES BACK is row block t of the embedding of the operand arrays. -/
theorem flushed_eq (c : Dev nD) (t : Fin cfg3.N) :
    (dat3 (F := Ideal) V c).flushed 4 t = ((cfg3.win 4).blk t).view.read (Elt Ideal) (embedding V c) := by
  show (cfg3.win 4).cut (grid3.coords t) ((dat3 V c).after 4 t) = _
  rw [after3_4]
  unfold out3_4
  rw [View.canon_unit_zero zeroOffsets]
  simp only [View.ld_unit_zero (S := S1x16000) zeroOffsets, View.ld_unit_zero (S := S1x32) zeroOffsets,
    View.ld_unit_zero (S := S32x256) zeroOffsets, View.ld_unit_zero (S := S1x256) zeroOffsets]
  obtain ⟨-, -, -, -, -, -, -, -, e0, e1⟩ := index_facts t
  funext j
  obtain ⟨r, e, rfl⟩ : ∃ (r : Fin 16000) (e : Fin 256), j = ix2 r e := ⟨j 0, j 1, eq_ix2 j⟩
  show k3_pay1 (F := Ideal) (iblk3 V c 0 t) (iblk3 V c 1 t) (iblk3 V c 2 t) (iblk3 V c 3 t) (ix2 r e)
    = embedding V c (((cfg3.win 4).blk t).view.emb (ix2 r e))
  refine (body_apply (iblk3 V c 0 t) (iblk3 V c 1 t) (iblk3 V c 2 t) (iblk3 V c 3 t) r e).trans ?_
  have hrow : ((((cfg3.win 4).blk t).view.emb (ix2 r e)) 0).val = t.val * 16000 + r.val := by
    show win3_4.index t (0 : Fin 2) * 16000 + 1 * r.val = _
    omega
  have hcol : ((cfg3.win 4).blk t).view.emb (ix2 r e) 1 = e := by
    apply Fin.ext
    show win3_4.index t (1 : Fin 2) * 256 + 1 * e.val = e.val
    omega
  show _ = (∑ k : Fin 32, Cert.Spec.rbf (V c main_v14 (ix2 0 (((cfg3.win 4).blk t).view.emb (ix2 r e) 0))) (V c main_v15 (ix2 0 k))
      * V c main_arg14 (ix2 k (((cfg3.win 4).blk t).view.emb (ix2 r e) 1))) + V c main_v16 (ix2 0 (((cfg3.win 4).blk t).view.emb (ix2 r e) 1))
  rw [hcol, bias_block V c t e, scalars_block V c t r _ hrow]
  congr 1
  refine Finset.sum_congr rfl fun k _ => ?_
  rw [centres_block V c t k, matrix_block V c t k e]

/-- An index of the array is in point t's block iff each coordinate is in the block's range on its axis. -/
theorem mem_blk (t : Fin cfg3.N) (i : S400000x256.Idx) :
    i ∈ ((cfg3.win 4).blk t).view.set ↔ ∀ a : Fin 2, win3_4.index t a * S16000x256.size a ≤ (i a).val
      ∧ (i a).val < win3_4.index t a * S16000x256.size a + S16000x256.size a := by
  show i ∈ ((View.whole main_v17).slice (win3_4.rect t)).set ↔ _
  rw [View.set_slice_whole, Rect.mem_set_unit]
  exact Iff.rfl

/-- Every index of the array is in the block of the point its row falls in: row n is in row block n / 16000. -/
theorem covered (i : S400000x256.Idx) :
    ∃ t : Fin cfg3.N, (cfg3.win 4).flush t = true ∧ i ∈ ((cfg3.win 4).blk t).view.set := by
  have hi0 : (i 0).val < 400000 := (i 0).isLt
  have hi1 : (i 1).val < 256 := (i 1).isLt
  have hN : cfg3.N = 25 := N_3
  have ht : (i 0).val / 16000 < cfg3.N := by rw [hN]; omega
  obtain ⟨-, -, -, -, -, -, -, -, e0, e1⟩ := index_facts ⟨(i 0).val / 16000, ht⟩
  have e0' : win3_4.index ⟨(i 0).val / 16000, ht⟩ (0 : Fin 2) = (i 0).val / 16000 := e0
  refine ⟨⟨(i 0).val / 16000, ht⟩, flush3_4 _, ?_⟩
  rw [mem_blk]
  intro a
  match a with
  | ⟨0, _⟩ =>
    show win3_4.index ⟨(i 0).val / 16000, ht⟩ (0 : Fin 2) * 16000 ≤ (i 0).val
      ∧ (i 0).val < win3_4.index ⟨(i 0).val / 16000, ht⟩ (0 : Fin 2) * 16000 + 16000
    omega
  | ⟨1, _⟩ =>
    show win3_4.index ⟨(i 0).val / 16000, ht⟩ (1 : Fin 2) * 256 ≤ (i 1).val
      ∧ (i 1).val < win3_4.index ⟨(i 0).val / 16000, ht⟩ (1 : Fin 2) * 256 + 256
    omega

/-- The array after region 3 is the radial embedding of the region's operand arrays. -/
theorem final (c : Dev nD) :
    (dat3 (F := Ideal) V c).arrAt 4 cfg3.N
      = Cert.Spec.rbfOut (K := 32)
          (fun k => V c main_v15 (ix2 0 k))
          (fun n => V c main_v14 (ix2 0 n))
          (fun k e => V c main_arg14 (ix2 k e))
          (fun e => V c main_v16 (ix2 0 e)) :=
  (dat3 (F := Ideal) V c).arrAt_eq_of_cover 4 (embedding V c) (fun t _ => flushed_eq V c t) covered

end Cert.KernelIdeal.Region3

end
-- ==== Proof.SpecCongr.lean ====
/-
  The four result functions depend on their accessors only through their values: equal accessors, equal results.
-/
import proofs.«405733_j12730283066009_3_alg».proof.Proof.Spec

noncomputable section

namespace Cert.Spec

theorem rbfOut_congr {K : Nat} {cen cen' : Fin K → EReal} {x x' : Fin 400000 → EReal} {W W' : Fin K → Fin 256 → EReal}
    {b b' : Fin 256 → EReal} (h1 : ∀ k, cen k = cen' k) (h2 : ∀ n, x n = x' n) (h3 : ∀ k e, W k e = W' k e) (h4 : ∀ e, b e = b' e) :
    rbfOut cen x W b = rbfOut cen' x' W' b' := by
  obtain rfl : cen = cen' := funext h1
  obtain rfl : x = x' := funext h2
  obtain rfl : W = W' := funext fun k => funext (h3 k)
  obtain rfl : b = b' := funext h4
  rfl

theorem bondOut_congr {row row' : Fin 400000 → Fin 6} {tab tab' : Fin 6 → Fin 128 → EReal} {W W' : Fin 128 → Fin 256 → EReal}
    {b b' : Fin 256 → EReal} (h1 : ∀ n, row n = row' n) (h2 : ∀ k e, tab k e = tab' k e) (h3 : ∀ a c, W a c = W' a c)
    (h4 : ∀ e, b e = b' e) : bondOut row tab W b = bondOut row' tab' W' b' := by
  obtain rfl : row = row' := funext h1
  obtain rfl : tab = tab' := funext fun k => funext (h2 k)
  obtain rfl : W = W' := funext fun k => funext (h3 k)
  obtain rfl : b = b' := funext h4
  rfl

theorem atomOut_congr {row row' : Fin 200000 → Fin 5 → Fin 2 → Fin 32} {q q' : Fin 200000 → Fin 2 → EReal}
    {tables tables' : Fin 5 → Fin 32 → Fin 128 → EReal} {cW cW' : Fin 20 → Fin 128 → EReal} {cb cb' : Fin 128 → EReal}
    {pW pW' : Fin 256 → Fin 256 → EReal} {pb pb' : Fin 256 → EReal} {cen cen' : Fin 20 → EReal}
    (h1 : ∀ n t p, row n t p = row' n t p) (h2 : ∀ n p, q n p = q' n p) (h3 : ∀ t k e, tables t k e = tables' t k e)
    (h4 : ∀ k e, cW k e = cW' k e) (h5 : ∀ e, cb e = cb' e) (h6 : ∀ a c, pW a c = pW' a c) (h7 : ∀ e, pb e = pb' e)
    (h8 : ∀ k, cen k = cen' k) :
    atomOut row q tables cW cb pW pb cen = atomOut row' q' tables' cW' cb' pW' pb' cen' := by
  obtain rfl : row = row' := funext fun n => funext fun t => funext (h1 n t)
  obtain rfl : q = q' := funext fun n => funext (h2 n)
  obtain rfl : tables = tables' := funext fun t => funext fun k => funext (h3 t k)
  obtain rfl : cW = cW' := funext fun k => funext (h4 k)
  obtain rfl : cb = cb' := funext h5
  obtain rfl : pW = pW' := funext fun k => funext (h6 k)
  obtain rfl : pb = pb' := funext h7
  obtain rfl : cen = cen' := funext h8
  rfl

end Cert.Spec

end
-- ==== Proof.KernelValue.lean ====
/-
  The kernel program's four results, each as its function of the launch memory's argument arrays: the last boundary's
  contents at a result buffer are what its region left; that is the region's value function of the region's operand
  arrays at its entry; and those are the argument arrays read through the host operations before the region. For
  the atom embedding the categorical ids must lie in [0, 31]: a float column of the slab truncated back is then the
  id itself, and clipping it selects the row that wrapping selects. For the bucket embedding nothing is asked: the
  bucket of any distance lies in [1, 4].
-/
import proofs.«405733_j12730283066009_3_alg».proof.Proof.KernelEntry
import proofs.«405733_j12730283066009_3_alg».proof.Proof.KernelEntryB
import proofs.«405733_j12730283066009_3_alg».proof.Proof.Region0
import proofs.«405733_j12730283066009_3_alg».proof.Proof.Region1
import proofs.«405733_j12730283066009_3_alg».proof.Proof.Region2
import proofs.«405733_j12730283066009_3_alg».proof.Proof.Region3
import proofs.«405733_j12730283066009_3_alg».proof.Proof.SpecCongr

set_option maxRecDepth 16384

noncomputable section

namespace Cert.KernelIdeal.Results

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The atom embedding, where every categorical id lies in [0, 31]. -/
theorem atom (c : Dev nD)
    (hr : ∀ i, 0 ≤ (m ((c : Thread nD τ).loc main_arg0) i : BitVec 32).toInt ∧ (m ((c : Thread nD τ).loc main_arg0) i : BitVec 32).toInt < 32) :
    W8 m ρ c (Proc.devRef .tc main_v6)
      = Cert.Spec.atomOut
          (fun n t p => Cert.Spec.wrapRow 32 (by decide) (m ((c : Thread nD τ).loc main_arg0) (ix3 n t p)))
          (fun n p => m ((c : Thread nD τ).loc main_arg1) (ix2 n p))
          (fun t k e => m ((c : Thread nD τ).loc main_arg4) (ix3 t k e))
          (fun k e => m ((c : Thread nD τ).loc main_arg5) (ix2 k e))
          (fun e => m ((c : Thread nD τ).loc main_arg6) (ix1 e))
          (fun a b => m ((c : Thread nD τ).loc main_arg7) (ix2 a b))
          (fun e => m ((c : Thread nD τ).loc main_arg8) (ix1 e))
          (fun k => Ideal.ofBits .f32 (lit0 k)) := by
  rw [Entry.out0 m ρ c, Region0.final (V1 m ρ) c]
  refine Cert.Spec.atomOut_congr (fun n t p => ?_) (fun n p => Entry.e0_q m ρ c n p)
    (fun t k e => congrFun (Entry.e0_tables m ρ c) _) (fun k e => congrFun (Entry.e0_cW m ρ c) _)
    (fun e => Entry.e0_cb m ρ c e) (fun a b => congrFun (Entry.e0_pW m ρ c) _) (fun e => Entry.e0_pb m ρ c e)
    (fun k => Entry.e0_cen m ρ c k)
  refine (congrArg (fun x => Cert.Spec.clipRow 32 (by decide) (Ideal.fptosi 32 x)) (Entry.e0_cat m ρ c n t p)).trans ?_
  refine (congrArg (fun i => Cert.Spec.clipRow 32 (by decide) i) (Cert.Spec.fptosi_sitofp _)).trans ?_
  exact (Cert.Spec.wrapRow_eq_clipRow 32 (by decide) (by decide) _ (hr _).1 (hr _).2).symm

/-- The integer distance-bucket embedding. -/
theorem bond (c : Dev nD) :
    W8 m ρ c (Proc.devRef .tc main_v9)
      = Cert.Spec.bondOut
          (fun n => Cert.Spec.wrapRow 6 (by decide) (Cert.Spec.bondIdx (m ((c : Thread nD τ).loc main_arg2) (ix1 n))))
          (fun k e => m ((c : Thread nD τ).loc main_arg9) (ix2 k e))
          (fun a b => m ((c : Thread nD τ).loc main_arg10) (ix2 a b))
          (fun e => m ((c : Thread nD τ).loc main_arg11) (ix1 e)) := by
  rw [Entry.out1 m ρ c, Region1.final (V3 m ρ) c]
  refine Cert.Spec.bondOut_congr (fun n => ?_) (fun k e => congrFun (EntryB.e1_tab m ρ c) _)
    (fun a b => congrFun (EntryB.e1_W m ρ c) _) (fun e => EntryB.e1_b m ρ c e)
  refine (congrArg (fun x => Cert.Spec.clipRow 6 (by decide) (Cert.Spec.bondIdx x)) (EntryB.e1_x m ρ c n)).trans ?_
  have hb := Cert.Spec.bondIdx_range (m ((c : Thread nD τ).loc main_arg2) (ix1 n))
  exact (Cert.Spec.wrapRow_eq_clipRow 6 (by decide) (by decide) _ (by omega) (by omega)).symm

/-- The distance's radial embedding over fifty centres. -/
theorem bondF (c : Dev nD) :
    W8 m ρ c (Proc.devRef .tc main_v13)
      = Cert.Spec.rbfOut (K := 50) (fun k => Ideal.ofBits .f32 (lit1 k)) (fun n => m ((c : Thread nD τ).loc main_arg2) (ix1 n))
          (fun k e => m ((c : Thread nD τ).loc main_arg12) (ix2 k e)) (fun e => m ((c : Thread nD τ).loc main_arg13) (ix1 e)) := by
  rw [Entry.out2 m ρ c, Region2.final (V5 m ρ) c]
  exact Cert.Spec.rbfOut_congr (fun k => EntryB.e2_cen m ρ c k) (fun n => EntryB.e2_x m ρ c n)
    (fun k e => congrFun (EntryB.e2_W m ρ c) _) (fun e => EntryB.e2_b m ρ c e)

/-- The angle's radial embedding over thirty-two centres. -/
theorem angle (c : Dev nD) :
    W8 m ρ c (Proc.devRef .tc main_v17)
      = Cert.Spec.rbfOut (K := 32) (fun k => Ideal.ofBits .f32 (lit2 k)) (fun n => m ((c : Thread nD τ).loc main_arg3) (ix1 n))
          (fun k e => m ((c : Thread nD τ).loc main_arg14) (ix2 k e)) (fun e => m ((c : Thread nD τ).loc main_arg15) (ix1 e)) := by
  rw [Entry.out3 m ρ c, Region3.final (V7 m ρ) c]
  exact Cert.Spec.rbfOut_congr (fun k => EntryB.e3_cen m ρ c k) (fun n => EntryB.e3_x m ρ c n)
    (fun k e => congrFun (EntryB.e3_W m ρ c) _) (fun e => EntryB.e3_b m ρ c e)

end Cert.KernelIdeal.Results

end
-- ==== Proof.RefTerms.lean ====
/-
  The reference's four results as pure terms of its sixteen argument arrays: the host operations of its @main
  composed, one definition per stage that is later read at an index. Nothing is proved here.
-/
import proofs.«405733_j12730283066009_3_alg».proof.ReferenceIdeal
import proofs.«405733_j12730283066009_3_alg».proof.Proof.Gen.ReferenceIdeal

noncomputable section

namespace Cert.ReferenceIdeal.Terms

open Cert.ReferenceIdeal Cert.ReferenceIdeal.Gen Idealize.ShloMosaic

variable {F : FTy → Type} [FloatOps F]

/-! ## The centre tables -/

def cen20 : FVec F S20 .f32 := fun i => FloatOps.ofBits .f32 (lit0 (S20.rowMajor i))
def cen50 : FVec F S50 .f32 := fun i => FloatOps.ofBits .f32 (lit1 (S50.rowMajor i))
def cen32 : FVec F S32 .f32 := fun i => FloatOps.ofBits .f32 (lit2 (S32.rowMajor i))

/-! ## The atom embedding -/

/-- The table number 0..4 along axis 0, a negative one wrapped by 5 (none is). -/
def tabIdx : IVec S5x1x1 32 :=
  select (cmpi .slt (broadcastInDim S5x1x1 ![0] bcast_S5_S5x1x1_0 (iotaInDim S5 32 0)) (broadcastInDim S5x1x1 ![] bcast_S_S5x1x1 (constantI S_ 32 0#32)))
    (addi (broadcastInDim S5x1x1 ![0] bcast_S5_S5x1x1_0 (iotaInDim S5 32 0)) (broadcastInDim S5x1x1 ![] bcast_S_S5x1x1 (constantI S_ 32 5#32)))
    (broadcastInDim S5x1x1 ![0] bcast_S5_S5x1x1_0 (iotaInDim S5 32 0))

/-- The categorical ids laid [5, N, 2], a negative one wrapped by 32. -/
def catIdx (cat : IVec S200000x5x2 32) : IVec S5x200000x2 32 :=
  select (cmpi .slt (transpose S5x200000x2 [1, 0, 2] cat transposes_S200000x5x2_S5x200000x2_1_0_2) (broadcastInDim S5x200000x2 ![] bcast_S_S5x200000x2 (constantI S_ 32 0#32)))
    (addi (transpose S5x200000x2 [1, 0, 2] cat transposes_S200000x5x2_S5x200000x2_1_0_2) (broadcastInDim S5x200000x2 ![] bcast_S_S5x200000x2 (constantI S_ 32 32#32)))
    (transpose S5x200000x2 [1, 0, 2] cat transposes_S200000x5x2_S5x200000x2_1_0_2)

/-- The start indices of the gather: (table number, row) per [5, N, 2]. -/
def starts (cat : IVec S200000x5x2 32) : IVec S5x200000x2x2 32 :=
  concatenate S5x200000x2x2 3
    [⟨S5x200000x2x1, broadcastInDim S5x200000x2x1 ![0, 1, 2] bcast_S5x200000x2_S5x200000x2x1_0_1_2 (broadcastInDim S5x200000x2 ![0, 1, 2] bcast_S5x1x1_S5x200000x2_0_1_2 tabIdx)⟩,
     ⟨S5x200000x2x1, broadcastInDim S5x200000x2x1 ![0, 1, 2] bcast_S5x200000x2_S5x200000x2x1_0_1_2 (catIdx cat)⟩]
    concatenates_S5x200000x2x1_S5x200000x2x1_S5x200000x2x2_d3

/-- The gathered rows [5, N, 2, 128]. -/
def gathered (cat : IVec S200000x5x2 32) (tables : FVec F S5x32x128 .f32) : FVec F S5x200000x2x128 .f32 :=
  Host.gather gather_S5x32x128_S5x200000x2x2_S5x200000x2x128_3_01_n_n_01_3_11128 tables (starts cat)

/-- Their sum over the five tables, laid [N, 256]. -/
def embH (cat : IVec S200000x5x2 32) (tables : FVec F S5x32x128 .f32) : FVec F S200000x256 .f32 :=
  shapeCast S200000x256 (Host.reduceAdd (gathered cat tables) (constant S_ .f32 0x00000000#32) reducesTo_S5x200000x2x128_S200000x2x128_d0 h_S_)
    shapeCasts_S200000x2x128_S200000x256

/-- The partial charges' radial features [2N, 20]. -/
def chargeRbf (pc : FVec F S200000x2 .f32) : FVec F S400000x20 .f32 :=
  Host.exp (mulf (broadcastInDim S400000x20 ![] bcast_S_S400000x20 (constant S_ .f32 0xC1200000#32))
    (mulf
      (subf (broadcastInDim S400000x20 ![0, 1] bcast_S400000x1_S400000x20_0_1 (broadcastInDim S400000x1 ![0] bcast_S400000_S400000x1_0 (shapeCast S400000 pc shapeCasts_S200000x2_S400000)))
        (broadcastInDim S400000x20 ![0, 1] bcast_S1x20_S400000x20_0_1 (broadcastInDim S1x20 ![1] bcast_S20_S1x20_1 cen20)))
      (subf (broadcastInDim S400000x20 ![0, 1] bcast_S400000x1_S400000x20_0_1 (broadcastInDim S400000x1 ![0] bcast_S400000_S400000x1_0 (shapeCast S400000 pc shapeCasts_S200000x2_S400000)))
        (broadcastInDim S400000x20 ![0, 1] bcast_S1x20_S400000x20_0_1 (broadcastInDim S1x20 ![1] bcast_S20_S1x20_1 cen20)))))

/-- Through the charge matrix and bias, laid [N, 256]. -/
def rbfH (pc : FVec F S200000x2 .f32) (cW : FVec F S20x128 .f32) (cb : FVec F S128 .f32) : FVec F S200000x256 .f32 :=
  shapeCast S200000x256
    (addf (Host.dotGeneral dot_S400000x20_S20x128_S400000x128_1_0_0_1_n_n none (chargeRbf pc) cW)
      (broadcastInDim S400000x128 ![0, 1] bcast_S1x128_S400000x128_0_1 (broadcastInDim S1x128 ![1] bcast_S128_S1x128_1 cb)))
    shapeCasts_S400000x128_S200000x256

/-- The atom embedding: result 0 of @main. -/
def atom (cat : IVec S200000x5x2 32) (pc : FVec F S200000x2 .f32) (tables : FVec F S5x32x128 .f32) (cW : FVec F S20x128 .f32)
    (cb : FVec F S128 .f32) (pW : FVec F S256x256 .f32) (pb : FVec F S256 .f32) : FVec F S200000x256 .f32 :=
  addf (Host.dotGeneral dot_S200000x256_S256x256_S200000x256_1_0_0_1_n_n none (addf (embH cat tables) (rbfH pc cW cb)) pW)
    (broadcastInDim S200000x256 ![0, 1] bcast_S1x256_S200000x256_0_1 (broadcastInDim S1x256 ![1] bcast_S256_S1x256_1 pb))

/-! ## The integer distance-bucket embedding -/

/-- The bucket per edge: the clipped distance truncated. -/
def bucket (dist : FVec F S400000 .f32) : IVec S400000 32 :=
  fptosi 32 (minimumf (broadcastInDim S400000 ![] bcast_S_S400000 (constant S_ .f32 0x409FFFFE#32))
    (maximumf (broadcastInDim S400000 ![] bcast_S_S400000 (constant S_ .f32 0x3F800000#32)) dist))

/-- A negative bucket wrapped by 6 (none is), as a column of start indices. -/
def bucketStarts (dist : FVec F S400000 .f32) : IVec S400000x1 32 :=
  broadcastInDim S400000x1 ![0] bcast_S400000_S400000x1_0
    (select (cmpi .slt (bucket dist) (broadcastInDim S400000 ![] bcast_S_S400000 (constantI S_ 32 0#32)))
      (addi (bucket dist) (broadcastInDim S400000 ![] bcast_S_S400000 (constantI S_ 32 6#32)))
      (bucket dist))

/-- The bucket embedding: result 1 of @main. -/
def bond (dist : FVec F S400000 .f32) (tab : FVec F S6x128 .f32) (W : FVec F S128x256 .f32) (b : FVec F S256 .f32) : FVec F S400000x256 .f32 :=
  addf (Host.dotGeneral dot_S400000x128_S128x256_S400000x256_1_0_0_1_n_n none
      (Host.gather gather_S6x128_S400000x1_S400000x128_1_0_n_n_0_1_1128 tab (bucketStarts dist)) W)
    (broadcastInDim S400000x256 ![0, 1] bcast_S1x256_S400000x256_0_1 (broadcastInDim S1x256 ![1] bcast_S256_S1x256_1 b))

/-! ## The two float edge embeddings -/

/-- The distance embedding over fifty centres: result 2 of @main. -/
def bondF (dist : FVec F S400000 .f32) (W : FVec F S50x256 .f32) (b : FVec F S256 .f32) : FVec F S400000x256 .f32 :=
  addf (Host.dotGeneral dot_S400000x50_S50x256_S400000x256_1_0_0_1_n_n none
      (Host.exp (mulf (broadcastInDim S400000x50 ![] bcast_S_S400000x50 (constant S_ .f32 0xC1200000#32))
        (mulf
          (subf (broadcastInDim S400000x50 ![0, 1] bcast_S400000x1_S400000x50_0_1 (broadcastInDim S400000x1 ![0] bcast_S400000_S400000x1_0 dist))
            (broadcastInDim S400000x50 ![0, 1] bcast_S1x50_S400000x50_0_1 (broadcastInDim S1x50 ![1] bcast_S50_S1x50_1 cen50)))
          (subf (broadcastInDim S400000x50 ![0, 1] bcast_S400000x1_S400000x50_0_1 (broadcastInDim S400000x1 ![0] bcast_S400000_S400000x1_0 dist))
            (broadcastInDim S400000x50 ![0, 1] bcast_S1x50_S400000x50_0_1 (broadcastInDim S1x50 ![1] bcast_S50_S1x50_1 cen50)))))) W)
    (broadcastInDim S400000x256 ![0, 1] bcast_S1x256_S400000x256_0_1 (broadcastInDim S1x256 ![1] bcast_S256_S1x256_1 b))

/-- The angle embedding over thirty-two centres: result 3 of @main. -/
def angle (ang : FVec F S400000 .f32) (W : FVec F S32x256 .f32) (b : FVec F S256 .f32) : FVec F S400000x256 .f32 :=
  addf (Host.dotGeneral dot_S400000x32_S32x256_S400000x256_1_0_0_1_n_n none
      (Host.exp (mulf (broadcastInDim S400000x32 ![] bcast_S_S400000x32 (constant S_ .f32 0xC1200000#32))
        (mulf
          (subf (broadcastInDim S400000x32 ![0, 1] bcast_S400000x1_S400000x32_0_1 (broadcastInDim S400000x1 ![0] bcast_S400000_S400000x1_0 ang))
            (broadcastInDim S400000x32 ![0, 1] bcast_S1x32_S400000x32_0_1 (broadcastInDim S1x32 ![1] bcast_S32_S1x32_1 cen32)))
          (subf (broadcastInDim S400000x32 ![0, 1] bcast_S400000x1_S400000x32_0_1 (broadcastInDim S400000x1 ![0] bcast_S400000_S400000x1_0 ang))
            (broadcastInDim S400000x32 ![0, 1] bcast_S1x32_S400000x32_0_1 (broadcastInDim S1x32 ![1] bcast_S32_S1x32_1 cen32)))))) W)
    (broadcastInDim S400000x256 ![0, 1] bcast_S1x256_S400000x256_0_1 (broadcastInDim S1x256 ![1] bcast_S256_S1x256_1 b))

end Cert.ReferenceIdeal.Terms

end
-- ==== Proof.RefRun.lean ====
/-
  The reference's @main as the list of its host operations (the outlined clip's six operations listed at the call,
  over the call's own buffers), and its run read back: every weakly fair execution terminates with each buffer at
  the operations' fold over the launch contents; each of the four results is then its term of the argument arrays
  (`Terms.atom`, `Terms.bond`, `Terms.bondF`, `Terms.angle`), and no operation writes an argument.
-/
import proofs.«405733_j12730283066009_3_alg».proof.Proof.RefTerms
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ nullary main_cst (fun i => FloatOps.ofBits .f32 (lit0 (S20.rowMajor i))),
    nullary main_cst_0 (fun i => FloatOps.ofBits .f32 (lit1 (S50.rowMajor i))),
    nullary main_cst_1 (fun i => FloatOps.ofBits .f32 (lit2 (S32.rowMajor i))),
    nullary main_v0 (iotaInDim S5 32 0),
    unary main_v0 main_v1 (broadcastInDim S5x1x1 ![0] bcast_S5_S5x1x1_0 : (⟨S5, .i32⟩ : BufTy).Contents (Elt F) → (⟨S5x1x1, .i32⟩ : BufTy).Contents (Elt F)),
    unary main_arg0 main_v2 ((transpose S5x200000x2 [1, 0, 2] · transposes_S200000x5x2_S5x200000x2_1_0_2) : (⟨S200000x5x2, .i32⟩ : BufTy).Contents (Elt F) → (⟨S5x200000x2, .i32⟩ : BufTy).Contents (Elt F)),
    nullary main_c (constantI S_ 32 0#32),
    unary main_c main_v3 (broadcastInDim S5x1x1 ![] bcast_S_S5x1x1 : (⟨S_, .i32⟩ : BufTy).Contents (Elt F) → (⟨S5x1x1, .i32⟩ : BufTy).Contents (Elt F)),
    binary main_v1 main_v3 main_v4 (cmpi .slt : (⟨S5x1x1, .i32⟩ : BufTy).Contents (Elt F) → (⟨S5x1x1, .i32⟩ : BufTy).Contents (Elt F) → (⟨S5x1x1, .i1⟩ : BufTy).Contents (Elt F)),
    nullary main_c_2 (constantI S_ 32 5#32),
    unary main_c_2 main_v5 (broadcastInDim S5x1x1 ![] bcast_S_S5x1x1 : (⟨S_, .i32⟩ : BufTy).Contents (Elt F) → (⟨S5x1x1, .i32⟩ : BufTy).Contents (Elt F)),
    binary main_v1 main_v5 main_v6 (addi : (⟨S5x1x1, .i32⟩ : BufTy).Contents (Elt F) → (⟨S5x1x1, .i32⟩ : BufTy).Contents (Elt F) → (⟨S5x1x1, .i32⟩ : BufTy).Contents (Elt F)),
    ternary main_v4 main_v6 main_v1 main_v7 (select : (⟨S5x1x1, .i1⟩ : BufTy).Contents (Elt F) → (⟨S5x1x1, .i32⟩ : BufTy).Contents (Elt F) → (⟨S5x1x1, .i32⟩ : BufTy).Contents (Elt F) → (⟨S5x1x1, .i32⟩ : BufTy).Contents (Elt F)),
    nullary main_c_3 (constantI S_ 32 0#32),
    unary main_c_3 main_v8 (broadcastInDim S5x200000x2 ![] bcast_S_S5x200000x2 : (⟨S_, .i32⟩ : BufTy).Contents (Elt F) → (⟨S5x200000x2, .i32⟩ : BufTy).Contents (Elt F)),
    binary main_v2 main_v8 main_v9 (cmpi .slt : (⟨S5x200000x2, .i32⟩ : BufTy).Contents (Elt F) → (⟨S5x200000x2, .i32⟩ : BufTy).Contents (Elt F) → (⟨S5x200000x2, .i1⟩ : BufTy).Contents (Elt F)),
    nullary main_c_4 (constantI S_ 32 32#32),
    unary main_c_4 main_v10 (broadcastInDim S5x200000x2 ![] bcast_S_S5x200000x2 : (⟨S_, .i32⟩ : BufTy).Contents (Elt F) → (⟨S5x200000x2, .i32⟩ : BufTy).Contents (Elt F)),
    binary main_v2 main_v10 main_v11 (addi : (⟨S5x200000x2, .i32⟩ : BufTy).Contents (Elt F) → (⟨S5x200000x2, .i32⟩ : BufTy).Contents (Elt F) → (⟨S5x200000x2, .i32⟩ : BufTy).Contents (Elt F)),
    ternary main_v9 main_v11 main_v2 main_v12 (select : (⟨S5x200000x2, .i1⟩ : BufTy).Contents (Elt F) → (⟨S5x200000x2, .i32⟩ : BufTy).Contents (Elt F) → (⟨S5x200000x2, .i32⟩ : BufTy).Contents (Elt F) → (⟨S5x200000x2, .i32⟩ : BufTy).Contents (Elt F)),
    unary main_v7 main_v13 (broadcastInDim S5x200000x2 ![0, 1, 2] bcast_S5x1x1_S5x200000x2_0_1_2 : (⟨S5x1x1, .i32⟩ : BufTy).Contents (Elt F) → (⟨S5x200000x2, .i32⟩ : BufTy).Contents (Elt F)),
    unary main_v13 main_v14 (broadcastInDim S5x200000x2x1 ![0, 1, 2] bcast_S5x200000x2_S5x200000x2x1_0_1_2 : (⟨S5x200000x2, .i32⟩ : BufTy).Contents (Elt F) → (⟨S5x200000x2x1, .i32⟩ : BufTy).Contents (Elt F)),
    unary main_v12 main_v15 (broadcastInDim S5x200000x2x1 ![0, 1, 2] bcast_S5x200000x2_S5x200000x2x1_0_1_2 : (⟨S5x200000x2, .i32⟩ : BufTy).Contents (Elt F) → (⟨S5x200000x2x1, .i32⟩ : BufTy).Contents (Elt F)),
    binary main_v14 main_v15 main_v16 ((fun a b => concatenate S5x200000x2x2 3 [⟨S5x200000x2x1, a⟩, ⟨S5x200000x2x1, b⟩] concatenates_S5x200000x2x1_S5x200000x2x1_S5x200000x2x2_d3) : (⟨S5x200000x2x1, .i32⟩ : BufTy).Contents (Elt F) → (⟨S5x200000x2x1, .i32⟩ : BufTy).Contents (Elt F) → (⟨S5x200000x2x2, .i32⟩ : BufTy).Contents (Elt F)),
    binary main_arg4 main_v16 main_v17 ((fun x i => Host.gather gather_S5x32x128_S5x200000x2x2_S5x200000x2x128_3_01_n_n_01_3_11128 x i) : (⟨S5x32x128, .f32⟩ : BufTy).Contents (Elt F) → (⟨S5x200000x2x2, .i32⟩ : BufTy).Contents (Elt F) → (⟨S5x200000x2x128, .f32⟩ : BufTy).Contents (Elt F)),
    nullary main_cst_5 (constant S_ .f32 0x00000000#32),
    binary main_v17 main_cst_5 main_v18 ((fun x v => Host.reduceAdd x v reducesTo_S5x200000x2x128_S200000x2x128_d0 h_S_) : (⟨S5x200000x2x128, .f32⟩ : BufTy).Contents (Elt F) → (⟨S_, .f32⟩ : BufTy).Contents (Elt F) → (⟨S200000x2x128, .f32⟩ : BufTy).Contents (Elt F)),
    reshape main_v18 main_v19 rfl shapeCasts_S200000x2x128_S200000x256,
    reshape main_arg1 main_v20 rfl shapeCasts_S200000x2_S400000,
    unary main_v20 main_v21 (broadcastInDim S400000x1 ![0] bcast_S400000_S400000x1_0 : (⟨S400000, .f32⟩ : BufTy).Contents (Elt F) → (⟨S400000x1, .f32⟩ : BufTy).Contents (Elt F)),
    unary main_cst main_v22 (broadcastInDim S1x20 ![1] bcast_S20_S1x20_1 : (⟨S20, .f32⟩ : BufTy).Contents (Elt F) → (⟨S1x20, .f32⟩ : BufTy).Contents (Elt F)),
    unary main_v21 main_v23 (broadcastInDim S400000x20 ![0, 1] bcast_S400000x1_S400000x20_0_1 : (⟨S400000x1, .f32⟩ : BufTy).Contents (Elt F) → (⟨S400000x20, .f32⟩ : BufTy).Contents (Elt F)),
    unary main_v22 main_v24 (broadcastInDim S400000x20 ![0, 1] bcast_S1x20_S400000x20_0_1 : (⟨S1x20, .f32⟩ : BufTy).Contents (Elt F) → (⟨S400000x20, .f32⟩ : BufTy).Contents (Elt F)),
    binary main_v23 main_v24 main_v25 (subf : (⟨S400000x20, .f32⟩ : BufTy).Contents (Elt F) → (⟨S400000x20, .f32⟩ : BufTy).Contents (Elt F) → (⟨S400000x20, .f32⟩ : BufTy).Contents (Elt F)),
    binary main_v25 main_v25 main_v26 (mulf : (⟨S400000x20, .f32⟩ : BufTy).Contents (Elt F) → (⟨S400000x20, .f32⟩ : BufTy).Contents (Elt F) → (⟨S400000x20, .f32⟩ : BufTy).Contents (Elt F)),
    nullary main_cst_6 (constant S_ .f32 0xC1200000#32),
    unary main_cst_6 main_v27 (broadcastInDim S400000x20 ![] bcast_S_S400000x20 : (⟨S_, .f32⟩ : BufTy).Contents (Elt F) → (⟨S400000x20, .f32⟩ : BufTy).Contents (Elt F)),
    binary main_v27 main_v26 main_v28 (mulf : (⟨S400000x20, .f32⟩ : BufTy).Contents (Elt F) → (⟨S400000x20, .f32⟩ : BufTy).Contents (Elt F) → (⟨S400000x20, .f32⟩ : BufTy).Contents (Elt F)),
    unary main_v28 main_v29 (Host.exp : (⟨S400000x20, .f32⟩ : BufTy).Contents (Elt F) → (⟨S400000x20, .f32⟩ : BufTy).Contents (Elt F)),
    binary main_v29 main_arg5 main_v30 ((fun l r => Host.dotGeneral dot_S400000x20_S20x128_S400000x128_1_0_0_1_n_n none l r) : (⟨S400000x20, .f32⟩ : BufTy).Contents (Elt F) → (⟨S20x128, .f32⟩ : BufTy).Contents (Elt F) → (⟨S400000x128, .f32⟩ : BufTy).Contents (Elt F)),
    unary main_arg6 main_v31 (broadcastInDim S1x128 ![1] bcast_S128_S1x128_1 : (⟨S128, .f32⟩ : BufTy).Contents (Elt F) → (⟨S1x128, .f32⟩ : BufTy).Contents (Elt F)),
    unary main_v31 main_v32 (broadcastInDim S400000x128 ![0, 1] bcast_S1x128_S400000x128_0_1 : (⟨S1x128, .f32⟩ : BufTy).Contents (Elt F) → (⟨S400000x128, .f32⟩ : BufTy).Contents (Elt F)),
    binary main_v30 main_v32 main_v33 (addf : (⟨S400000x128, .f32⟩ : BufTy).Contents (Elt F) → (⟨S400000x128, .f32⟩ : BufTy).Contents (Elt F) → (⟨S400000x128, .f32⟩ : BufTy).Contents (Elt F)),
    reshape main_v33 main_v34 rfl shapeCasts_S400000x128_S200000x256,
    binary main_v19 main_v34 main_v35 (addf : (⟨S200000x256, .f32⟩ : BufTy).Contents (Elt F) → (⟨S200000x256, .f32⟩ : BufTy).Contents (Elt F) → (⟨S200000x256, .f32⟩ : BufTy).Contents (Elt F)),
    binary main_v35 main_arg7 main_v36 ((fun l r => Host.dotGeneral dot_S200000x256_S256x256_S200000x256_1_0_0_1_n_n none l r) : (⟨S200000x256, .f32⟩ : BufTy).Contents (Elt F) → (⟨S256x256, .f32⟩ : BufTy).Contents (Elt F) → (⟨S200000x256, .f32⟩ : BufTy).Contents (Elt F)),
    unary main_arg8 main_v37 (broadcastInDim S1x256 ![1] bcast_S256_S1x256_1 : (⟨S256, .f32⟩ : BufTy).Contents (Elt F) → (⟨S1x256, .f32⟩ : BufTy).Contents (Elt F)),
    unary main_v37 main_v38 (broadcastInDim S200000x256 ![0, 1] bcast_S1x256_S200000x256_0_1 : (⟨S1x256, .f32⟩ : BufTy).Contents (Elt F) → (⟨S200000x256, .f32⟩ : BufTy).Contents (Elt F)),
    binary main_v36 main_v38 main_v39 (addf : (⟨S200000x256, .f32⟩ : BufTy).Contents (Elt F) → (⟨S200000x256, .f32⟩ : BufTy).Contents (Elt F) → (⟨S200000x256, .f32⟩ : BufTy).Contents (Elt F)),
    nullary main_cst_7 (constant S_ .f32 0x3F800000#32),
    nullary main_cst_8 (constant S_ .f32 0x409FFFFE#32),
    TRef.unary (.of main_cst_7) main_call0.v0 id,
    TRef.unary main_call0.v0 main_call0.v1 (broadcastInDim S400000 ![] bcast_S_S400000),
    TRef.binary main_call0.v1 (.of main_arg2) main_call0.v2 maximumf,
    TRef.unary (.of main_cst_8) main_call0.v3 id,
    TRef.unary main_call0.v3 main_call0.v4 (broadcastInDim S400000 ![] bcast_S_S400000),
    TRef.binary main_call0.v4 main_call0.v2 main_call0.v5 minimumf,
    unary main_v40 main_v41 (fptosi 32 : (⟨S400000, .f32⟩ : BufTy).Contents (Elt F) → (⟨S400000, .i32⟩ : BufTy).Contents (Elt F)),
    nullary main_c_9 (constantI S_ 32 0#32),
    unary main_c_9 main_v42 (broadcastInDim S400000 ![] bcast_S_S400000 : (⟨S_, .i32⟩ : BufTy).Contents (Elt F) → (⟨S400000, .i32⟩ : BufTy).Contents (Elt F)),
    binary main_v41 main_v42 main_v43 (cmpi .slt : (⟨S400000, .i32⟩ : BufTy).Contents (Elt F) → (⟨S400000, .i32⟩ : BufTy).Contents (Elt F) → (⟨S400000, .i1⟩ : BufTy).Contents (Elt F)),
    nullary main_c_10 (constantI S_ 32 6#32),
    unary main_c_10 main_v44 (broadcastInDim S400000 ![] bcast_S_S400000 : (⟨S_, .i32⟩ : BufTy).Contents (Elt F) → (⟨S400000, .i32⟩ : BufTy).Contents (Elt F)),
    binary main_v41 main_v44 main_v45 (addi : (⟨S400000, .i32⟩ : BufTy).Contents (Elt F) → (⟨S400000, .i32⟩ : BufTy).Contents (Elt F) → (⟨S400000, .i32⟩ : BufTy).Contents (Elt F)),
    ternary main_v43 main_v45 main_v41 main_v46 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v46 main_v47 (broadcastInDim S400000x1 ![0] bcast_S400000_S400000x1_0 : (⟨S400000, .i32⟩ : BufTy).Contents (Elt F) → (⟨S400000x1, .i32⟩ : BufTy).Contents (Elt F)),
    binary main_arg9 main_v47 main_v48 ((fun x i => Host.gather gather_S6x128_S400000x1_S400000x128_1_0_n_n_0_1_1128 x i) : (⟨S6x128, .f32⟩ : BufTy).Contents (Elt F) → (⟨S400000x1, .i32⟩ : BufTy).Contents (Elt F) → (⟨S400000x128, .f32⟩ : BufTy).Contents (Elt F)),
    binary main_v48 main_arg10 main_v49 ((fun l r => Host.dotGeneral dot_S400000x128_S128x256_S400000x256_1_0_0_1_n_n none l r) : (⟨S400000x128, .f32⟩ : BufTy).Contents (Elt F) → (⟨S128x256, .f32⟩ : BufTy).Contents (Elt F) → (⟨S400000x256, .f32⟩ : BufTy).Contents (Elt F)),
    unary main_arg11 main_v50 (broadcastInDim S1x256 ![1] bcast_S256_S1x256_1 : (⟨S256, .f32⟩ : BufTy).Contents (Elt F) → (⟨S1x256, .f32⟩ : BufTy).Contents (Elt F)),
    unary main_v50 main_v51 (broadcastInDim S400000x256 ![0, 1] bcast_S1x256_S400000x256_0_1 : (⟨S1x256, .f32⟩ : BufTy).Contents (Elt F) → (⟨S400000x256, .f32⟩ : BufTy).Contents (Elt F)),
    binary main_v49 main_v51 main_v52 (addf : (⟨S400000x256, .f32⟩ : BufTy).Contents (Elt F) → (⟨S400000x256, .f32⟩ : BufTy).Contents (Elt F) → (⟨S400000x256, .f32⟩ : BufTy).Contents (Elt F)),
    unary main_arg2 main_v53 (broadcastInDim S400000x1 ![0] bcast_S400000_S400000x1_0 : (⟨S400000, .f32⟩ : BufTy).Contents (Elt F) → (⟨S400000x1, .f32⟩ : BufTy).Contents (Elt F)),
    unary main_cst_0 main_v54 (broadcastInDim S1x50 ![1] bcast_S50_S1x50_1 : (⟨S50, .f32⟩ : BufTy).Contents (Elt F) → (⟨S1x50, .f32⟩ : BufTy).Contents (Elt F)),
    unary main_v53 main_v55 (broadcastInDim S400000x50 ![0, 1] bcast_S400000x1_S400000x50_0_1 : (⟨S400000x1, .f32⟩ : BufTy).Contents (Elt F) → (⟨S400000x50, .f32⟩ : BufTy).Contents (Elt F)),
    unary main_v54 main_v56 (broadcastInDim S400000x50 ![0, 1] bcast_S1x50_S400000x50_0_1 : (⟨S1x50, .f32⟩ : BufTy).Contents (Elt F) → (⟨S400000x50, .f32⟩ : BufTy).Contents (Elt F)),
    binary main_v55 main_v56 main_v57 (subf : (⟨S400000x50, .f32⟩ : BufTy).Contents (Elt F) → (⟨S400000x50, .f32⟩ : BufTy).Contents (Elt F) → (⟨S400000x50, .f32⟩ : BufTy).Contents (Elt F)),
    binary main_v57 main_v57 main_v58 (mulf : (⟨S400000x50, .f32⟩ : BufTy).Contents (Elt F) → (⟨S400000x50, .f32⟩ : BufTy).Contents (Elt F) → (⟨S400000x50, .f32⟩ : BufTy).Contents (Elt F)),
    nullary main_cst_11 (constant S_ .f32 0xC1200000#32),
    unary main_cst_11 main_v59 (broadcastInDim S400000x50 ![] bcast_S_S400000x50 : (⟨S_, .f32⟩ : BufTy).Contents (Elt F) → (⟨S400000x50, .f32⟩ : BufTy).Contents (Elt F)),
    binary main_v59 main_v58 main_v60 (mulf : (⟨S400000x50, .f32⟩ : BufTy).Contents (Elt F) → (⟨S400000x50, .f32⟩ : BufTy).Contents (Elt F) → (⟨S400000x50, .f32⟩ : BufTy).Contents (Elt F)),
    unary main_v60 main_v61 (Host.exp : (⟨S400000x50, .f32⟩ : BufTy).Contents (Elt F) → (⟨S400000x50, .f32⟩ : BufTy).Contents (Elt F)),
    binary main_v61 main_arg12 main_v62 ((fun l r => Host.dotGeneral dot_S400000x50_S50x256_S400000x256_1_0_0_1_n_n none l r) : (⟨S400000x50, .f32⟩ : BufTy).Contents (Elt F) → (⟨S50x256, .f32⟩ : BufTy).Contents (Elt F) → (⟨S400000x256, .f32⟩ : BufTy).Contents (Elt F)),
    unary main_arg13 main_v63 (broadcastInDim S1x256 ![1] bcast_S256_S1x256_1 : (⟨S256, .f32⟩ : BufTy).Contents (Elt F) → (⟨S1x256, .f32⟩ : BufTy).Contents (Elt F)),
    unary main_v63 main_v64 (broadcastInDim S400000x256 ![0, 1] bcast_S1x256_S400000x256_0_1 : (⟨S1x256, .f32⟩ : BufTy).Contents (Elt F) → (⟨S400000x256, .f32⟩ : BufTy).Contents (Elt F)),
    binary main_v62 main_v64 main_v65 (addf : (⟨S400000x256, .f32⟩ : BufTy).Contents (Elt F) → (⟨S400000x256, .f32⟩ : BufTy).Contents (Elt F) → (⟨S400000x256, .f32⟩ : BufTy).Contents (Elt F)),
    unary main_arg3 main_v66 (broadcastInDim S400000x1 ![0] bcast_S400000_S400000x1_0 : (⟨S400000, .f32⟩ : BufTy).Contents (Elt F) → (⟨S400000x1, .f32⟩ : BufTy).Contents (Elt F)),
    unary main_cst_1 main_v67 (broadcastInDim S1x32 ![1] bcast_S32_S1x32_1 : (⟨S32, .f32⟩ : BufTy).Contents (Elt F) → (⟨S1x32, .f32⟩ : BufTy).Contents (Elt F)),
    unary main_v66 main_v68 (broadcastInDim S400000x32 ![0, 1] bcast_S400000x1_S400000x32_0_1 : (⟨S400000x1, .f32⟩ : BufTy).Contents (Elt F) → (⟨S400000x32, .f32⟩ : BufTy).Contents (Elt F)),
    unary main_v67 main_v69 (broadcastInDim S400000x32 ![0, 1] bcast_S1x32_S400000x32_0_1 : (⟨S1x32, .f32⟩ : BufTy).Contents (Elt F) → (⟨S400000x32, .f32⟩ : BufTy).Contents (Elt F)),
    binary main_v68 main_v69 main_v70 (subf : (⟨S400000x32, .f32⟩ : BufTy).Contents (Elt F) → (⟨S400000x32, .f32⟩ : BufTy).Contents (Elt F) → (⟨S400000x32, .f32⟩ : BufTy).Contents (Elt F)),
    binary main_v70 main_v70 main_v71 (mulf : (⟨S400000x32, .f32⟩ : BufTy).Contents (Elt F) → (⟨S400000x32, .f32⟩ : BufTy).Contents (Elt F) → (⟨S400000x32, .f32⟩ : BufTy).Contents (Elt F)),
    nullary main_cst_12 (constant S_ .f32 0xC1200000#32),
    unary main_cst_12 main_v72 (broadcastInDim S400000x32 ![] bcast_S_S400000x32 : (⟨S_, .f32⟩ : BufTy).Contents (Elt F) → (⟨S400000x32, .f32⟩ : BufTy).Contents (Elt F)),
    binary main_v72 main_v71 main_v73 (mulf : (⟨S400000x32, .f32⟩ : BufTy).Contents (Elt F) → (⟨S400000x32, .f32⟩ : BufTy).Contents (Elt F) → (⟨S400000x32, .f32⟩ : BufTy).Contents (Elt F)),
    unary main_v73 main_v74 (Host.exp : (⟨S400000x32, .f32⟩ : BufTy).Contents (Elt F) → (⟨S400000x32, .f32⟩ : BufTy).Contents (Elt F)),
    binary main_v74 main_arg14 main_v75 ((fun l r => Host.dotGeneral dot_S400000x32_S32x256_S400000x256_1_0_0_1_n_n none l r) : (⟨S400000x32, .f32⟩ : BufTy).Contents (Elt F) → (⟨S32x256, .f32⟩ : BufTy).Contents (Elt F) → (⟨S400000x256, .f32⟩ : BufTy).Contents (Elt F)),
    unary main_arg15 main_v76 (broadcastInDim S1x256 ![1] bcast_S256_S1x256_1 : (⟨S256, .f32⟩ : BufTy).Contents (Elt F) → (⟨S1x256, .f32⟩ : BufTy).Contents (Elt F)),
    unary main_v76 main_v77 (broadcastInDim S400000x256 ![0, 1] bcast_S1x256_S400000x256_0_1 : (⟨S1x256, .f32⟩ : BufTy).Contents (Elt F) → (⟨S400000x256, .f32⟩ : BufTy).Contents (Elt F)),
    binary main_v75 main_v77 main_v78 (addf : (⟨S400000x256, .f32⟩ : BufTy).Contents (Elt F) → (⟨S400000x256, .f32⟩ : BufTy).Contents (Elt F) → (⟨S400000x256, .f32⟩ : BufTy).Contents (Elt F)) ]

-- ninety-nine steps compared one under the other: the comparison recurses once per statement
set_option maxRecDepth 100000 in
set_option maxHeartbeats 1000000 in
/-- @main is that straight line. The program monad is free, so sequencing computes: the two windows run one after
    the other, with the clip's body unfolded at its call and the call's record read at its fields, reduce to one
    chain of `hlo` steps ending in the return, and so does the list's `seq`; the two chains agree step by step. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., nullary_bufs_sub .., nullary_bufs_sub .., nullary_bufs_sub .., unary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., unary_bufs_sub .., binary_bufs_sub ..,
    binary_bufs_sub .., nullary_bufs_sub .., binary_bufs_sub .., reshape_bufs_sub .., reshape_bufs_sub .., unary_bufs_sub ..,
    unary_bufs_sub .., unary_bufs_sub .., unary_bufs_sub .., binary_bufs_sub .., binary_bufs_sub .., nullary_bufs_sub ..,
    unary_bufs_sub .., binary_bufs_sub .., unary_bufs_sub .., binary_bufs_sub .., unary_bufs_sub .., unary_bufs_sub ..,
    binary_bufs_sub .., reshape_bufs_sub .., binary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., binary_bufs_sub .., unary_bufs_sub ..,
    unary_bufs_sub .., unary_bufs_sub .., unary_bufs_sub .., binary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., unary_bufs_sub .., unary_bufs_sub .., unary_bufs_sub .., binary_bufs_sub ..,
    binary_bufs_sub .., nullary_bufs_sub .., unary_bufs_sub .., binary_bufs_sub .., unary_bufs_sub .., binary_bufs_sub ..,
    unary_bufs_sub .., unary_bufs_sub .., binary_bufs_sub ..⟩

/-- Every weakly fair execution of @main terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the four result buffers

Each operation's result at its own buffer is its function of the operands' contents, and at any other buffer what
was there; read from the result buffer back to the arguments the fold is the operations composed, which is the
stage definitions of `Terms` unfolded. -/

set_option maxRecDepth 8192 in
set_option maxHeartbeats 4000000 in
theorem res0 (V : Valuation τ sig (Elt F)) :
    after ops V (main_v39 : DevRef τ sig)
      = Terms.atom (V (main_arg0 : DevRef τ sig)) (V (main_arg1 : DevRef τ sig)) (V (main_arg4 : DevRef τ sig))
          (V (main_arg5 : DevRef τ sig)) (V (main_arg6 : DevRef τ sig)) (V (main_arg7 : DevRef τ sig)) (V (main_arg8 : DevRef τ sig)) := by
  after_results_simp
  rfl
set_option maxRecDepth 8192 in
set_option maxHeartbeats 4000000 in
theorem res1 (V : Valuation τ sig (Elt F)) :
    after ops V (main_v52 : DevRef τ sig)
      = Terms.bond (V (main_arg2 : DevRef τ sig)) (V (main_arg9 : DevRef τ sig)) (V (main_arg10 : DevRef τ sig)) (V (main_arg11 : DevRef τ sig)) := by
  after_results_simp
  rfl
set_option maxRecDepth 8192 in
set_option maxHeartbeats 4000000 in
theorem res2 (V : Valuation τ sig (Elt F)) :
    after ops V (main_v65 : DevRef τ sig)
      = Terms.bondF (V (main_arg2 : DevRef τ sig)) (V (main_arg12 : DevRef τ sig)) (V (main_arg13 : DevRef τ sig)) := by
  after_results_simp
  rfl
set_option maxRecDepth 8192 in
set_option maxHeartbeats 4000000 in
theorem res3 (V : Valuation τ sig (Elt F)) :
    after ops V (main_v78 : DevRef τ sig)
      = Terms.angle (V (main_arg3 : DevRef τ sig)) (V (main_arg14 : DevRef τ sig)) (V (main_arg15 : DevRef τ sig)) := by
  after_results_simp
  rfl

/-! ## No operation writes an argument

Every operation writes a value buffer of its own, never an argument's: the fold at an argument is what was there. -/

set_option maxRecDepth 8192 in
set_option maxHeartbeats 1000000 in
theorem kept0 (V : Valuation τ sig (Elt F)) : after ops V (main_arg0 : DevRef τ sig) = V (main_arg0 : DevRef τ sig) := by
  after_results_simp
set_option maxRecDepth 8192 in
set_option maxHeartbeats 1000000 in
theorem kept1 (V : Valuation τ sig (Elt F)) : after ops V (main_arg1 : DevRef τ sig) = V (main_arg1 : DevRef τ sig) := by
  after_results_simp
set_option maxRecDepth 8192 in
set_option maxHeartbeats 1000000 in
theorem kept2 (V : Valuation τ sig (Elt F)) : after ops V (main_arg2 : DevRef τ sig) = V (main_arg2 : DevRef τ sig) := by
  after_results_simp
set_option maxRecDepth 8192 in
set_option maxHeartbeats 1000000 in
theorem kept3 (V : Valuation τ sig (Elt F)) : after ops V (main_arg3 : DevRef τ sig) = V (main_arg3 : DevRef τ sig) := by
  after_results_simp
set_option maxRecDepth 8192 in
set_option maxHeartbeats 1000000 in
theorem kept4 (V : Valuation τ sig (Elt F)) : after ops V (main_arg4 : DevRef τ sig) = V (main_arg4 : DevRef τ sig) := by
  after_results_simp
set_option maxRecDepth 8192 in
set_option maxHeartbeats 1000000 in
theorem kept5 (V : Valuation τ sig (Elt F)) : after ops V (main_arg5 : DevRef τ sig) = V (main_arg5 : DevRef τ sig) := by
  after_results_simp
set_option maxRecDepth 8192 in
set_option maxHeartbeats 1000000 in
theorem kept6 (V : Valuation τ sig (Elt F)) : after ops V (main_arg6 : DevRef τ sig) = V (main_arg6 : DevRef τ sig) := by
  after_results_simp
set_option maxRecDepth 8192 in
set_option maxHeartbeats 1000000 in
theorem kept7 (V : Valuation τ sig (Elt F)) : after ops V (main_arg7 : DevRef τ sig) = V (main_arg7 : DevRef τ sig) := by
  after_results_simp
set_option maxRecDepth 8192 in
set_option maxHeartbeats 1000000 in
theorem kept8 (V : Valuation τ sig (Elt F)) : after ops V (main_arg8 : DevRef τ sig) = V (main_arg8 : DevRef τ sig) := by
  after_results_simp
set_option maxRecDepth 8192 in
set_option maxHeartbeats 1000000 in
theorem kept9 (V : Valuation τ sig (Elt F)) : after ops V (main_arg9 : DevRef τ sig) = V (main_arg9 : DevRef τ sig) := by
  after_results_simp
set_option maxRecDepth 8192 in
set_option maxHeartbeats 1000000 in
theorem kept10 (V : Valuation τ sig (Elt F)) : after ops V (main_arg10 : DevRef τ sig) = V (main_arg10 : DevRef τ sig) := by
  after_results_simp
set_option maxRecDepth 8192 in
set_option maxHeartbeats 1000000 in
theorem kept11 (V : Valuation τ sig (Elt F)) : after ops V (main_arg11 : DevRef τ sig) = V (main_arg11 : DevRef τ sig) := by
  after_results_simp
set_option maxRecDepth 8192 in
set_option maxHeartbeats 1000000 in
theorem kept12 (V : Valuation τ sig (Elt F)) : after ops V (main_arg12 : DevRef τ sig) = V (main_arg12 : DevRef τ sig) := by
  after_results_simp
set_option maxRecDepth 8192 in
set_option maxHeartbeats 1000000 in
theorem kept13 (V : Valuation τ sig (Elt F)) : after ops V (main_arg13 : DevRef τ sig) = V (main_arg13 : DevRef τ sig) := by
  after_results_simp
set_option maxRecDepth 8192 in
set_option maxHeartbeats 1000000 in
theorem kept14 (V : Valuation τ sig (Elt F)) : after ops V (main_arg14 : DevRef τ sig) = V (main_arg14 : DevRef τ sig) := by
  after_results_simp
set_option maxRecDepth 8192 in
set_option maxHeartbeats 1000000 in
theorem kept15 (V : Valuation τ sig (Elt F)) : after ops V (main_arg15 : DevRef τ sig) = V (main_arg15 : DevRef τ sig) := by
  after_results_simp

end Cert.ReferenceIdeal.Run

end
-- ==== Proof.RefAtom.lean ====
/-
  The reference's atom embedding read at an index: its term of the argument arrays is `Spec.atomOut` of them, the
  row of table t for pair atom (n, p) being the categorical id wrapped by 32 when negative and then clamped (the
  gather's own clamp), the five gathered rows summed, the partial charge's radial features through the charge
  matrix, both laid [N, 2, 128] -> [N, 256], and the sum through the projection.
-/
import proofs.«405733_j12730283066009_3_alg».proof.Proof.RefTerms
import proofs.«405733_j12730283066009_3_alg».proof.Proof.Spec
import proofs.«405733_j12730283066009_3_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.ReadAtom

open Cert.ReferenceIdeal Cert.ReferenceIdeal.Gen Idealize.ShloMosaic Idealize.ShloMosaic.ValueIdx
open scoped BigOperators

/-! ## Words: the wrap of a negative index, and the table number -/

/-- The select on "negative" between the index plus 32 and the index is the `if` on the signed value. -/
theorem wrap_word (c : BitVec 32) :
    Scalar.select (IntOp.cmpi .slt c 0#32) (IntOp.addi c 32#32) c
      = if c.toInt < 0 then c + BitVec.ofNat 32 32 else c := by
  have h0 : (0#32 : BitVec 32).toInt = 0 := by decide
  by_cases h : c.toInt < 0
  · have hs : c.slt 0#32 = true := by simp [BitVec.slt, h0, h]
    rw [if_pos h]
    show (if BitVec.ofBool (c.slt 0#32) = 1#1 then c + 32#32 else c) = _
    rw [hs]; rfl
  · have hs : c.slt 0#32 = false := by simp [BitVec.slt, h0, h]
    rw [if_neg h]
    show (if BitVec.ofBool (c.slt 0#32) = 1#1 then c + 32#32 else c) = _
    rw [hs]; rfl

/-- A table number below five is never negative: the wrap by 5 leaves its word. -/
theorem tab_word : ∀ t : Fin 5, Scalar.select (IntOp.cmpi .slt (BitVec.ofNat 32 t.val) 0#32)
    (IntOp.addi (BitVec.ofNat 32 t.val) 5#32) (BitVec.ofNat 32 t.val) = BitVec.ofNat 32 t.val := by decide

/-- … and the clamp into [0, 4] leaves the number. -/
theorem tab_clamp : ∀ t : Fin 5, min (BitVec.ofNat 32 t.val).toInt.toNat 4 = t.val := by decide

/-- A wrap stage at an index: pointwise, the two splat constants read everywhere. -/
theorem wrapSel_apply {s : Shape} (x : IVec s 32) (N : BitVec 32)
    (hz : S_.BroadcastsInDim s (![] : Fin 0 → Fin s.rank)) (hN : S_.BroadcastsInDim s (![] : Fin 0 → Fin s.rank)) (i : s.Idx) :
    select (cmpi .slt x (broadcastInDim s ![] hz (constantI S_ 32 0#32)))
        (addi x (broadcastInDim s ![] hN (constantI S_ 32 N))) x i
      = Scalar.select (IntOp.cmpi .slt (x i) 0#32) (IntOp.addi (x i) N) (x i) := rfl

/-! ## The gather at an index -/

/-- THE TWO-COMPONENT GATHER READ AT (t, n, p, e): the table at (start component 0 clamped into [0, 4], start
    component 1 clamped into [0, 31], e). -/
theorem gather_apply {α : Type} {w : Nat} (x : S5x32x128.Idx → α) (idx : IVec S5x200000x2x2 w)
    (t : Fin 5) (n : Fin 200000) (p : Fin 2) (e : Fin 128)
    (h1 : min (idx (ix4 t n p (0 : Fin 2))).toInt.toNat 4 < 5) (h2 : min (idx (ix4 t n p (1 : Fin 2))).toInt.toNat 31 < 32) :
    Host.gather gather_S5x32x128_S5x200000x2x2_S5x200000x2x128_3_01_n_n_01_3_11128 x idx (ix4 t n p e)
      = x (ix3 ⟨min (idx (ix4 t n p (0 : Fin 2))).toInt.toNat 4, h1⟩
            ⟨min (idx (ix4 t n p (1 : Fin 2))).toInt.toNat 31, h2⟩ e) := by
  unfold Host.gather
  congr 1
  -- operand axis 0: collapsed, addressed by start component 0
  have h0 : gather_S5x32x128_S5x200000x2x2_S5x200000x2x128_3_01_n_n_01_3_11128.start (ix4 t n p e) idx (0 : Fin 3)
      + gather_S5x32x128_S5x200000x2x2_S5x200000x2x128_3_01_n_n_01_3_11128.batchCoord (ix4 t n p e) (0 : Fin 3)
      + gather_S5x32x128_S5x200000x2x2_S5x200000x2x128_3_01_n_n_01_3_11128.offCoord (ix4 t n p e) (0 : Fin 3)
      = min (idx (ix4 t n p (0 : Fin 2))).toInt.toNat 4 := by
    have hm : (0 : Fin 3) ∈ gather_S5x32x128_S5x200000x2x2_S5x200000x2x128_3_01_n_n_01_3_11128.startIndexMap :=
      show (0 : Fin 3) ∈ ([0, 1] : List (Fin 3)) by decide
    rw [GatherDims.batchCoord_eq_zero _ _ _ List.not_mem_nil, GatherDims.offCoord_eq_zero _ _ _
      (fun h => ((GatherDims.mem_sKept _ _).mp h).1 (show (0 : Fin 3) ∈ ([0, 1] : List (Fin 3)) by decide))]
    simp only [Nat.add_zero]
    unfold GatherDims.start
    rw [dif_pos hm]
    have hsi : gather_S5x32x128_S5x200000x2x2_S5x200000x2x128_3_01_n_n_01_3_11128.siIdx (ix4 t n p e)
        ⟨List.idxOf (0 : Fin 3) gather_S5x32x128_S5x200000x2x2_S5x200000x2x128_3_01_n_n_01_3_11128.startIndexMap,
          List.idxOf_lt_length_iff.2 hm⟩ = ix4 t n p (0 : Fin 2) := by
      funext b; refine Fin.ext ?_
      match b with
      | ⟨0, _⟩ => rfl
      | ⟨1, _⟩ => rfl
      | ⟨2, _⟩ => rfl
      | ⟨3, _⟩ => rfl
    rw [hsi]
    rfl
  -- operand axis 1: collapsed, addressed by start component 1
  have h1' : gather_S5x32x128_S5x200000x2x2_S5x200000x2x128_3_01_n_n_01_3_11128.start (ix4 t n p e) idx (1 : Fin 3)
      + gather_S5x32x128_S5x200000x2x2_S5x200000x2x128_3_01_n_n_01_3_11128.batchCoord (ix4 t n p e) (1 : Fin 3)
      + gather_S5x32x128_S5x200000x2x2_S5x200000x2x128_3_01_n_n_01_3_11128.offCoord (ix4 t n p e) (1 : Fin 3)
      = min (idx (ix4 t n p (1 : Fin 2))).toInt.toNat 31 := by
    have hm : (1 : Fin 3) ∈ gather_S5x32x128_S5x200000x2x2_S5x200000x2x128_3_01_n_n_01_3_11128.startIndexMap :=
      show (1 : Fin 3) ∈ ([0, 1] : List (Fin 3)) by decide
    rw [GatherDims.batchCoord_eq_zero _ _ _ List.not_mem_nil, GatherDims.offCoord_eq_zero _ _ _
      (fun h => ((GatherDims.mem_sKept _ _).mp h).1 (show (1 : Fin 3) ∈ ([0, 1] : List (Fin 3)) by decide))]
    simp only [Nat.add_zero]
    unfold GatherDims.start
    rw [dif_pos hm]
    have hsi : gather_S5x32x128_S5x200000x2x2_S5x200000x2x128_3_01_n_n_01_3_11128.siIdx (ix4 t n p e)
        ⟨List.idxOf (1 : Fin 3) gather_S5x32x128_S5x200000x2x2_S5x200000x2x128_3_01_n_n_01_3_11128.startIndexMap,
          List.idxOf_lt_length_iff.2 hm⟩ = ix4 t n p (1 : Fin 2) := by
      funext b; refine Fin.ext ?_
      match b with
      | ⟨0, _⟩ => rfl
      | ⟨1, _⟩ => rfl
      | ⟨2, _⟩ => rfl
      | ⟨3, _⟩ => rfl
    rw [hsi]
    rfl
  -- operand axis 2: the offset axis, the start is zero and the offset coordinate is the result's column
  have h2' : gather_S5x32x128_S5x200000x2x2_S5x200000x2x128_3_01_n_n_01_3_11128.start (ix4 t n p e) idx (2 : Fin 3)
      + gather_S5x32x128_S5x200000x2x2_S5x200000x2x128_3_01_n_n_01_3_11128.batchCoord (ix4 t n p e) (2 : Fin 3)
      + gather_S5x32x128_S5x200000x2x2_S5x200000x2x128_3_01_n_n_01_3_11128.offCoord (ix4 t n p e) (2 : Fin 3) = e.val := by
    have hm : (2 : Fin 3) ∉ gather_S5x32x128_S5x200000x2x2_S5x200000x2x128_3_01_n_n_01_3_11128.startIndexMap :=
      show (2 : Fin 3) ∉ ([0, 1] : List (Fin 3)) by decide
    have hs : gather_S5x32x128_S5x200000x2x2_S5x200000x2x128_3_01_n_n_01_3_11128.start (ix4 t n p e) idx (2 : Fin 3) = 0 := by
      unfold GatherDims.start; rw [dif_neg hm]
    have hk : (2 : Fin 3) ∈ gather_S5x32x128_S5x200000x2x2_S5x200000x2x128_3_01_n_n_01_3_11128.sKept :=
      (GatherDims.mem_sKept _ _).mpr ⟨show (2 : Fin 3) ∉ ([0, 1] : List (Fin 3)) by decide, List.not_mem_nil⟩
    have ho : gather_S5x32x128_S5x200000x2x2_S5x200000x2x128_3_01_n_n_01_3_11128.offCoord (ix4 t n p e) (2 : Fin 3) = e.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1'
  | ⟨2, _⟩ => exact h2'

/-! ## The start indices -/

/-- The table-number column at (t, 0, 0) is the word of t. -/
theorem tabIdx_apply (t : Fin 5) : Terms.tabIdx (ix3 t (0 : Fin 1) (0 : Fin 1)) = BitVec.ofNat 32 t.val := by
  have hX : broadcastInDim S5x1x1 ![0] bcast_S5_S5x1x1_0 (iotaInDim S5 32 0) (ix3 t (0 : Fin 1) (0 : Fin 1))
      = BitVec.ofNat 32 t.val :=
    broadcastInDim_apply _ _ _ _ (ix1 t) (fun a => match a with | ⟨0, _⟩ => by first | rfl | simp)
  unfold Terms.tabIdx
  refine (wrapSel_apply _ _ _ _ _).trans ?_
  rw [hX]
  exact tab_word t

/-- The wrapped ids at (t, n, p): the `if` on the sign of cat[n, t, p]. -/
theorem catIdx_apply (cat : IVec S200000x5x2 32) (t : Fin 5) (n : Fin 200000) (p : Fin 2) :
    Terms.catIdx cat (ix3 t n p)
      = if (cat (ix3 n t p)).toInt < 0 then cat (ix3 n t p) + BitVec.ofNat 32 32 else cat (ix3 n t p) := by
  have hT : transpose S5x200000x2 [1, 0, 2] cat transposes_S200000x5x2_S5x200000x2_1_0_2 (ix3 t n p) = cat (ix3 n t p) :=
    transpose_apply _ _ _ (ix3 t n p) (ix3 n t p) (fun b => match b with | ⟨0, _⟩ => rfl | ⟨1, _⟩ => rfl | ⟨2, _⟩ => rfl)
  unfold Terms.catIdx
  refine (wrapSel_apply _ _ _ _ _).trans ?_
  rw [hT]
  exact wrap_word _

/-- Start component 0 at (t, n, p) is the word of t. -/
theorem starts_zero (cat : IVec S200000x5x2 32) (t : Fin 5) (n : Fin 200000) (p : Fin 2) :
    Terms.starts cat (ix4 t n p (0 : Fin 2)) = BitVec.ofNat 32 t.val := by
  unfold Terms.starts
  refine (concatenate_pair_apply_left (t := S5x200000x2x2) (s₁ := S5x200000x2x1) (s₂ := S5x200000x2x1) (3 : Fin 4) _ _ _ (ix4 t n p (0 : Fin 2)) rfl (ix4 t n p (0 : Fin 1))
    (fun b => match b with | ⟨0, _⟩ => rfl | ⟨1, _⟩ => rfl | ⟨2, _⟩ => rfl | ⟨3, _⟩ => rfl)).trans ?_
  refine (broadcastInDim_apply _ _ _ _ (ix3 t n p) (fun a => match a with
    | ⟨0, _⟩ => by first | rfl | simp
    | ⟨1, _⟩ => by first | rfl | simp
    | ⟨2, _⟩ => by first | rfl | simp)).trans ?_
  refine (broadcastInDim_apply _ _ _ _ (ix3 t (0 : Fin 1) (0 : Fin 1)) (fun a => match a with
    | ⟨0, _⟩ => by first | rfl | simp
    | ⟨1, _⟩ => by first | rfl | simp
    | ⟨2, _⟩ => by first | rfl | simp)).trans ?_
  exact tabIdx_apply t

/-- Start component 1 at (t, n, p) is the wrapped id. -/
theorem starts_one (cat : IVec S200000x5x2 32) (t : Fin 5) (n : Fin 200000) (p : Fin 2) :
    Terms.starts cat (ix4 t n p (1 : Fin 2))
      = if (cat (ix3 n t p)).toInt < 0 then cat (ix3 n t p) + BitVec.ofNat 32 32 else cat (ix3 n t p) := by
  unfold Terms.starts
  refine (concatenate_pair_apply_right (t := S5x200000x2x2) (s₁ := S5x200000x2x1) (s₂ := S5x200000x2x1) (3 : Fin 4) _ _ _ (ix4 t n p (1 : Fin 2)) rfl rfl (ix4 t n p (0 : Fin 1))
    (fun b hb => match b, hb with
      | ⟨0, _⟩, _ => rfl | ⟨1, _⟩, _ => rfl | ⟨2, _⟩, _ => rfl | ⟨3, _⟩, hb => absurd rfl hb) rfl).trans ?_
  refine (broadcastInDim_apply _ _ _ _ (ix3 t n p) (fun a => match a with
    | ⟨0, _⟩ => by first | rfl | simp
    | ⟨1, _⟩ => by first | rfl | simp
    | ⟨2, _⟩ => by first | rfl | simp)).trans ?_
  exact catIdx_apply cat t n p

/-! ## The gathered rows and their sum -/

/-- The gathered array at (t, n, p, e): table t, the wrapped and clamped row, column e. -/
theorem gathered_apply (cat : IVec S200000x5x2 32) (tables : FVec Ideal S5x32x128 .f32)
    (t : Fin 5) (n : Fin 200000) (p : Fin 2) (e : Fin 128) :
    Terms.gathered (F := Ideal) cat tables (ix4 t n p e)
      = tables (ix3 t (Cert.Spec.wrapRow 32 (by decide) (cat (ix3 n t p))) e) := by
  have h1 : min (Terms.starts cat (ix4 t n p (0 : Fin 2))).toInt.toNat 4 < 5 := by omega
  have h2 : min (Terms.starts cat (ix4 t n p (1 : Fin 2))).toInt.toNat 31 < 32 := by omega
  have ha : (⟨min (Terms.starts cat (ix4 t n p (0 : Fin 2))).toInt.toNat 4, h1⟩ : Fin 5) = t :=
    Fin.ext (by show min (Terms.starts cat (ix4 t n p (0 : Fin 2))).toInt.toNat 4 = t.val
                rw [starts_zero]; exact tab_clamp t)
  have hb : (⟨min (Terms.starts cat (ix4 t n p (1 : Fin 2))).toInt.toNat 31, h2⟩ : Fin 32)
      = Cert.Spec.wrapRow 32 (by decide) (cat (ix3 n t p)) :=
    Fin.ext (by show min (Terms.starts cat (ix4 t n p (1 : Fin 2))).toInt.toNat 31 = _
                rw [starts_one]; rfl)
  unfold Terms.gathered
  refine (gather_apply tables (Terms.starts cat) t n p e h1 h2).trans ?_
  exact congrArg₂ (fun a b => tables (ix3 a b e)) ha hb

/-- The summed rows at (n, c), c = 128 p + e: the sum over the five tables. -/
theorem embH_apply (cat : IVec S200000x5x2 32) (tables : FVec Ideal S5x32x128 .f32) (n : Fin 200000) (c : Fin 256)
    (hp : c.val / 128 < 2) (he : c.val % 128 < 128) :
    Terms.embH (F := Ideal) cat tables (ix2 n c)
      = ∑ t : Fin 5, tables (ix3 t (Cert.Spec.wrapRow 32 (by decide) (cat (ix3 n t ⟨c.val / 128, hp⟩))) ⟨c.val % 128, he⟩) := by
  have hR : S5x200000x2x128.Reduces [0] S200000x2x128 := by decide
  have hl : ∀ k : Fin 5, hR.lift (ix3 n (⟨c.val / 128, hp⟩ : Fin 2) (⟨c.val % 128, he⟩ : Fin 128)) k
      = ix4 k n (⟨c.val / 128, hp⟩ : Fin 2) (⟨c.val % 128, he⟩ : Fin 128) := fun k => by
    funext a; refine Fin.ext ?_
    match a with
    | ⟨0, _⟩ => rfl
    | ⟨1, _⟩ => rfl
    | ⟨2, _⟩ => rfl
    | ⟨3, _⟩ => rfl
  unfold Terms.embH
  refine (shapeCast_apply _ _ (ix2 n c) (ix3 n (⟨c.val / 128, hp⟩ : Fin 2) (⟨c.val % 128, he⟩ : Fin 128)) (by
    rw [Shape.rowMajor_val_three, Shape.rowMajor_val_two]
    show (n.val * 2 + c.val / 128) * 128 + c.val % 128 = n.val * 256 + c.val
    omega)).trans ?_
  unfold Host.reduceAdd
  refine (Ideal.hostReduceAdd_single reducesTo_S5x200000x2x128_S200000x2x128_d0 hR _ _ _).trans ?_
  rw [constant_apply, Ideal.ofBits_zero_f32, zero_add]
  refine Finset.sum_congr rfl fun k _ => ?_
  rw [hl k]
  exact gathered_apply cat tables k n _ _

/-! ## The partial charges' radial features through the charge matrix -/

/-- A centre of the twenty at k is the word the literal table holds there. -/
theorem cen20_apply (k : Fin 20) : Terms.cen20 (F := Ideal) (ix1 k) = Ideal.ofBits .f32 (lit0 k) := by
  have h : (S20.rowMajor (ix1 k) : Fin 20) = k := Fin.ext (Shape.rowMajor_val_one (ix1 k))
  exact congrArg (fun i => Ideal.ofBits .f32 (lit0 i)) h

/-- A radial-feature stage at an index: pointwise, the splat −10 read everywhere. -/
theorem rbfStage_apply {s : Shape} (hb : S_.BroadcastsInDim s (![] : Fin 0 → Fin s.rank)) (X C : FVec Ideal s .f32) (i : s.Idx) :
    Host.exp (mulf (broadcastInDim s ![] hb (constant (F := Ideal) S_ .f32 0xC1200000#32)) (mulf (subf X C) (subf X C))) i
      = Cert.Spec.rbf (X i) (C i) := rfl

/-- The radial features at (r, k), r = 2 n + p: the feature of pc[n, p] against centre k. -/
theorem chargeRbf_apply (pc : FVec Ideal S200000x2 .f32) (n : Fin 200000) (p : Fin 2) (r : Fin 400000)
    (hr : r.val = 2 * n.val + p.val) (k : Fin 20) :
    Terms.chargeRbf (F := Ideal) pc (ix2 r k) = Cert.Spec.rbf (pc (ix2 n p)) (Ideal.ofBits .f32 (lit0 k)) := by
  have hx : broadcastInDim S400000x20 ![0, 1] bcast_S400000x1_S400000x20_0_1
      (broadcastInDim S400000x1 ![0] bcast_S400000_S400000x1_0 (shapeCast S400000 pc shapeCasts_S200000x2_S400000)) (ix2 r k)
      = pc (ix2 n p) := by
    refine (broadcastInDim_apply _ _ _ _ (ix2 r (0 : Fin 1)) (fun a => match a with
      | ⟨0, _⟩ => by first | rfl | simp
      | ⟨1, _⟩ => by first | rfl | simp)).trans ?_
    refine (broadcastInDim_apply _ _ _ _ (ix1 r) (fun a => match a with
      | ⟨0, _⟩ => by first | rfl | simp)).trans ?_
    exact shapeCast_apply _ _ (ix1 r) (ix2 n p) (by
      rw [Shape.rowMajor_val_two, Shape.rowMajor_val_one]
      show n.val * 2 + p.val = r.val
      omega)
  have hc : broadcastInDim S400000x20 ![0, 1] bcast_S1x20_S400000x20_0_1
      (broadcastInDim S1x20 ![1] bcast_S20_S1x20_1 (Terms.cen20 (F := Ideal))) (ix2 r k) = Ideal.ofBits .f32 (lit0 k) := by
    refine (broadcastInDim_apply _ _ _ _ (ix2 (0 : Fin 1) k) (fun a => match a with
      | ⟨0, _⟩ => by first | rfl | simp
      | ⟨1, _⟩ => by first | rfl | simp)).trans ?_
    refine (broadcastInDim_apply _ _ _ _ (ix1 k) (fun a => match a with
      | ⟨0, _⟩ => by first | rfl | simp)).trans ?_
    exact cen20_apply k
  unfold Terms.chargeRbf
  refine (rbfStage_apply _ _ _ _).trans ?_
  exact congrArg₂ Cert.Spec.rbf hx hc

/-- The plain product of an m×k by a k×n array on the host, at entry (a, b): the sum over c of A[a, c] · B[c, b]. -/
theorem dot_rowCol_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (BlockOps.rowCol w) prec A B (ix2 a b) = ∑ c : Fin k, A (ix2 a c) * B (ix2 c b) := by
  show FloatOps.dotGeneral (BlockOps.rowCol w) prec .single A B (ix2 a b) = _
  rw [Ideal.dotGeneral_apply, ← Equiv.sum_comp (contrEquiv1 (BlockOps.rowCol w) k rfl rfl).symm]
  refine Finset.sum_congr rfl fun c _ => ?_
  rw [BlockOps.rowCol_lhsIdx, BlockOps.rowCol_rhsIdx]

/-- A row vector laid [1, C] and broadcast over R rows reads, at (r, c), the vector at c. -/
theorem biasRow_apply {R C : Nat} (v : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2)) (r : Fin R) (c : Fin C) :
    broadcastInDim ⟨2, ![R, C]⟩ ![0, 1] h2 (broadcastInDim ⟨2, ![1, C]⟩ ![1] h1 v) (ix2 r c) = v (ix1 c) := by
  refine (broadcastInDim_apply _ _ _ _ (ix2 (0 : Fin 1) c) (fun a => match a with
    | ⟨0, _⟩ => rfl
    | ⟨1, _⟩ => by
      show c.val = if C = 1 then 0 else c.val
      split
      · have := c.isLt; omega
      · rfl)).trans ?_
  exact broadcastInDim_apply _ _ _ _ (ix1 c) (fun a => match a with
    | ⟨0, _⟩ => by
      show c.val = if C = 1 then 0 else c.val
      split
      · have := c.isLt; omega
      · rfl)

/-- The charge features through the charge matrix and bias at (n, c), c = 128 p + e. -/
theorem rbfH_apply (pc : FVec Ideal S200000x2 .f32) (cW : FVec Ideal S20x128 .f32) (cb : FVec Ideal S128 .f32)
    (n : Fin 200000) (c : Fin 256) (hp : c.val / 128 < 2) (he : c.val % 128 < 128) :
    Terms.rbfH (F := Ideal) pc cW cb (ix2 n c)
      = (∑ k : Fin 20, Cert.Spec.rbf (pc (ix2 n ⟨c.val / 128, hp⟩)) (Ideal.ofBits .f32 (lit0 k)) * cW (ix2 k ⟨c.val % 128, he⟩))
        + cb (ix1 ⟨c.val % 128, he⟩) := by
  have hrlt : 2 * n.val + c.val / 128 < 400000 := by have := n.isLt; omega
  unfold Terms.rbfH
  refine (shapeCast_apply _ _ (ix2 n c) (ix2 (⟨2 * n.val + c.val / 128, hrlt⟩ : Fin 400000) (⟨c.val % 128, he⟩ : Fin 128)) (by
    rw [Shape.rowMajor_val_two, Shape.rowMajor_val_two]
    show (2 * n.val + c.val / 128) * 128 + c.val % 128 = n.val * 256 + c.val
    omega)).trans ?_
  rw [addf_apply]
  refine congrArg₂ (· + ·) ?_ ?_
  · refine (dot_rowCol_apply dot_S400000x20_S20x128_S400000x128_1_0_0_1_n_n_wf none _ cW _ _).trans ?_
    refine Finset.sum_congr rfl fun k _ => ?_
    rw [chargeRbf_apply pc n ⟨c.val / 128, hp⟩ ⟨2 * n.val + c.val / 128, hrlt⟩ rfl k]
  · exact biasRow_apply cb _ _ _ _

/-! ## The atom embedding -/

theorem atom_eq (cat : IVec S200000x5x2 32) (pc : FVec Ideal S200000x2 .f32) (tables : FVec Ideal S5x32x128 .f32)
    (cW : FVec Ideal S20x128 .f32) (cb : FVec Ideal S128 .f32) (pW : FVec Ideal S256x256 .f32) (pb : FVec Ideal S256 .f32) :
    Terms.atom (F := Ideal) cat pc tables cW cb pW pb
      = Cert.Spec.atomOut
          (fun n t p => Cert.Spec.wrapRow 32 (by decide) (cat (ix3 n t p)))
          (fun n p => pc (ix2 n p))
          (fun t k e => tables (ix3 t k e))
          (fun k e => cW (ix2 k e))
          (fun e => cb (ix1 e))
          (fun a b => pW (ix2 a b))
          (fun e => pb (ix1 e))
          (fun k => Ideal.ofBits .f32 (lit0 k)) := by
  funext j
  obtain ⟨n, c', rfl⟩ : ∃ (n : Fin 200000) (c' : Fin 256), j = ix2 n c' := ⟨j 0, j 1, eq_ix2 j⟩
  unfold Terms.atom Cert.Spec.atomOut
  rw [addf_apply]
  refine congrArg₂ (· + ·) ?_ ?_
  · refine (dot_rowCol_apply dot_S200000x256_S256x256_S200000x256_1_0_0_1_n_n_wf none _ pW n c').trans ?_
    refine Finset.sum_congr rfl fun c _ => ?_
    rw [addf_apply, embH_apply cat tables n c (by have := c.isLt; omega) (Nat.mod_lt _ (by decide)),
      rbfH_apply pc cW cb n c (by have := c.isLt; omega) (Nat.mod_lt _ (by decide))]
    rfl
  · exact biasRow_apply pb _ _ _ _

end Cert.ReferenceIdeal.ReadAtom

end
-- ==== Proof.LibGather.lean ====
/-
  A row gather read at an index.  The operand is [N, C], the start indices a column [R, 1], the result [R, C]:
  result row r is operand row idx[r], the index word read signed and clamped into the row axis.
-/
import Idealize.ShloMosaic.PureOps
import Idealize.ShloMosaic.Lib.ValueIdx

noncomputable section

namespace Cert.LibGather

open Idealize.ShloMosaic Idealize.ShloMosaic.ValueIdx

/-- The dimension numbers of a row gather: offset axis 1, collapsed axis 0, the one index component addressing
    axis 0, the index vector along axis 1, slices of one whole row. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (r, k): the operand at row idx[r, 0] (read signed, clamped into [0, N − 1]), column k. -/
theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  congr 1
  -- the collapsed axis: no batching or offset coordinate, the start is the clamped index word
  have h0 : (rowGather N R C wf).start (ix2 r k) idx (0 : Fin 2) + (rowGather N R C wf).batchCoord (ix2 r k) (0 : Fin 2)
      + (rowGather N R C wf).offCoord (ix2 r k) (0 : Fin 2) = min (idx (ix2 r (⟨0, Nat.one_pos⟩ : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 r k) ⟨List.idxOf (0 : Fin 2) (rowGather N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl
  -- the offset axis: the start is zero, the offset coordinate is the result's column
  have h1 : (rowGather N R C wf).start (ix2 r k) idx (1 : Fin 2) + (rowGather N R C wf).batchCoord (ix2 r k) (1 : Fin 2)
      + (rowGather N R C wf).offCoord (ix2 r k) (1 : Fin 2) = k.val := by
    have hm : (1 : Fin 2) ∉ (rowGather N R C wf).startIndexMap :=
      show (1 : Fin 2) ∉ ([0] : List (Fin 2)) by decide
    have hs : (rowGather N R C wf).start (ix2 r k) idx (1 : Fin 2) = 0 := by
      unfold GatherDims.start; rw [dif_neg hm]
    have hk : (1 : Fin 2) ∈ (rowGather N R C wf).sKept :=
      (GatherDims.mem_sKept _ _).mpr ⟨show (1 : Fin 2) ∉ ([0] : List (Fin 2)) by decide, List.not_mem_nil⟩
    have ho : (rowGather N R C wf).offCoord (ix2 r k) (1 : Fin 2) = k.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1

end Cert.LibGather

end
-- ==== Proof.RefBond.lean ====
/-
  The reference's integer bucket embedding read at an index: its term of the argument arrays is `Spec.bondOut`
  of them, the table row of edge n being the bucket wrapped by 6 when negative and then clamped.
-/
import proofs.«405733_j12730283066009_3_alg».proof.Proof.RefTerms
import proofs.«405733_j12730283066009_3_alg».proof.Proof.Spec
import proofs.«405733_j12730283066009_3_alg».proof.Proof.LibBlockOps
import proofs.«405733_j12730283066009_3_alg».proof.Proof.LibGather
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.ReadBond

open Cert.ReferenceIdeal Cert.ReferenceIdeal.Gen Idealize.ShloMosaic Idealize.ShloMosaic.ValueIdx

/-! ## The layout operations of the stage, each read at an entry -/

section entries

variable {α : Type}

/-- A scalar spread over any shape reads, everywhere, the scalar. -/
theorem scalar_spread_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 (fun a => a.elim0)

/-- A vector made a column reads, at (n, 0), the vector at n. -/
theorem col_apply {R : Nat} (h1 : (⟨1, ![R]⟩ : Shape).BroadcastsInDim ⟨2, ![R, 1]⟩ (![0] : Fin 1 → Fin 2))
    (x : (⟨1, ![R]⟩ : Shape).Idx → α) (n : Fin R) (z : Fin 1) :
    broadcastInDim ⟨2, ![R, 1]⟩ ![0] h1 x (ix2 n z) = x (ix1 n) := by
  refine broadcastInDim_apply ![0] h1 x (ix2 n z) (ix1 n) fun a => ?_
  match a with
  | ⟨0, _⟩ =>
    show n.val = if R = 1 then 0 else n.val
    split
    · have := n.isLt; omega
    · rfl

/-- A vector made a row and spread over R rows reads, at (n, k), the vector at k. -/
theorem row_spread_apply {R K : Nat} (h3 : (⟨1, ![K]⟩ : Shape).BroadcastsInDim ⟨2, ![1, K]⟩ (![1] : Fin 1 → Fin 2))
    (h4 : (⟨2, ![1, K]⟩ : Shape).BroadcastsInDim ⟨2, ![R, K]⟩ (![0, 1] : Fin 2 → Fin 2))
    (c : (⟨1, ![K]⟩ : Shape).Idx → α) (n : Fin R) (k : Fin K) :
    broadcastInDim ⟨2, ![R, K]⟩ ![0, 1] h4 (broadcastInDim ⟨2, ![1, K]⟩ ![1] h3 c) (ix2 n k) = c (ix1 k) := by
  have e2 : broadcastInDim ⟨2, ![R, K]⟩ ![0, 1] h4 (broadcastInDim ⟨2, ![1, K]⟩ ![1] h3 c) (ix2 n k)
      = broadcastInDim ⟨2, ![1, K]⟩ ![1] h3 c (ix2 (0 : Fin 1) k) := by
    refine broadcastInDim_apply ![0, 1] h4 _ (ix2 n k) (ix2 (0 : Fin 1) k) fun a => ?_
    match a with
    | ⟨0, _⟩ => rfl
    | ⟨1, _⟩ =>
      show k.val = if K = 1 then 0 else k.val
      split
      · have := k.isLt; omega
      · rfl
  have e1 : broadcastInDim ⟨2, ![1, K]⟩ ![1] h3 c (ix2 (0 : Fin 1) k) = c (ix1 k) := by
    refine broadcastInDim_apply ![1] h3 c (ix2 (0 : Fin 1) k) (ix1 k) fun a => ?_
    match a with
    | ⟨0, _⟩ =>
      show k.val = if K = 1 then 0 else k.val
      split
      · have := k.isLt; omega
      · rfl
  exact e2.trans e1

end entries

/-- The plain product of an m×k by a k×n block at entry (a, b): the sum over c of A[a, c] · B[c, b]. -/
theorem dot_apply {m k n : Nat} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (BlockOps.rowCol w) none A B (ix2 a b) = ∑ c : Fin k, A (ix2 a c) * B (ix2 c b) := by
  show FloatOps.dotGeneral (BlockOps.rowCol w) none .single A B (ix2 a b) = _
  rw [Ideal.dotGeneral_apply, ← Equiv.sum_comp (contrEquiv1 (BlockOps.rowCol w) k rfl rfl).symm]
  refine Finset.sum_congr rfl fun c _ => ?_
  rw [BlockOps.rowCol_lhsIdx, BlockOps.rowCol_rhsIdx]

/-! ## The integer side: the bucket and its wrap -/

/-- The signed test against zero, the add of 6 and the choice between them are the wrap of a negative word by 6. -/
theorem wrap_select (i : BitVec 32) :
    Scalar.select (IntOp.cmpi .slt i 0#32) (IntOp.addi i 6#32) i
      = if i.toInt < 0 then i + BitVec.ofNat 32 6 else i := by
  have h0 : (0#32 : BitVec 32).toInt = 0 := by decide
  have key : (BitVec.ofBool (i.slt 0#32) = 1#1) ↔ i.toInt < 0 := by
    have hs := @BitVec.slt_iff_toInt_lt 32 i 0#32
    rw [h0] at hs
    rw [← hs]
    cases i.slt 0#32 <;> decide
  show (if BitVec.ofBool (i.slt 0#32) = 1 then i + 6#32 else i) = _
  exact if_congr key rfl rfl

/-- The bucket of edge n: the distance clipped between the two carried words, truncated. -/
theorem bucket_apply (dist : FVec Ideal S400000 .f32) (n : Fin 400000) :
    Terms.bucket (F := Ideal) dist (ix1 n) = Cert.Spec.bondIdx (dist (ix1 n)) := by
  unfold Terms.bucket Cert.Spec.bondIdx
  show Ideal.fptosi 32 (min (broadcastInDim S400000 ![] bcast_S_S400000 (constant (F := Ideal) S_ .f32 0x409FFFFE#32) (ix1 n))
      (max (broadcastInDim S400000 ![] bcast_S_S400000 (constant (F := Ideal) S_ .f32 0x3F800000#32) (ix1 n)) (dist (ix1 n)))) = _
  rw [scalar_spread_apply, scalar_spread_apply]
  rfl

/-- The start index of edge n: its bucket, wrapped by 6 when negative. -/
theorem starts_apply (dist : FVec Ideal S400000 .f32) (n : Fin 400000) (z : Fin 1) :
    Terms.bucketStarts (F := Ideal) dist (ix2 n z)
      = if (Cert.Spec.bondIdx (dist (ix1 n))).toInt < 0 then Cert.Spec.bondIdx (dist (ix1 n)) + BitVec.ofNat 32 6
        else Cert.Spec.bondIdx (dist (ix1 n)) := by
  unfold Terms.bucketStarts
  rw [col_apply]
  show Scalar.select
      (IntOp.cmpi .slt (Terms.bucket (F := Ideal) dist (ix1 n))
        (broadcastInDim S400000 ![] bcast_S_S400000 (constantI S_ 32 0#32) (ix1 n)))
      (IntOp.addi (Terms.bucket (F := Ideal) dist (ix1 n))
        (broadcastInDim S400000 ![] bcast_S_S400000 (constantI S_ 32 6#32) (ix1 n)))
      (Terms.bucket (F := Ideal) dist (ix1 n)) = _
  rw [scalar_spread_apply, scalar_spread_apply, bucket_apply]
  exact wrap_select _

/-! ## The gathered rows through the matrix, plus the bias -/

/-- Rows gathered from a six-row table by a column of start indices, times a matrix, plus a bias row: at (n, c) the sum
    over e of table[row n, e] · W[e, c], plus b[c], where row n is the start index read signed and clamped. -/
theorem gather_dot_eq
    (w : DotDims.WF ⟨2, ![400000, 128]⟩ ⟨2, ![128, 256]⟩ ⟨2, ![400000, 256]⟩ [1] [0] [0] [1] [] [])
    (wf : GatherDims.WF ⟨2, ![6, 128]⟩ ⟨2, ![400000, 1]⟩ ⟨2, ![400000, 128]⟩ [1] [0] [] [0] [] 1 ![1, 128])
    (h5 : (⟨1, ![256]⟩ : Shape).BroadcastsInDim ⟨2, ![1, 256]⟩ (![1] : Fin 1 → Fin 2))
    (h6 : (⟨2, ![1, 256]⟩ : Shape).BroadcastsInDim ⟨2, ![400000, 256]⟩ (![0, 1] : Fin 2 → Fin 2))
    (starts : IVec ⟨2, ![400000, 1]⟩ 32) (tab : FVec Ideal ⟨2, ![6, 128]⟩ .f32) (W : FVec Ideal ⟨2, ![128, 256]⟩ .f32)
    (b : FVec Ideal ⟨1, ![256]⟩ .f32) (row : Fin 400000 → Fin 6)
    (hrow : ∀ n : Fin 400000, min (starts (ix2 n (⟨0, Nat.one_pos⟩ : Fin 1))).toInt.toNat (6 - 1) = (row n).val) :
    addf (Host.dotGeneral (BlockOps.rowCol w) none (Host.gather (Cert.LibGather.rowGather 6 400000 128 wf) tab starts) W)
      (broadcastInDim ⟨2, ![400000, 256]⟩ ![0, 1] h6 (broadcastInDim ⟨2, ![1, 256]⟩ ![1] h5 b))
      = Cert.Spec.bondOut row (fun k e => tab (ix2 k e)) (fun a c => W (ix2 a c)) (fun e => b (ix1 e)) := by
  funext j
  obtain ⟨n, c, rfl⟩ : ∃ (n : Fin 400000) (c : Fin 256), j = ix2 n c := ⟨j 0, j 1, eq_ix2 j⟩
  rw [addf_apply, dot_apply, row_spread_apply]
  unfold Cert.Spec.bondOut
  refine congrArg (· + b (ix1 c)) (Finset.sum_congr rfl fun e _ => ?_)
  refine congrArg (· * W (ix2 e c)) ?_
  rw [Cert.LibGather.gather_row_apply (by decide)]
  exact congrArg (fun r => tab (ix2 r e)) (Fin.ext (hrow n))

theorem bond_eq (dist : FVec Ideal S400000 .f32) (tab : FVec Ideal S6x128 .f32) (W : FVec Ideal S128x256 .f32) (b : FVec Ideal S256 .f32) :
    Terms.bond (F := Ideal) dist tab W b
      = Cert.Spec.bondOut
          (fun n => Cert.Spec.wrapRow 6 (by decide) (Cert.Spec.bondIdx (dist (ix1 n))))
          (fun k e => tab (ix2 k e))
          (fun a c => W (ix2 a c))
          (fun e => b (ix1 e)) := by
  refine gather_dot_eq dot_S400000x128_S128x256_S400000x256_1_0_0_1_n_n_wf gather_S6x128_S400000x1_S400000x128_1_0_n_n_0_1_1128_wf
    bcast_S256_S1x256_1 bcast_S1x256_S400000x256_0_1 (Terms.bucketStarts (F := Ideal) dist) tab W b _ fun n => ?_
  rw [starts_apply]
  rfl

end Cert.ReferenceIdeal.ReadBond

end
-- ==== Proof.RefRbf.lean ====
/-
  The reference's two float edge embeddings read at an index: each term of the argument arrays is `Spec.rbfOut`
  of them over its own centre table (fifty centres for the distance, thirty-two for the angle).
-/
import proofs.«405733_j12730283066009_3_alg».proof.Proof.RefTerms
import proofs.«405733_j12730283066009_3_alg».proof.Proof.Spec
import proofs.«405733_j12730283066009_3_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.ReadRbf

open Cert.ReferenceIdeal Cert.ReferenceIdeal.Gen Idealize.ShloMosaic Idealize.ShloMosaic.ValueIdx

/-! ## The layout operations of the stage, each read at an entry (any row count R, any centre count K) -/

section entries

variable {α : Type}

/-- A scalar spread over any shape reads, everywhere, the scalar. -/
theorem scalar_spread_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 (fun a => a.elim0)

/-- A vector made a column and spread over K columns reads, at (n, k), the vector at n. -/
theorem col_spread_apply {R K : Nat} (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2))
    (x : (⟨1, ![R]⟩ : Shape).Idx → α) (n : Fin R) (k : Fin K) :
    broadcastInDim ⟨2, ![R, K]⟩ ![0, 1] h2 (broadcastInDim ⟨2, ![R, 1]⟩ ![0] h1 x) (ix2 n k) = x (ix1 n) := by
  have e2 : broadcastInDim ⟨2, ![R, K]⟩ ![0, 1] h2 (broadcastInDim ⟨2, ![R, 1]⟩ ![0] h1 x) (ix2 n k)
      = broadcastInDim ⟨2, ![R, 1]⟩ ![0] h1 x (ix2 n (0 : Fin 1)) := by
    refine broadcastInDim_apply ![0, 1] h2 _ (ix2 n k) (ix2 n (0 : Fin 1)) fun a => ?_
    match a with
    | ⟨0, _⟩ =>
      show n.val = if R = 1 then 0 else n.val
      split
      · have := n.isLt; omega
      · rfl
    | ⟨1, _⟩ => rfl
  have e1 : broadcastInDim ⟨2, ![R, 1]⟩ ![0] h1 x (ix2 n (0 : Fin 1)) = x (ix1 n) := by
    refine broadcastInDim_apply ![0] h1 x (ix2 n (0 : Fin 1)) (ix1 n) fun a => ?_
    match a with
    | ⟨0, _⟩ =>
      show n.val = if R = 1 then 0 else n.val
      split
      · have := n.isLt; omega
      · rfl
  exact e2.trans e1

/-- A vector made a row and spread over R rows reads, at (n, k), the vector at k. -/
theorem row_spread_apply {R K : Nat} (h3 : (⟨1, ![K]⟩ : Shape).BroadcastsInDim ⟨2, ![1, K]⟩ (![1] : Fin 1 → Fin 2))
    (h4 : (⟨2, ![1, K]⟩ : Shape).BroadcastsInDim ⟨2, ![R, K]⟩ (![0, 1] : Fin 2 → Fin 2))
    (c : (⟨1, ![K]⟩ : Shape).Idx → α) (n : Fin R) (k : Fin K) :
    broadcastInDim ⟨2, ![R, K]⟩ ![0, 1] h4 (broadcastInDim ⟨2, ![1, K]⟩ ![1] h3 c) (ix2 n k) = c (ix1 k) := by
  have e2 : broadcastInDim ⟨2, ![R, K]⟩ ![0, 1] h4 (broadcastInDim ⟨2, ![1, K]⟩ ![1] h3 c) (ix2 n k)
      = broadcastInDim ⟨2, ![1, K]⟩ ![1] h3 c (ix2 (0 : Fin 1) k) := by
    refine broadcastInDim_apply ![0, 1] h4 _ (ix2 n k) (ix2 (0 : Fin 1) k) fun a => ?_
    match a with
    | ⟨0, _⟩ => rfl
    | ⟨1, _⟩ =>
      show k.val = if K = 1 then 0 else k.val
      split
      · have := k.isLt; omega
      · rfl
  have e1 : broadcastInDim ⟨2, ![1, K]⟩ ![1] h3 c (ix2 (0 : Fin 1) k) = c (ix1 k) := by
    refine broadcastInDim_apply ![1] h3 c (ix2 (0 : Fin 1) k) (ix1 k) fun a => ?_
    match a with
    | ⟨0, _⟩ =>
      show k.val = if K = 1 then 0 else k.val
      split
      · have := k.isLt; omega
      · rfl
  exact e2.trans e1

end entries

/-- The plain product of an m×k by a k×n block at entry (a, b): the sum over c of A[a, c] · B[c, b]. -/
theorem dot_apply {m k n : Nat} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (BlockOps.rowCol w) none A B (ix2 a b) = ∑ c : Fin k, A (ix2 a c) * B (ix2 c b) := by
  show FloatOps.dotGeneral (BlockOps.rowCol w) none .single A B (ix2 a b) = _
  rw [Ideal.dotGeneral_apply, ← Equiv.sum_comp (contrEquiv1 (BlockOps.rowCol w) k rfl rfl).symm]
  refine Finset.sum_congr rfl fun c _ => ?_
  rw [BlockOps.rowCol_lhsIdx, BlockOps.rowCol_rhsIdx]

/-- The radial features of R scalars against K centres, at (n, k): `exp (-10 * (x n - c k)^2)`. -/
theorem rbf_stage_apply {R K : Nat}
    (h0 : (⟨0, ![]⟩ : Shape).BroadcastsInDim ⟨2, ![R, K]⟩ (![] : Fin 0 → Fin 2))
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2))
    (h3 : (⟨1, ![K]⟩ : Shape).BroadcastsInDim ⟨2, ![1, K]⟩ (![1] : Fin 1 → Fin 2))
    (h4 : (⟨2, ![1, K]⟩ : Shape).BroadcastsInDim ⟨2, ![R, K]⟩ (![0, 1] : Fin 2 → Fin 2))
    (x : FVec Ideal ⟨1, ![R]⟩ .f32) (cen : FVec Ideal ⟨1, ![K]⟩ .f32) (n : Fin R) (k : Fin K) :
    Host.exp (mulf (broadcastInDim ⟨2, ![R, K]⟩ ![] h0 (constant (F := Ideal) ⟨0, ![]⟩ .f32 0xC1200000#32))
      (mulf
        (subf (broadcastInDim ⟨2, ![R, K]⟩ ![0, 1] h2 (broadcastInDim ⟨2, ![R, 1]⟩ ![0] h1 x))
          (broadcastInDim ⟨2, ![R, K]⟩ ![0, 1] h4 (broadcastInDim ⟨2, ![1, K]⟩ ![1] h3 cen)))
        (subf (broadcastInDim ⟨2, ![R, K]⟩ ![0, 1] h2 (broadcastInDim ⟨2, ![R, 1]⟩ ![0] h1 x))
          (broadcastInDim ⟨2, ![R, K]⟩ ![0, 1] h4 (broadcastInDim ⟨2, ![1, K]⟩ ![1] h3 cen))))) (ix2 n k)
      = Cert.Spec.rbf (x (ix1 n)) (cen (ix1 k)) := by
  show Ideal.exp (broadcastInDim ⟨2, ![R, K]⟩ ![] h0 (constant (F := Ideal) ⟨0, ![]⟩ .f32 0xC1200000#32) (ix2 n k)
      * ((broadcastInDim ⟨2, ![R, K]⟩ ![0, 1] h2 (broadcastInDim ⟨2, ![R, 1]⟩ ![0] h1 x) (ix2 n k)
            - broadcastInDim ⟨2, ![R, K]⟩ ![0, 1] h4 (broadcastInDim ⟨2, ![1, K]⟩ ![1] h3 cen) (ix2 n k))
        * (broadcastInDim ⟨2, ![R, K]⟩ ![0, 1] h2 (broadcastInDim ⟨2, ![R, 1]⟩ ![0] h1 x) (ix2 n k)
            - broadcastInDim ⟨2, ![R, K]⟩ ![0, 1] h4 (broadcastInDim ⟨2, ![1, K]⟩ ![1] h3 cen) (ix2 n k)))) = _
  rw [scalar_spread_apply, col_spread_apply, row_spread_apply]
  rfl

/-- The whole float edge embedding over K centres, as a function of the index. -/
theorem rbfOut_eq {K : Nat}
    (w : DotDims.WF ⟨2, ![400000, K]⟩ ⟨2, ![K, 256]⟩ ⟨2, ![400000, 256]⟩ [1] [0] [0] [1] [] [])
    (h0 : (⟨0, ![]⟩ : Shape).BroadcastsInDim ⟨2, ![400000, K]⟩ (![] : Fin 0 → Fin 2))
    (h1 : (⟨1, ![400000]⟩ : Shape).BroadcastsInDim ⟨2, ![400000, 1]⟩ (![0] : Fin 1 → Fin 2))
    (h2 : (⟨2, ![400000, 1]⟩ : Shape).BroadcastsInDim ⟨2, ![400000, K]⟩ (![0, 1] : Fin 2 → Fin 2))
    (h3 : (⟨1, ![K]⟩ : Shape).BroadcastsInDim ⟨2, ![1, K]⟩ (![1] : Fin 1 → Fin 2))
    (h4 : (⟨2, ![1, K]⟩ : Shape).BroadcastsInDim ⟨2, ![400000, K]⟩ (![0, 1] : Fin 2 → Fin 2))
    (h5 : (⟨1, ![256]⟩ : Shape).BroadcastsInDim ⟨2, ![1, 256]⟩ (![1] : Fin 1 → Fin 2))
    (h6 : (⟨2, ![1, 256]⟩ : Shape).BroadcastsInDim ⟨2, ![400000, 256]⟩ (![0, 1] : Fin 2 → Fin 2))
    (x : FVec Ideal ⟨1, ![400000]⟩ .f32) (cen : FVec Ideal ⟨1, ![K]⟩ .f32) (W : FVec Ideal ⟨2, ![K, 256]⟩ .f32)
    (b : FVec Ideal ⟨1, ![256]⟩ .f32) :
    addf (Host.dotGeneral (BlockOps.rowCol w) none
        (Host.exp (mulf (broadcastInDim ⟨2, ![400000, K]⟩ ![] h0 (constant (F := Ideal) ⟨0, ![]⟩ .f32 0xC1200000#32))
          (mulf
            (subf (broadcastInDim ⟨2, ![400000, K]⟩ ![0, 1] h2 (broadcastInDim ⟨2, ![400000, 1]⟩ ![0] h1 x))
              (broadcastInDim ⟨2, ![400000, K]⟩ ![0, 1] h4 (broadcastInDim ⟨2, ![1, K]⟩ ![1] h3 cen)))
            (subf (broadcastInDim ⟨2, ![400000, K]⟩ ![0, 1] h2 (broadcastInDim ⟨2, ![400000, 1]⟩ ![0] h1 x))
              (broadcastInDim ⟨2, ![400000, K]⟩ ![0, 1] h4 (broadcastInDim ⟨2, ![1, K]⟩ ![1] h3 cen)))))) W)
      (broadcastInDim ⟨2, ![400000, 256]⟩ ![0, 1] h6 (broadcastInDim ⟨2, ![1, 256]⟩ ![1] h5 b))
      = Cert.Spec.rbfOut (K := K) (fun k => cen (ix1 k)) (fun n => x (ix1 n)) (fun k e => W (ix2 k e)) (fun e => b (ix1 e)) := by
  funext j
  obtain ⟨n, c, rfl⟩ : ∃ (n : Fin 400000) (c : Fin 256), j = ix2 n c := ⟨j 0, j 1, eq_ix2 j⟩
  rw [addf_apply, dot_apply, row_spread_apply]
  unfold Cert.Spec.rbfOut
  refine congrArg (· + b (ix1 c)) (Finset.sum_congr rfl fun k _ => ?_)
  rw [rbf_stage_apply]

/-! ## The two embeddings -/

theorem bondF_eq (dist : FVec Ideal S400000 .f32) (W : FVec Ideal S50x256 .f32) (b : FVec Ideal S256 .f32) :
    Terms.bondF (F := Ideal) dist W b
      = Cert.Spec.rbfOut (K := 50) (fun k => Ideal.ofBits .f32 (lit1 k)) (fun n => dist (ix1 n)) (fun k e => W (ix2 k e)) (fun e => b (ix1 e)) := by
  have hc : (fun k : Fin 50 => Ideal.ofBits .f32 (lit1 k)) = fun k => Terms.cen50 (F := Ideal) (ix1 k) := by
    funext k
    exact congrArg (fun i => Ideal.ofBits .f32 (lit1 i)) (Fin.ext (Shape.rowMajor_val_one (ix1 k))).symm
  rw [hc]
  exact rbfOut_eq dot_S400000x50_S50x256_S400000x256_1_0_0_1_n_n_wf bcast_S_S400000x50 bcast_S400000_S400000x1_0
    bcast_S400000x1_S400000x50_0_1 bcast_S50_S1x50_1 bcast_S1x50_S400000x50_0_1 bcast_S256_S1x256_1 bcast_S1x256_S400000x256_0_1
    dist Terms.cen50 W b

theorem angle_eq (ang : FVec Ideal S400000 .f32) (W : FVec Ideal S32x256 .f32) (b : FVec Ideal S256 .f32) :
    Terms.angle (F := Ideal) ang W b
      = Cert.Spec.rbfOut (K := 32) (fun k => Ideal.ofBits .f32 (lit2 k)) (fun n => ang (ix1 n)) (fun k e => W (ix2 k e)) (fun e => b (ix1 e)) := by
  have hc : (fun k : Fin 32 => Ideal.ofBits .f32 (lit2 k)) = fun k => Terms.cen32 (F := Ideal) (ix1 k) := by
    funext k
    exact congrArg (fun i => Ideal.ofBits .f32 (lit2 i)) (Fin.ext (Shape.rowMajor_val_one (ix1 k))).symm
  rw [hc]
  exact rbfOut_eq dot_S400000x32_S32x256_S400000x256_1_0_0_1_n_n_wf bcast_S_S400000x32 bcast_S400000_S400000x1_0
    bcast_S400000x1_S400000x32_0_1 bcast_S32_S1x32_1 bcast_S1x32_S400000x32_0_1 bcast_S256_S1x256_1 bcast_S1x256_S400000x256_0_1
    ang Terms.cen32 W b

end Cert.ReferenceIdeal.ReadRbf

end
-- ==== Proof.PreRange.lean ====
/-
  What the precondition says of the categorical ids: the printed predicate is a conjunction, its last two conjuncts
  "every id is at least 0" and "every id is below 32" (each an all-reduce of a signed word compare), so where the
  predicate is all ones every id lies in [0, 31].
-/
import proofs.«405733_j12730283066009_3_alg».proof.Pre_finite_inputs
import proofs.«405733_j12730283066009_3_alg».proof.Proof.Gen.Pre_finite_inputs
import Idealize.ShloMosaic.Lib.ReduceAll
import Idealize.ShloMosaic.Lib.ValueIdx
import Idealize.ShloMosaic.Lib.StableHlo.Predicate

noncomputable section

namespace Cert.PreRange

open Cert.Pre_finite_inputs Cert.Pre_finite_inputs.Gen Idealize.ShloMosaic

/-- A rank-0 shape has one index. -/
instance : Subsingleton S_.Idx := ⟨fun a b => funext fun d => d.elim0⟩

theorem cat_range (a0 : IVec S200000x5x2 32) (a1 : FVec Ideal S200000x2 .f32) (a2 : FVec Ideal S400000 .f32) (a3 : FVec Ideal S400000 .f32) (a4 : FVec Ideal S5x32x128 .f32) (a5 : FVec Ideal S20x128 .f32) (a6 : FVec Ideal S128 .f32) (a7 : FVec Ideal S256x256 .f32) (a8 : FVec Ideal S256 .f32) (a9 : FVec Ideal S6x128 .f32) (a10 : FVec Ideal S128x256 .f32) (a11 : FVec Ideal S256 .f32) (a12 : FVec Ideal S50x256 .f32) (a13 : FVec Ideal S256 .f32) (a14 : FVec Ideal S32x256 .f32) (a15 : FVec Ideal S256 .f32)
    (h : fn (F := Ideal) a0 a1 a2 a3 a4 a5 a6 a7 a8 a9 a10 a11 a12 a13 a14 a15 = fun _ => 1#1) :
    ∀ i : S200000x5x2.Idx, 0 ≤ (a0 i).toInt ∧ (a0 i).toInt < 32 := by
  intro i
  have h0 := congrFun h ValueIdx.ix0
  dsimp only [fn, fn_part1, fn_part2, fn_part3, fn_part4] at h0
  -- the outermost conjunction: (everything before) and (every id below 32)
  obtain ⟨h1, hlt⟩ := IntOp.andi_eq_one.1 h0
  -- the next one in: (everything before) and (every id at least 0)
  obtain ⟨-, hge⟩ := IntOp.andi_eq_one.1 h1
  -- an all-reduce by "and" that came out 1 met a 1 at every index
  have elt := Host.reduce_andi_all _ _ _ _ _ hlt i
  have ege := Host.reduce_andi_all _ _ _ _ _ hge i
  -- a scalar broadcast reads the scalar everywhere: the compared words are the literals 32 and 0
  have clt : (a0 i).toInt < (32#32 : BitVec 32).toInt := IntOp.cmpi_slt.1 elt
  have cge : (0#32 : BitVec 32).toInt ≤ (a0 i).toInt := IntOp.cmpi_sge.1 ege
  have e32 : (32#32 : BitVec 32).toInt = 32 := by decide
  have e0 : (0#32 : BitVec 32).toInt = 0 := by decide
  omega

end Cert.PreRange

end
-- ==== Proof.lean ====
/-
  The certificate of the pair-feature embedding: four outputs, each one pallas_call of the kernel against a few
  host operations of the reference.

  * atom_h [200000, 256]: per pair atom the sum over five categorical tables of the row its id selects, plus the
    partial charge's twenty radial features exp (-10 (x - c)^2) through a [20, 128] matrix and bias; the two atoms'
    128 columns side by side go through a [256, 256] projection and bias. The kernel selects a table row by a
    one-hot product with the id CLIPPED into [0, 31]; the reference by a gather whose index is WRAPPED by 32 when
    negative and then clamped. Under the precondition's added evident-domain conjunct 0 <= id < 32 both select
    row id. A one-hot product needs only 1 * x = x and 0 * x = 0, which hold for every extended real, so no
    finiteness is used.
  * bond_h [400000, 256]: the distance clipped into [1, 4.99999905] and truncated is a bucket in [1, 4] whatever
    the distance, so clipping it into [0, 5] and wrapping it by 6 both leave it alone; its table row goes through a
    [128, 256] projection and bias.
  * bond_float_h, angle_h [400000, 256]: fifty (thirty-two) radial features of the scalar through a matrix and bias:
    the same formula on both sides, a product into a zero accumulator against a host contraction.

  The kernel's values are read off its frame run: the launch over the four regions called again with every
  buffer's final contents kept (KernelRun), each result walked back to its region's value (KernelEntry, Region0-3).
  The reference's run is read back by hand (RefRun) and its four terms read at an index (RefAtom, RefBond, RefRbf).
  The idealization rewrote nothing, so `preserves` is trivial.
-/
import proofs.«405733_j12730283066009_3_alg».proof.Defs
import proofs.«405733_j12730283066009_3_alg».proof.Proof.Gen.Kernel
import proofs.«405733_j12730283066009_3_alg».proof.Proof.Gen.Kernel.Frame
import proofs.«405733_j12730283066009_3_alg».proof.Proof.Gen.KernelIdeal
import proofs.«405733_j12730283066009_3_alg».proof.Proof.Gen.KernelIdeal.Frame
import proofs.«405733_j12730283066009_3_alg».proof.Proof.Gen.ReferenceIdeal
import proofs.«405733_j12730283066009_3_alg».proof.Proof.Gen.Pre_finite_inputs
import proofs.«405733_j12730283066009_3_alg».proof.Proof.KernelRun
import proofs.«405733_j12730283066009_3_alg».proof.Proof.KernelValue
import proofs.«405733_j12730283066009_3_alg».proof.Proof.RefRun
import proofs.«405733_j12730283066009_3_alg».proof.Proof.RefAtom
import proofs.«405733_j12730283066009_3_alg».proof.Proof.RefBond
import proofs.«405733_j12730283066009_3_alg».proof.Proof.RefRbf
import proofs.«405733_j12730283066009_3_alg».proof.Proof.PreRange
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The two programs carry the same three tables of centres. -/
theorem lit0_eq : Cert.KernelIdeal.lit0 = Cert.ReferenceIdeal.lit0 := by funext k; fin_cases k <;> rfl
theorem lit1_eq : Cert.KernelIdeal.lit1 = Cert.ReferenceIdeal.lit1 := by funext k; fin_cases k <;> rfl
theorem lit2_eq : Cert.KernelIdeal.lit2 = Cert.ReferenceIdeal.lit2 := by funext k; fin_cases k <;> rfl

theorem frame_k : Cert.frame_Kernel := fun m ρ _ => Cert.Kernel.Gen.frame m ρ
theorem frame_ki : Cert.frame_KernelIdeal := fun m ρ _ => Cert.KernelIdeal.Gen.frame m ρ

/-- The reference's frame: its run with the results dropped; no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Run.kept0 _),
     (h c Cert.ReferenceIdeal.main_arg1).trans (Cert.ReferenceIdeal.Run.kept1 _),
     (h c Cert.ReferenceIdeal.main_arg2).trans (Cert.ReferenceIdeal.Run.kept2 _),
     (h c Cert.ReferenceIdeal.main_arg3).trans (Cert.ReferenceIdeal.Run.kept3 _),
     (h c Cert.ReferenceIdeal.main_arg4).trans (Cert.ReferenceIdeal.Run.kept4 _),
     (h c Cert.ReferenceIdeal.main_arg5).trans (Cert.ReferenceIdeal.Run.kept5 _),
     (h c Cert.ReferenceIdeal.main_arg6).trans (Cert.ReferenceIdeal.Run.kept6 _),
     (h c Cert.ReferenceIdeal.main_arg7).trans (Cert.ReferenceIdeal.Run.kept7 _),
     (h c Cert.ReferenceIdeal.main_arg8).trans (Cert.ReferenceIdeal.Run.kept8 _),
     (h c Cert.ReferenceIdeal.main_arg9).trans (Cert.ReferenceIdeal.Run.kept9 _),
     (h c Cert.ReferenceIdeal.main_arg10).trans (Cert.ReferenceIdeal.Run.kept10 _),
     (h c Cert.ReferenceIdeal.main_arg11).trans (Cert.ReferenceIdeal.Run.kept11 _),
     (h c Cert.ReferenceIdeal.main_arg12).trans (Cert.ReferenceIdeal.Run.kept12 _),
     (h c Cert.ReferenceIdeal.main_arg13).trans (Cert.ReferenceIdeal.Run.kept13 _),
     (h c Cert.ReferenceIdeal.main_arg14).trans (Cert.ReferenceIdeal.Run.kept14 _),
     (h c Cert.ReferenceIdeal.main_arg15).trans (Cert.ReferenceIdeal.Run.kept15 _)⟩)
    (Cert.ReferenceIdeal.Run.run_main (F := Ideal) m ρ)

theorem preserves : Cert.preserves_Kernel_KernelIdeal := trivial

/-- Both idealized programs, run from memories that agree on the arguments, end with equal results: the kernel's
    four arrays are the four result functions of its arguments, and so are the reference's of its own. -/
theorem algebraic : Cert.algebraic_KernelIdeal_ReferenceIdeal := by
  intro m ρ m' ρ' hpre hagree
  have hr : ∀ (c : Dev Cert.KernelIdeal.nD) i, 0 ≤ (m ((c.tc : Thread Cert.KernelIdeal.nD Cert.KernelIdeal.τ).loc Cert.KernelIdeal.main_arg0) i : BitVec 32).toInt
      ∧ (m ((c.tc : Thread Cert.KernelIdeal.nD Cert.KernelIdeal.τ).loc Cert.KernelIdeal.main_arg0) i : BitVec 32).toInt < 32 :=
    fun c => Cert.PreRange.cat_range _ _ _ _ _ _ _ _ _ _ _ _ _ _ _ _ (hpre c)
  refine ⟨fun c => Cert.KernelIdeal.Gen.W8 m ρ c (Proc.devRef .tc Cert.KernelIdeal.main_v6), fun c => Cert.KernelIdeal.Gen.W8 m ρ c (Proc.devRef .tc Cert.KernelIdeal.main_v9),
    fun c => Cert.KernelIdeal.Gen.W8 m ρ c (Proc.devRef .tc Cert.KernelIdeal.main_v13), fun c => Cert.KernelIdeal.Gen.W8 m ρ c (Proc.devRef .tc Cert.KernelIdeal.main_v17), ?_, ?_⟩
  · refine (θ_run Cert.KernelIdeal.defs _ _).mono (fun r h c =>
      ⟨h c Cert.KernelIdeal.main_v6 (by decide), h c Cert.KernelIdeal.main_v9 (by decide), h c Cert.KernelIdeal.main_v13 (by decide), h c Cert.KernelIdeal.main_v17 (by decide),
       (h c Cert.KernelIdeal.main_arg0 (by decide)).trans (Cert.KernelIdeal.Gen.W8_main_arg0 m ρ c),
       (h c Cert.KernelIdeal.main_arg1 (by decide)).trans (Cert.KernelIdeal.Gen.W8_main_arg1 m ρ c),
       (h c Cert.KernelIdeal.main_arg2 (by decide)).trans (Cert.KernelIdeal.Gen.W8_main_arg2 m ρ c),
       (h c Cert.KernelIdeal.main_arg3 (by decide)).trans (Cert.KernelIdeal.Gen.W8_main_arg3 m ρ c),
       (h c Cert.KernelIdeal.main_arg4 (by decide)).trans (Cert.KernelIdeal.Gen.W8_main_arg4 m ρ c),
       (h c Cert.KernelIdeal.main_arg5 (by decide)).trans (Cert.KernelIdeal.Gen.W8_main_arg5 m ρ c),
       (h c Cert.KernelIdeal.main_arg6 (by decide)).trans (Cert.KernelIdeal.Gen.W8_main_arg6 m ρ c),
       (h c Cert.KernelIdeal.main_arg7 (by decide)).trans (Cert.KernelIdeal.Gen.W8_main_arg7 m ρ c),
       (h c Cert.KernelIdeal.main_arg8 (by decide)).trans (Cert.KernelIdeal.Gen.W8_main_arg8 m ρ c),
       (h c Cert.KernelIdeal.main_arg9 (by decide)).trans (Cert.KernelIdeal.Gen.W8_main_arg9 m ρ c),
       (h c Cert.KernelIdeal.main_arg10 (by decide)).trans (Cert.KernelIdeal.Gen.W8_main_arg10 m ρ c),
       (h c Cert.KernelIdeal.main_arg11 (by decide)).trans (Cert.KernelIdeal.Gen.W8_main_arg11 m ρ c),
       (h c Cert.KernelIdeal.main_arg12 (by decide)).trans (Cert.KernelIdeal.Gen.W8_main_arg12 m ρ c),
       (h c Cert.KernelIdeal.main_arg13 (by decide)).trans (Cert.KernelIdeal.Gen.W8_main_arg13 m ρ c),
       (h c Cert.KernelIdeal.main_arg14 (by decide)).trans (Cert.KernelIdeal.Gen.W8_main_arg14 m ρ c),
       (h c Cert.KernelIdeal.main_arg15 (by decide)).trans (Cert.KernelIdeal.Gen.W8_main_arg15 m ρ c)⟩)
      (Cert.KernelIdeal.RunAll.run_full (F := Ideal) m ρ)
  · refine (θ_run Cert.ReferenceIdeal.defs _ _).mono (fun r h c =>
      ⟨(h c Cert.ReferenceIdeal.main_v39).trans ?_, (h c Cert.ReferenceIdeal.main_v52).trans ?_, (h c Cert.ReferenceIdeal.main_v65).trans ?_, (h c Cert.ReferenceIdeal.main_v78).trans ?_,
       (h c Cert.ReferenceIdeal.main_arg0).trans (Cert.ReferenceIdeal.Run.kept0 _),
       (h c Cert.ReferenceIdeal.main_arg1).trans (Cert.ReferenceIdeal.Run.kept1 _),
       (h c Cert.ReferenceIdeal.main_arg2).trans (Cert.ReferenceIdeal.Run.kept2 _),
       (h c Cert.ReferenceIdeal.main_arg3).trans (Cert.ReferenceIdeal.Run.kept3 _),
       (h c Cert.ReferenceIdeal.main_arg4).trans (Cert.ReferenceIdeal.Run.kept4 _),
       (h c Cert.ReferenceIdeal.main_arg5).trans (Cert.ReferenceIdeal.Run.kept5 _),
       (h c Cert.ReferenceIdeal.main_arg6).trans (Cert.ReferenceIdeal.Run.kept6 _),
       (h c Cert.ReferenceIdeal.main_arg7).trans (Cert.ReferenceIdeal.Run.kept7 _),
       (h c Cert.ReferenceIdeal.main_arg8).trans (Cert.ReferenceIdeal.Run.kept8 _),
       (h c Cert.ReferenceIdeal.main_arg9).trans (Cert.ReferenceIdeal.Run.kept9 _),
       (h c Cert.ReferenceIdeal.main_arg10).trans (Cert.ReferenceIdeal.Run.kept10 _),
       (h c Cert.ReferenceIdeal.main_arg11).trans (Cert.ReferenceIdeal.Run.kept11 _),
       (h c Cert.ReferenceIdeal.main_arg12).trans (Cert.ReferenceIdeal.Run.kept12 _),
       (h c Cert.ReferenceIdeal.main_arg13).trans (Cert.ReferenceIdeal.Run.kept13 _),
       (h c Cert.ReferenceIdeal.main_arg14).trans (Cert.ReferenceIdeal.Run.kept14 _),
       (h c Cert.ReferenceIdeal.main_arg15).trans (Cert.ReferenceIdeal.Run.kept15 _)⟩)
      (Cert.ReferenceIdeal.Run.run_main (F := Ideal) m' ρ')
    · refine Eq.trans ?_ (Cert.KernelIdeal.Results.atom m ρ c (hr c)).symm
      rw [Cert.ReferenceIdeal.Run.res0, Cert.ReferenceIdeal.ReadAtom.atom_eq, lit0_eq,
        show StableHlo.launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) from (hagree c).1,
        show StableHlo.launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) from (hagree c).2.1,
        show StableHlo.launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) from (hagree c).2.2.2.2.1,
        show StableHlo.launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) from (hagree c).2.2.2.2.2.1,
        show StableHlo.launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) from (hagree c).2.2.2.2.2.2.1,
        show StableHlo.launchContents m' c (Cert.ReferenceIdeal.main_arg7 : DevRef Cert.ReferenceIdeal.τ Cert.ReferenceIdeal.sig) = m ((c.tc : Thread Cert.KernelIdeal.nD Cert.KernelIdeal.τ).loc Cert.KernelIdeal.main_arg7) from (hagree c).2.2.2.2.2.2.2.1,
        show StableHlo.launchContents m' c (Cert.ReferenceIdeal.main_arg8 : DevRef Cert.ReferenceIdeal.τ Cert.ReferenceIdeal.sig) = m ((c.tc : Thread Cert.KernelIdeal.nD Cert.KernelIdeal.τ).loc Cert.KernelIdeal.main_arg8) from (hagree c).2.2.2.2.2.2.2.2.1]
    · refine Eq.trans ?_ (Cert.KernelIdeal.Results.bond m ρ c).symm
      rw [Cert.ReferenceIdeal.Run.res1, Cert.ReferenceIdeal.ReadBond.bond_eq,
        show StableHlo.launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) from (hagree c).2.2.1,
        show StableHlo.launchContents m' c (Cert.ReferenceIdeal.main_arg9 : DevRef Cert.ReferenceIdeal.τ Cert.ReferenceIdeal.sig) = m ((c.tc : Thread Cert.KernelIdeal.nD Cert.KernelIdeal.τ).loc Cert.KernelIdeal.main_arg9) from (hagree c).2.2.2.2.2.2.2.2.2.1,
        show StableHlo.launchContents m' c (Cert.ReferenceIdeal.main_arg10 : DevRef Cert.ReferenceIdeal.τ Cert.ReferenceIdeal.sig) = m ((c.tc : Thread Cert.KernelIdeal.nD Cert.KernelIdeal.τ).loc Cert.KernelIdeal.main_arg10) from (hagree c).2.2.2.2.2.2.2.2.2.2.1,
        show StableHlo.launchContents m' c (Cert.ReferenceIdeal.main_arg11 : DevRef Cert.ReferenceIdeal.τ Cert.ReferenceIdeal.sig) = m ((c.tc : Thread Cert.KernelIdeal.nD Cert.KernelIdeal.τ).loc Cert.KernelIdeal.main_arg11) from (hagree c).2.2.2.2.2.2.2.2.2.2.2.1]
    · refine Eq.trans ?_ (Cert.KernelIdeal.Results.bondF m ρ c).symm
      rw [Cert.ReferenceIdeal.Run.res2, Cert.ReferenceIdeal.ReadRbf.bondF_eq, lit1_eq,
        show StableHlo.launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) from (hagree c).2.2.1,
        show StableHlo.launchContents m' c (Cert.ReferenceIdeal.main_arg12 : DevRef Cert.ReferenceIdeal.τ Cert.ReferenceIdeal.sig) = m ((c.tc : Thread Cert.KernelIdeal.nD Cert.KernelIdeal.τ).loc Cert.KernelIdeal.main_arg12) from (hagree c).2.2.2.2.2.2.2.2.2.2.2.2.1,
        show StableHlo.launchContents m' c (Cert.ReferenceIdeal.main_arg13 : DevRef Cert.ReferenceIdeal.τ Cert.ReferenceIdeal.sig) = m ((c.tc : Thread Cert.KernelIdeal.nD Cert.KernelIdeal.τ).loc Cert.KernelIdeal.main_arg13) from (hagree c).2.2.2.2.2.2.2.2.2.2.2.2.2.1]
    · refine Eq.trans ?_ (Cert.KernelIdeal.Results.angle m ρ c).symm
      rw [Cert.ReferenceIdeal.Run.res3, Cert.ReferenceIdeal.ReadRbf.angle_eq, lit2_eq,
        show StableHlo.launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) from (hagree c).2.2.2.1,
        show StableHlo.launchContents m' c (Cert.ReferenceIdeal.main_arg14 : DevRef Cert.ReferenceIdeal.τ Cert.ReferenceIdeal.sig) = m ((c.tc : Thread Cert.KernelIdeal.nD Cert.KernelIdeal.τ).loc Cert.KernelIdeal.main_arg14) from (hagree c).2.2.2.2.2.2.2.2.2.2.2.2.2.2.1,
        show StableHlo.launchContents m' c (Cert.ReferenceIdeal.main_arg15 : DevRef Cert.ReferenceIdeal.τ Cert.ReferenceIdeal.sig) = m ((c.tc : Thread Cert.KernelIdeal.nD Cert.KernelIdeal.τ).loc Cert.KernelIdeal.main_arg15) from (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
